-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x1024 : Shape := ⟨2, ![1024, 1024]⟩
abbrev S128x128 : Shape := ⟨2, ![128, 128]⟩
abbrev S1x256 : Shape := ⟨2, ![1, 256]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S1024x128 .f32) (main_arg1 : IVec S1024x1024 32) (main_arg2 : FVec F S128x128 .f32) (main_arg3 : FVec F S1x256 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S1024x128 : Shape := ⟨2, ![1024, 128]⟩
abbrev S1024x1024 : Shape := ⟨2, ![1024, 1024]⟩
abbrev S128x128 : Shape := ⟨2, ![128, 128]⟩
abbrev S1x256 : Shape := ⟨2, ![1, 256]⟩
abbrev S1x128 : Shape := ⟨2, ![1, 128]⟩
abbrev S256x1024 : Shape := ⟨2, ![256, 1024]⟩
abbrev S256x128 : Shape := ⟨2, ![256, 128]⟩
abbrev S1024x1 : Shape := ⟨2, ![1024, 1]⟩
abbrev S1x1024 : Shape := ⟨2, ![1, 1024]⟩
abbrev S256x1 : Shape := ⟨2, ![256, 1]⟩
abbrev S256 : Shape := ⟨1, ![256]⟩

abbrev nBuf : Space → Nat
  | .hbm => 7
  | .vmem => 11
  | .smem => 0
  | _ => 0

abbrev bufTy : (tb : Table) → Fin (tcTables nBuf tb) → BufTy
  | .hbm, ⟨0, _⟩ => ⟨S1024x128, .f32⟩
  | .hbm, ⟨1, _⟩ => ⟨S1024x1024, .i32⟩
  | .hbm, ⟨2, _⟩ => ⟨S128x128, .f32⟩
  | .hbm, ⟨3, _⟩ => ⟨S1x256, .f32⟩
  | .hbm, ⟨4, _⟩ => ⟨S1x128, .f32⟩
  | .hbm, ⟨5, _⟩ => ⟨S1x128, .f32⟩
  | .hbm, ⟨6, _⟩ => ⟨S1024x128, .f32⟩
  | .local _ .vmem, ⟨0, _⟩ => ⟨S1024x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S256x1024, .i32⟩
  | .local _ .vmem, ⟨5, _⟩ => ⟨S256x1024, .i32⟩
  | .local _ .vmem, ⟨6, _⟩ => ⟨S256x128, .f32⟩
  | .local _ .vmem, ⟨7, _⟩ => ⟨S256x128, .f32⟩
  | .local _ .vmem, ⟨8, _⟩ => ⟨S1024x128, .f32⟩
  | .local _ .vmem, ⟨9, _⟩ => ⟨S1024x1, .f32⟩
  | .local _ .vmem, ⟨10, _⟩ => ⟨S1x1024, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1x256_S1x128_0_0 : S1x256.Slices ![0, 0] S1x128
  slices_S1x256_S1x128_0_128 : S1x256.Slices ![0, 128] S1x128
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S256x1 : 0 < S256x1.numel
  broadcasts_S256x1_S256x1024 : S256x1.Broadcasts S256x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x128 : S256x1.Broadcasts S256x128
  inb_S256x128_S256x128_0_0 : ∀ a, (![0, 0] : Fin 2 → Nat) a + S256x128.size a ≤ S256x128.size a
  h_S256x128 : 0 < S256x128.numel
  dot_S1024x128_S128x128_S1024x128_1_0_0_1_n_n_wf : DotDims.WF S1024x128 S128x128 S1024x128 [1] [0] [0] [1] [] []
  dot_S1024x128_S1x128_S1024x1_1_1_0_0_n_n_wf : DotDims.WF S1024x128 S1x128 S1024x1 [1] [1] [0] [0] [] []
  dot_S1x128_S1024x128_S1x1024_1_1_0_0_n_n_wf : DotDims.WF S1x128 S1024x128 S1x1024 [1] [1] [0] [0] [] []
  dot_S256x1024_S1024x128_S256x128_1_0_0_1_n_n_wf : DotDims.WF S256x1024 S1024x128 S256x128 [1] [0] [0] [1] [] []
  hrank0 : 0 < grid0.rank
  k0_off1_inb : ∀ i : grid0.Coords, ∀ a, (k0_off1 i) a + S256x1.size a ≤ S1024x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x1024.size a
  hwx0_4 : ∀ i : grid0.Coords, EltTy.bits .i32 = 32 ∨ (Rect.block (s := S1024x1024) S256x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S1024x128.size a
  hwx0_5 : ∀ i : grid0.Coords, EltTy.bits .f32 = 32 ∨ (Rect.block (s := S1024x128) S256x128.size (cc0_transform_5 i) (hinb0_5 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S1x128_S1024x1_1_1_0_0_n_n : DotDims S1024x128 S1x128 S1024x1 where
  lhsContracting := [1]
  rhsContracting := [1]
  lhsNonContracting := [0]
  rhsNonContracting := [0]
  lhsBatch := []
  rhsBatch := []
  wf := dot_S1024x128_S1x128_S1024x1_1_1_0_0_n_n_wf
def dot_S1x128_S1024x128_S1x1024_1_1_0_0_n_n : DotDims S1x128 S1024x128 S1x1024 where
  lhsContracting := [1]
  rhsContracting := [1]
  lhsNonContracting := [0]
  rhsNonContracting := [0]
  lhsBatch := []
  rhsBatch := []
  wf := dot_S1x128_S1024x128_S1x1024_1_1_0_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x1024 : Shape := ⟨2, ![1024, 1024]⟩
abbrev S128x128 : Shape := ⟨2, ![128, 128]⟩
abbrev S1x256 : Shape := ⟨2, ![1, 256]⟩
abbrev S_ : Shape := ⟨0, ![]⟩
abbrev S1048576 : Shape := ⟨1, ![1048576]⟩
abbrev S1048576x1 : Shape := ⟨2, ![1048576, 1]⟩
abbrev S1048576x128 : Shape := ⟨2, ![1048576, 128]⟩
abbrev S1048576x256 : Shape := ⟨2, ![1048576, 256]⟩
abbrev S256x1048576 : Shape := ⟨2, ![256, 1048576]⟩
abbrev S1x1048576 : Shape := ⟨2, ![1, 1048576]⟩
abbrev S1024 : Shape := ⟨1, ![1024]⟩
abbrev S1024x1 : Shape := ⟨2, ![1024, 1]⟩

abbrev nBuf : Space → Nat
  | .hbm => 208
  | .vmem => 0
  | .smem => 0
  | _ => 0

abbrev hbmTy0_0 (i : Nat) : BufTy := match i % 128 with
  | 0 => ⟨S1024x128, .f32⟩
  | 1 => ⟨S1024x1024, .i32⟩
  | 2 => ⟨S128x128, .f32⟩
  | 3 => ⟨S1x256, .f32⟩
  | 4 => ⟨S_, .i32⟩
  | 5 => ⟨S1024x1024, .i32⟩
  | 6 => ⟨S1024x1024, .i1⟩
  | 7 => ⟨S1048576, .i1⟩
  | 8 => ⟨S1048576, .i32⟩
  | 9 => ⟨S_, .i32⟩
  | 10 => ⟨S_, .i32⟩
  | 11 => ⟨S1048576, .i32⟩
  | 12 => ⟨S_, .i32⟩
  | 13 => ⟨S1048576, .i32⟩
  | 14 => ⟨S_, .i32⟩
  | 15 => ⟨S_, .i32⟩
  | 16 => ⟨S1048576, .i32⟩
  | 17 => ⟨S1048576, .i32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S1048576x1, .i32⟩
  | 26 => ⟨S_, .i32⟩
  | 27 => ⟨S1048576, .i32⟩
  | 28 => ⟨S1048576, .i32⟩
  | 29 => ⟨S_, .i32⟩
  | 30 => ⟨S_, .i32⟩
  | 31 => ⟨S1048576, .i32⟩
  | 32 => ⟨S_, .i32⟩
  | 33 => ⟨S1048576, .i32⟩
  | 34 => ⟨S1048576, .i32⟩
  | 35 => ⟨S1048576, .i32⟩
  | 36 => ⟨S_, .i32⟩
  | 37 => ⟨S1048576, .i32⟩
  | 38 => ⟨S1048576, .i1⟩
  | 39 => ⟨S1048576, .i32⟩
  | 40 => ⟨S1048576, .i32⟩
  | 41 => ⟨S_, .i32⟩
  | 42 => ⟨S1048576, .i32⟩
  | 43 => ⟨S1048576, .i1⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i1⟩
  | 63 => ⟨S_, .i32⟩
  | 64 => ⟨S_, .i1⟩
  | 65 => ⟨S1048576, .i1⟩
  | 66 => ⟨S1048576, .i1⟩
  | 67 => ⟨S1048576, .i1⟩
  | 68 => ⟨S1048576, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S1048576, .i32⟩
  | 79 => ⟨S1048576, .i32⟩
  | 80 => ⟨S_, .i32⟩
  | 81 => ⟨S1048576, .i32⟩
  | 82 => ⟨S1048576, .i1⟩
  | 83 => ⟨S1048576, .i1⟩
  | 84 => ⟨S_, .i32⟩
  | 85 => ⟨S1048576, .i32⟩
  | 86 => ⟨S1048576, .i32⟩
  | 87 => ⟨S1048576, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i1⟩
  | 102 => ⟨S_, .i32⟩
  | 103 => ⟨S_, .i1⟩
  | 104 => ⟨S1048576, .i1⟩
  | 105 => ⟨S1048576, .i1⟩
  | 106 => ⟨S1048576, .i1⟩
  | 107 => ⟨S1048576, .i32⟩
  | 108 => ⟨S1048576, .i32⟩
  | 109 => ⟨S1048576, .i32⟩
  | 110 => ⟨S1048576, .i32⟩
  | 111 => ⟨S1024x1024, .i32⟩
  | 112 => ⟨S_, .i32⟩
  | 113 => ⟨S_, .i32⟩
  | 114 => ⟨S1048576, .i32⟩
  | 115 => ⟨S1048576, .i1⟩
  | 116 => ⟨S_, .i32⟩
  | 117 => ⟨S_, .i32⟩
  | 118 => ⟨S1048576, .i32⟩
  | 119 => ⟨S1048576, .i32⟩
  | 120 => ⟨S_, .i32⟩
  | 121 => ⟨S_, .i32⟩
  | 122 => ⟨S1048576, .i32⟩
  | 123 => ⟨S1048576, .i32⟩
  | 124 => ⟨S1048576, .i32⟩
  | 125 => ⟨S_, .i32⟩
  | 126 => ⟨S1024x1024, .i32⟩
  | 127 => ⟨S1024x1024, .i1⟩
  | _ => ⟨S1024x128, .f32⟩

abbrev hbmTy0_1 (i : Nat) : BufTy := match i % 128 with
  | 0 => ⟨S1024x1024, .i32⟩
  | 1 => ⟨S_, .i32⟩
  | 2 => ⟨S_, .i32⟩
  | 3 => ⟨S1048576, .i32⟩
  | 4 => ⟨S1048576, .i1⟩
  | 5 => ⟨S1024x128, .f32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S1048576x1, .i32⟩
  | 14 => ⟨S1048576x128, .f32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S1048576x1, .i32⟩
  | 23 => ⟨S1048576x128, .f32⟩
  | 24 => ⟨S1048576x256, .f32⟩
  | 25 => ⟨S256x1048576, .f32⟩
  | 26 => ⟨S1x1048576, .f32⟩
  | 27 => ⟨S1048576, .f32⟩
  | 28 => ⟨S_, .f32⟩
  | 29 => ⟨S_, .f32⟩
  | 30 => ⟨S1048576, .f32⟩
  | 31 => ⟨S1048576, .i1⟩
  | 32 => ⟨S_, .f32⟩
  | 33 => ⟨S1048576, .f32⟩
  | 34 => ⟨S1048576, .f32⟩
  | 35 => ⟨S1048576, .f32⟩
  | 36 => ⟨S1048576, .f32⟩
  | 37 => ⟨S1048576, .f32⟩
  | 38 => ⟨S_, .f32⟩
  | 39 => ⟨S_, .f32⟩
  | 40 => ⟨S1048576, .f32⟩
  | 41 => ⟨S1048576, .f32⟩
  | 42 => ⟨S_, .f32⟩
  | 43 => ⟨S1024, .f32⟩
  | 44 => ⟨S1048576x1, .i32⟩
  | 45 => ⟨S1024, .f32⟩
  | 46 => ⟨S1024x1, .f32⟩
  | 47 => ⟨S1048576x1, .f32⟩
  | 48 => ⟨S_, .i32⟩
  | 49 => ⟨S1048576, .i32⟩
  | 50 => ⟨S1048576, .i1⟩
  | 51 => ⟨S_, .i32⟩
  | 52 => ⟨S1048576, .i32⟩
  | 53 => ⟨S1048576, .i32⟩
  | 54 => ⟨S1048576, .i32⟩
  | 55 => ⟨S1048576x1, .i32⟩
  | 56 => ⟨S1048576x128, .f32⟩
  | 57 => ⟨S1048576x128, .f32⟩
  | 58 => ⟨S1048576x128, .f32⟩
  | 59 => ⟨S_, .f32⟩
  | 60 => ⟨S1024x128, .f32⟩
  | 61 => ⟨S1048576x1, .i32⟩
  | 62 => ⟨S1024x128, .f32⟩
  | 63 => ⟨S1024x128, .f32⟩
  | 64 => ⟨S1024x128, .f32⟩
  | 65 => ⟨S_, .f32⟩
  | 66 => ⟨S1024x128, .f32⟩
  | 67 => ⟨S1024x128, .i1⟩
  | 68 => ⟨S_, .f32⟩
  | 69 => ⟨S1024x128, .f32⟩
  | 70 => ⟨S1024x128, .i1⟩
  | 71 => ⟨S_, .f32⟩
  | 72 => ⟨S_, .f32⟩
  | 73 => ⟨S1024x128, .f32⟩
  | 74 => ⟨S1024x128, .f32⟩
  | 75 => ⟨S1024x128, .f32⟩
  | 76 => ⟨S_, .f32⟩
  | 77 => ⟨S1024x128, .f32⟩
  | 78 => ⟨S1024x128, .f32⟩
  | 79 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_c_2 : Ref sig .tc := ⟨.hbm, 18, rfl⟩
abbrev main_v5 : Ref sig .tc := ⟨.hbm, 19, rfl⟩
abbrev main_v6 : Ref sig .tc := ⟨.hbm, 20, rfl⟩
abbrev main_c_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_call2_call0_c : Ref sig .tc := ⟨.hbm, 29, rfl⟩
abbrev main_call2_call0_v0 : Ref sig .tc := ⟨.hbm, 30, rfl⟩
abbrev main_v13 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v14 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v15 : Ref sig .tc := ⟨.hbm, 70, rfl⟩
abbrev main_c_7 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v16 : Ref sig .tc := ⟨.hbm, 87, rfl⟩
abbrev main_c_8 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_9 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_c_10 : Ref sig .tc := ⟨.hbm, 116, rfl⟩
abbrev main_call7_v0 : Ref sig .tc := ⟨.hbm, 117, rfl⟩
abbrev main_call7_v1 : Ref sig .tc := ⟨.hbm, 118, rfl⟩
abbrev main_v23 : Ref sig .tc := ⟨.hbm, 119, rfl⟩
abbrev main_c_11 : Ref sig .tc := ⟨.hbm, 120, rfl⟩
abbrev main_call8_v0 : Ref sig .tc := ⟨.hbm, 121, rfl⟩
abbrev main_call8_v1 : Ref sig .tc := ⟨.hbm, 122, rfl⟩
abbrev main_v24 : Ref sig .tc := ⟨.hbm, 123, rfl⟩
abbrev main_v25 : Ref sig .tc := ⟨.hbm, 124, rfl⟩
abbrev main_call9_c : Ref sig .tc := ⟨.hbm, 125, rfl⟩
abbrev main_call9_v0 : Ref sig .tc := ⟨.hbm, 126, rfl⟩
abbrev main_call9_v1 : Ref sig .tc := ⟨.hbm, 127, rfl⟩
abbrev main_call9_v2 : Ref sig .tc := ⟨.hbm, 128, rfl⟩
abbrev main_call9_c_0 : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_c_12 : Ref sig .tc := ⟨.hbm, 134, rfl⟩
abbrev main_v30 : Ref sig .tc := ⟨.hbm, 135, rfl⟩
abbrev main_v31 : Ref sig .tc := ⟨.hbm, 136, rfl⟩
abbrev main_c_13 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_v36 : Ref sig .tc := ⟨.hbm, 142, rfl⟩
abbrev main_c_14 : Ref sig .tc := ⟨.hbm, 143, rfl⟩
abbrev main_v37 : Ref sig .tc := ⟨.hbm, 144, rfl⟩
abbrev main_v38 : Ref sig .tc := ⟨.hbm, 145, rfl⟩
abbrev main_c_15 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_cst : Ref sig .tc := ⟨.hbm, 156, rfl⟩
abbrev main_call10_cst : Ref sig .tc := ⟨.hbm, 157, rfl⟩
abbrev main_call10_v0 : Ref sig .tc := ⟨.hbm, 158, rfl⟩
abbrev main_call10_v1 : Ref sig .tc := ⟨.hbm, 159, rfl⟩
abbrev main_call10_v2 : Ref sig .tc := ⟨.hbm, 160, rfl⟩
abbrev main_call10_v3 : Ref sig .tc := ⟨.hbm, 161, rfl⟩
abbrev main_call10_v4 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_cst_16 : Ref sig .tc := ⟨.hbm, 166, rfl⟩
abbrev main_call11_v0 : Ref sig .tc := ⟨.hbm, 167, rfl⟩
abbrev main_call11_v1 : Ref sig .tc := ⟨.hbm, 168, rfl⟩
abbrev main_v51 : Ref sig .tc := ⟨.hbm, 169, rfl⟩
abbrev main_cst_17 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_c_18 : Ref sig .tc := ⟨.hbm, 176, rfl⟩
abbrev main_v57 : Ref sig .tc := ⟨.hbm, 177, rfl⟩
abbrev main_v58 : Ref sig .tc := ⟨.hbm, 178, rfl⟩
abbrev main_c_19 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_cst_20 : Ref sig .tc := ⟨.hbm, 187, rfl⟩
abbrev main_v66 : Ref sig .tc := ⟨.hbm, 188, rfl⟩
abbrev main_v67 : Ref sig .tc := ⟨.hbm, 189, rfl⟩
abbrev main_v68 : Ref sig .tc := ⟨.hbm, 190, rfl⟩
abbrev main_v69 : Ref sig .tc := ⟨.hbm, 191, rfl⟩
abbrev main_v70 : Ref sig .tc := ⟨.hbm, 192, rfl⟩
abbrev main_call12_cst : Ref sig .tc := ⟨.hbm, 193, rfl⟩
abbrev main_call12_v0 : Ref sig .tc := ⟨.hbm, 194, rfl⟩
abbrev main_call12_v1 : Ref sig .tc := ⟨.hbm, 195, rfl⟩
abbrev main_call12_cst_0 : Ref sig .tc := ⟨.hbm, 196, rfl⟩
abbrev main_call12_v2 : Ref sig .tc := ⟨.hbm, 197, rfl⟩
abbrev main_call12_v3 : Ref sig .tc := ⟨.hbm, 198, rfl⟩
abbrev main_call12_cst_1 : Ref sig .tc := ⟨.hbm, 199, rfl⟩
abbrev main_call12_call0_v0 : Ref sig .tc := ⟨.hbm, 200, rfl⟩
abbrev main_call12_call0_v1 : Ref sig .tc := ⟨.hbm, 201, rfl⟩
abbrev main_call12_v4 : Ref sig .tc := ⟨.hbm, 202, rfl⟩
abbrev main_call12_v5 : Ref sig .tc := ⟨.hbm, 203, rfl⟩
abbrev main_call12_cst_2 : Ref sig .tc := ⟨.hbm, 204, rfl⟩
abbrev main_call12_v6 : Ref sig .tc := ⟨.hbm, 205, rfl⟩
abbrev main_call12_v7 : Ref sig .tc := ⟨.hbm, 206, rfl⟩
abbrev main_v71 : Ref sig .tc := ⟨.hbm, 207, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1024x1024_S_d0_1 : S1024x1024.ReducesTo [0, 1] S_
  concatenates_S1048576x128_S1048576x128_S1048576x256_d1 : Shape.Concatenates [S1048576x128, S1048576x128] S1048576x256 1
  transposes_S1048576x256_S256x1048576_1_0 : S1048576x256.Transposes [1, 0] S256x1048576
  shapeCasts_S1x1048576_S1048576 : S1x1048576.ShapeCasts S1048576
  bcast_S_S1024 : S_.BroadcastsInDim S1024 (![] : Fin 0 → Fin S1024.rank)
  bcast_S1024_S1024x1_0 : S1024.BroadcastsInDim S1024x1 (![0] : Fin 1 → Fin S1024x1.rank)
  bcast_S1048576x1_S1048576x128_0_1 : S1048576x1.BroadcastsInDim S1048576x128 (![0, 1] : Fin 2 → Fin S1048576x128.rank)
  bcast_S_S1024x128 : S_.BroadcastsInDim S1024x128 (![] : Fin 0 → Fin S1024x128.rank)
  bcast_S1024x1_S1024x128_0_1 : S1024x1.BroadcastsInDim S1024x128 (![0, 1] : Fin 2 → Fin S1024x128.rank)
  scatter_S1048576_S1048576x1_S1048576_n_0_0_1_wf : ScatterDims.WF S1048576 S1048576x1 S1048576 [] [0] [0] 1
  dot_S1024x128_S128x128_S1024x128_1_0_0_1_n_n_wf : DotDims.WF S1024x128 S128x128 S1024x128 [1] [0] [0] [1] [] []
  gather_S1024x128_S1048576x1_S1048576x128_1_0_n_n_0_1_1128_wf : GatherDims.WF S1024x128 S1048576x1 S1048576x128 [1] [0] [] [0] [] 1 ![1, 128]
  dot_S1x256_S256x1048576_S1x1048576_1_0_0_1_n_n_wf : DotDims.WF S1x256 S256x1048576 S1x1048576 [1] [0] [0] [1] [] []
  scatter_S1024_S1048576x1_S1048576_n_0_0_1_wf : ScatterDims.WF S1024 S1048576x1 S1048576 [] [0] [0] 1
  scatter_S1024x128_S1048576x1_S1048576x128_1_0_0_1_wf : ScatterDims.WF S1024x128 S1048576x1 S1048576x128 [1] [0] [0] 1

variable [Facts₀]

def scatter_S1048576_S1048576x1_S1048576_n_0_0_1 : ScatterDims S1048576 S1048576x1 S1048576 where
  updateWindowDims := []
  insertedWindowDims := [0]
  scatterDimsToOperandDims := [0]
  indexVectorDim := 1
  wf := scatter_S1048576_S1048576x1_S1048576_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def dot_S1x256_S256x1048576_S1x1048576_1_0_0_1_n_n : DotDims S1x256 S256x1048576 S1x1048576 where
  lhsContracting := [1]
  rhsContracting := [0]
  lhsNonContracting := [0]
  rhsNonContracting := [1]
  lhsBatch := []
  rhsBatch := []
  wf := dot_S1x256_S256x1048576_S1x1048576_1_0_0_1_n_n_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf

class Facts : Prop extends Facts₀ where

variable [Facts]
-- ==== Proof.Spec.lean ====
/-
  The mathematics of one graph-attention layer, index by index, on the extended reals.

  Inputs: features `X : [1024, 128]`, an integer adjacency matrix `A : [1024, 1024]` (an edge `i → j` wherever
  `A i j ≠ 0`), a projection `W : [128, 128]` and an attention vector `a : [1, 256]` (its first half scores the
  source node, its second half the target node).

  With `h = X · W`, `f i = ∑ₖ h i k · a k` and `g j = ∑ₖ a (128 + k) · h j k`, edge `i → j` has the weight
  `exp (−leaky_relu (f i + g j))`; node `i`'s output row is the weighted mean of its neighbours' rows of `h`
  passed through `elu`.

  Two spellings of that layer are stated here.
  * DENSE (`outK`): the weights of row `i` are laid out over all `j`, zero where there is no edge;
    `−leaky_relu s` is written `min (0 − s) (c' · s)` with `c'` the negated slope.
  * BY EDGE LIST (`outR`): edges are numbered `e < 1024²`, edge `e` going `src e → dst e` and counted only when its
    flag `vld e` is set; a node's sums run over the edges leaving it; `leaky_relu s` is `s` when `0 ≤ s` and
    `c · s` otherwise, and `elu` guards the argument of `exp · − 1`.
-/
import Idealize.ShloMosaic.PureOps.Ideal
import Idealize.ShloMosaic.PureOps.Ideal.Laws
import Idealize.ShloMosaic.Lib.ValueIdx

noncomputable section

open scoped BigOperators

namespace Cert.Gat

open Idealize.ShloMosaic Idealize.ShloMosaic.ValueIdx

/-- The number of edge slots: one per entry of the adjacency matrix. -/
abbrev E : Nat := 1048576

variable (X : (⟨2, ![1024, 128]⟩ : Shape).Idx → EReal) (W : (⟨2, ![128, 128]⟩ : Shape).Idx → EReal)
  (a : (⟨2, ![1, 256]⟩ : Shape).Idx → EReal)

/-- The projected features `h = X · W`. -/
def h (i : Fin 1024) (k : Fin 128) : EReal := ∑ d : Fin 128, X (ix2 i d) * W (ix2 d k)

/-- The source score of node `i`: `h i` against the first half of `a`. -/
def f (i : Fin 1024) : EReal := ∑ k : Fin 128, h X W i k * a (ix2 (0 : Fin 1) (⟨k.val, by omega⟩ : Fin 256))

/-- The target score of node `j`: the second half of `a` against `h j`. -/
def g (j : Fin 1024) : EReal := ∑ k : Fin 128, a (ix2 (0 : Fin 1) (⟨128 + k.val, by omega⟩ : Fin 256)) * h X W j k

/-- The slope of `leaky_relu` on the negative side, as the single-precision word the programs carry. -/
def slope : EReal := Ideal.ofBits .f32 0x3C23D70A#32

/-- The same word with its sign bit set. -/
def nslope : EReal := Ideal.ofBits .f32 0xBC23D70A#32

/-- `elu`, as a select on the comparison with zero. -/
def elu (x : EReal) : EReal := Scalar.select (Ideal.cmp .ogt x 0) x (Ideal.exp x - 1)

/-! ## Dense -/

/-- The weight of the pair `(i, j)`: `exp (min (0 − s) (c' · s))` at `s = f i + g j` on an edge, zero elsewhere. -/
def wK (A : (⟨2, ![1024, 1024]⟩ : Shape).Idx → BitVec 32) (i j : Fin 1024) : EReal :=
  if A (ix2 i j) ≠ 0#32 then Ideal.exp (min (0 - (f X W a i + g X W a j)) (nslope * (f X W a i + g X W a j))) else 0

/-- Row `i`'s total weight. -/
def rowK (A : (⟨2, ![1024, 1024]⟩ : Shape).Idx → BitVec 32) (i : Fin 1024) : EReal := ∑ j : Fin 1024, wK X W a A i j

/-- Row `i`'s weighted sum of the neighbours' features. -/
def aggK (A : (⟨2, ![1024, 1024]⟩ : Shape).Idx → BitVec 32) (i : Fin 1024) (k : Fin 128) : EReal :=
  ∑ j : Fin 1024, wK X W a A i j * h X W j k

/-- The layer, dense. -/
def outK (A : (⟨2, ![1024, 1024]⟩ : Shape).Idx → BitVec 32) (i : Fin 1024) (k : Fin 128) : EReal :=
  elu (Ideal.div (aggK X W a A i k) (rowK X W a A i))

/-! ## By edge list -/

variable (src dst : Fin E → Fin 1024) (vld : Fin E → BitVec 1)

/-- Edge `e`'s score: `a` against the concatenation of `h (src e)` and `h (dst e)`. -/
def sR (e : Fin E) : EReal :=
  ∑ k : Fin 256, a (ix2 (0 : Fin 1) k) *
    (if hk : k.val < 128 then h X W (src e) ⟨k.val, hk⟩ else h X W (dst e) ⟨k.val - 128, by omega⟩)

/-- Edge `e`'s weight: `exp (−leaky_relu (score))` when its flag is set, else zero. -/
def wR (e : Fin E) : EReal :=
  Scalar.select (vld e)
    (Ideal.exp (-(Scalar.select (Ideal.cmp .oge (sR X W a src dst e) 0) (sR X W a src dst e) (slope * sR X W a src dst e)))) 0

/-- Node `i`'s total weight over the edges leaving it. -/
def rowR (i : Fin 1024) : EReal := ∑ e ∈ Finset.univ.filter (fun e : Fin E => src e = i), wR X W a src dst vld e

/-- Node `i`'s weighted sum of the targets' features over the edges leaving it. -/
def aggR (i : Fin 1024) (k : Fin 128) : EReal :=
  ∑ e ∈ Finset.univ.filter (fun e : Fin E => src e = i), wR X W a src dst vld e * h X W (dst e) k

/-- `elu` with the guarded argument: `x` where `0 < x`, else `1 · (exp x' − 1)` at `x' = x` (zero where `0 < x`). -/
def eluR (x : EReal) : EReal :=
  Scalar.select (Ideal.cmp .ogt x 0) x
    (Ideal.ofBits .f32 0x3F800000#32 * (Ideal.exp (Scalar.select (Ideal.cmp .ogt x 0) 0 x) - 1))

/-- The layer, by edge list. -/
def outR (i : Fin 1024) (k : Fin 128) : EReal :=
  eluR (Ideal.div (aggR X W a src dst vld i k) (rowR X W a src dst vld i))

end Cert.Gat

end
-- ==== Proof.KernelValue.lean ====
/-
  The kernel's run at the ideal values: every weakly fair execution terminates, leaves the four arguments unchanged, and
  leaves in the result buffer the dense layer `Cert.Gat.outK` of the arguments, entry by entry.
-/
import proofs.«104574_g83193516523656_cont_sun_m_929_5_alg».proof.Defs
import proofs.«104574_g83193516523656_cont_sun_m_929_5_alg».proof.Proof.Gen.KernelIdeal.Value
import proofs.«104574_g83193516523656_cont_sun_m_929_5_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Idealize.ShloMosaic Idealize.SL.Sem Cert.KernelIdeal

section Support

open Idealize.ShloMosaic.TcCoe Cert.KernelIdeal.Gen
open Idealize.ShloMosaic.Pipeline (Dat)

/-! ## What each grid point leaves, for any float values -/

section Generic

variable {F : FTy → Type} [FloatOps F]

/-- The zero offsets, however spelt. -/
theorem hz : (![0, 0] : Fin 2 → Nat) = fun _ => 0 := funext fun a => by fin_cases a <;> rfl

/-- Rows `[256 t, 256 t + 256)` of the source-score column, as the body loads them at grid point `t`. -/
abbrev fblk (i : grid0.Coords) (s1 : Vec F S1024x1 .f32) : Vec F S256x1 .f32 :=
  View.ld s1 (Rect.unit (s := S1024x1) (k0_off1 i) S256x1.size (Facts₀.k0_off1_inb i))

/-- At the first point the body stores the projection of the whole feature array into the first carried buffer. -/
theorem sA0 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1x1024 .f32) (harg9 : arg9.IsWhole) (hc0 : cond0_0 i) (x0 : Vec F S1024x128 .f32) (x1 : Vec F S128x128 .f32) (x2 : Vec F S1x128 .f32) (x3 : Vec F S1x128 .f32) (x4 : Vec F S256x1024 .i32) :
    sout0_A_0 c i arg1 harg1 arg2 harg2 arg3 harg3 arg4 harg4 arg5 harg5 arg6 harg6 arg7 harg7 arg8 harg8 arg9 harg9 hc0 x0 x1 x2 x3 x4 = k0_pay2 x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, View.ld_unit_zero (S := S1024x128) hz, View.ld_unit_zero (S := S128x128) hz]

/-- … the source scores into the second … -/
theorem sA1 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1x1024 .f32) (harg9 : arg9.IsWhole) (hc0 : cond0_0 i) (x0 : Vec F S1024x128 .f32) (x1 : Vec F S128x128 .f32) (x2 : Vec F S1x128 .f32) (x3 : Vec F S1x128 .f32) (x4 : Vec F S256x1024 .i32) :
    sout0_A_1 c i arg1 harg1 arg2 harg2 arg3 harg3 arg4 harg4 arg5 harg5 arg6 harg6 arg7 harg7 arg8 harg8 arg9 harg9 hc0 x0 x1 x2 x3 x4 = k0_pay3 x0 x1 x2 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg3.read_unread, View.ld_unit_zero (S := S1024x128) hz, View.ld_unit_zero (S := S128x128) hz, View.ld_unit_zero (S := S1x128) hz]

/-- … and the target scores into the third. -/
theorem sA2 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1x1024 .f32) (harg9 : arg9.IsWhole) (hc0 : cond0_0 i) (x0 : Vec F S1024x128 .f32) (x1 : Vec F S128x128 .f32) (x2 : Vec F S1x128 .f32) (x3 : Vec F S1x128 .f32) (x4 : Vec F S256x1024 .i32) :
    sout0_A_2 c i arg1 harg1 arg2 harg2 arg3 harg3 arg4 harg4 arg5 harg5 arg6 harg6 arg7 harg7 arg8 harg8 arg9 harg9 hc0 x0 x1 x2 x3 x4 = k0_pay4 x0 x1 x3 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz]
  simp only [View.readAt_eq_ld, harg1.read_unread, harg2.read_unread, harg4.read_unread, View.ld_unit_zero (S := S1024x128) hz, View.ld_unit_zero (S := S128x128) hz, View.ld_unit_zero (S := S1x128) hz]

/-- At the first point the output block is the last payload of what was just stored: the point's rows of the source
    scores, the target scores, the adjacency block and the projection. -/
theorem oA5 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1x1024 .f32) (harg9 : arg9.IsWhole) (hc0 : cond0_0 i) (x0 : Vec F S1024x128 .f32) (x1 : Vec F S128x128 .f32) (x2 : Vec F S1x128 .f32) (x3 : Vec F S1x128 .f32) (x4 : Vec F S256x1024 .i32) :
    out0_A_5 c i arg1 harg1 arg2 harg2 arg3 harg3 arg4 harg4 arg5 harg5 arg6 harg6 arg7 harg7 arg8 harg8 arg9 harg9 hc0 x0 x1 x2 x3 x4 = k0_pay5 (fblk i (k0_pay3 x0 x1 x2)) (k0_pay4 x0 x1 x3) x4 (k0_pay2 x0 x1) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_run_names
  rw [View.canon_unit_zero (S := S256x128) hz]
  simp only [View.readAt_eq_ld, harg1.read_unread, harg2.read_unread, harg3.read_unread, harg4.read_unread, harg5.read_unread,
    View.ld_unit_zero (S := S1024x128) hz, View.ld_unit_zero (S := S128x128) hz, View.ld_unit_zero (S := S1x128) hz,
    View.ld_unit_zero (S := S256x1024) hz, View.readCov_unit_zero (S := S1x1024) _ hz, View.readCov_unit_zero (S := S1024x128) _ hz,
    View.read_writes_junk_eq_canon, View.canon_unit_zero (S := S1024x1) hz]

/-- At a later point it is the same payload of what the carried buffers hold. -/
theorem oB5 (c : Dev nD) (i : grid0.Coords) (arg1 : Memref sig .tc .vmem S1024x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S256x1024 .i32) (harg5 : arg5.IsWhole) (arg6 : Memref sig .tc .vmem S256x128 .f32) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1x1024 .f32) (harg9 : arg9.IsWhole) (hc0 : ¬cond0_0 i) (x0 : Vec F S1024x128 .f32) (x1 : Vec F S128x128 .f32) (x2 : Vec F S1x128 .f32) (x3 : Vec F S1x128 .f32) (x4 : Vec F S256x1024 .i32) (xs0 : Vec F S1024x128 .f32) (xs1 : Vec F S1024x1 .f32) (xs2 : Vec F S1x1024 .f32) :
    out0_B_5 c i arg1 harg1 arg2 harg2 arg3 harg3 arg4 harg4 arg5 harg5 arg6 harg6 arg7 harg7 arg8 harg8 arg9 harg9 hc0 x0 x1 x2 x3 x4 xs0 xs1 xs2 = k0_pay5 (fblk i xs1) xs2 x4 xs0 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xs0 xs1 xs2)]
  unfold kernelRun0_B
  dsimp only
  sl_unfold_run_names
  rw [View.canon_unit_zero (S := S256x128) hz]
  simp only [View.readAt_eq_ld, harg5.read_unread, harg7.read_unread, harg8.read_unread, harg9.read_unread,
    View.ld_unit_zero (S := S1024x128) hz, View.ld_unit_zero (S := S1x1024) hz, View.ld_unit_zero (S := S256x1024) hz]

section Frame

variable (m : (ℓ : Loc nD τ sig) → Buf (Elt F) ℓ)

/-- The blocks the five input windows stage at grid point `t`, at their literal shapes. -/
abbrev Xb (c : Dev nD) (t : Fin cfg0.N) : Vec F S1024x128 .f32 := iblk m c 0 t
abbrev Wb (c : Dev nD) (t : Fin cfg0.N) : Vec F S128x128 .f32 := iblk m c 1 t
abbrev a1b (c : Dev nD) (t : Fin cfg0.N) : Vec F S1x128 .f32 := iblk m c 2 t
abbrev a2b (c : Dev nD) (t : Fin cfg0.N) : Vec F S1x128 .f32 := iblk m c 3 t
abbrev Ab (c : Dev nD) (t : Fin cfg0.N) : Vec F S256x1024 .i32 := iblk m c 4 t

/-- The five arrays those windows read, as the region finds them. -/
abbrev Xa (c : Dev nD) : Vec F S1024x128 .f32 := V m c main_arg0
abbrev Wa (c : Dev nD) : Vec F S128x128 .f32 := V m c main_arg2
abbrev a1a (c : Dev nD) : Vec F S1x128 .f32 := V m c main_v0
abbrev a2a (c : Dev nD) : Vec F S1x128 .f32 := V m c main_v1
abbrev Aa (c : Dev nD) : Vec F S1024x1024 .i32 := V m c main_arg1

/-- The block indices over the grid: the four parameter windows stay at block (0, 0); the adjacency window and the
    output window move down one block of 256 rows per point; the body's row offset into the score column is `256 t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ k0_off1 (grid0.coords t) (0 : Fin 2) = 256 * t.val ∧ k0_off1 (grid0.coords t) (1 : Fin 2) = 0 :=
  (by decide +kernel : ∀ t : Fin grid0.N, _)

theorem Xb_eq (c : Dev nD) (t : Fin cfg0.N) : Xb m c t = Xa m c := by
  obtain ⟨e0, e1, -⟩ := idx_facts t
  funext y
  show V m c main_arg0 (((cfg0.win 0).blk t).view.emb y) = V m c main_arg0 y
  refine congrArg (V m c main_arg0) (funext fun a => Fin.ext ?_)
  match a with
  | ⟨0, _⟩ => show win0_0.index t (0 : Fin 2) * 1024 + 1 * (y 0).val = (y 0).val; omega
  | ⟨1, _⟩ => show win0_0.index t (1 : Fin 2) * 128 + 1 * (y 1).val = (y 1).val; omega

theorem Wb_eq (c : Dev nD) (t : Fin cfg0.N) : Wb m c t = Wa m c := by
  obtain ⟨-, -, e0, e1, -⟩ := idx_facts t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem a1b_eq (c : Dev nD) (t : Fin cfg0.N) : a1b m c t = a1a m c := by
  obtain ⟨-, -, -, -, e0, e1, -⟩ := idx_facts t
  funext y
  show V m c main_v0 (((cfg0.win 2).blk t).view.emb y) = V m c main_v0 y
  refine congrArg (V m c main_v0) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem a2b_eq (c : Dev nD) (t : Fin cfg0.N) : a2b m c t = a2a m c := by
  obtain ⟨-, -, -, -, -, -, e0, e1, -⟩ := idx_facts t
  funext y
  show V m c main_v1 (((cfg0.win 3).blk t).view.emb y) = V m c main_v1 y
  refine congrArg (V m c main_v1) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- What the three carried buffers hold once point 0 has filled them: the projection, the source scores, the target
    scores of the whole arrays. -/
abbrev hS (c : Dev nD) : Vec F S1024x128 .f32 := k0_pay2 (Xa m c) (Wa m c)
abbrev fS (c : Dev nD) : Vec F S1024x1 .f32 := k0_pay3 (Xa m c) (Wa m c) (a1a m c)
abbrev gS (c : Dev nD) : Vec F S1x1024 .f32 := k0_pay4 (Xa m c) (Wa m c) (a2a m c)

/-- After every point the carried buffers hold those three: point 0 stores them, the later points leave them. -/
theorem outs_scratch (c : Dev nD) : ∀ (n : ℕ) (h : n < cfg0.N), (outsAt0 m c n h).2 = (hS m c, fS m c, gS m c)
  | 0, h => by
    rw [outsAt0_A m c ⟨0, h⟩ rfl]
    dsimp only
    rw [sA0 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) scM0_2 (Memref.isWhole_whole cc0_scratch2) ((hcond0_0 ⟨0, h⟩).mpr rfl) (Xb m c ⟨0, h⟩) (Wb m c ⟨0, h⟩) (a1b m c ⟨0, h⟩) (a2b m c ⟨0, h⟩) (Ab m c ⟨0, h⟩),
      sA1 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) scM0_2 (Memref.isWhole_whole cc0_scratch2) ((hcond0_0 ⟨0, h⟩).mpr rfl) (Xb m c ⟨0, h⟩) (Wb m c ⟨0, h⟩) (a1b m c ⟨0, h⟩) (a2b m c ⟨0, h⟩) (Ab m c ⟨0, h⟩),
      sA2 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) scM0_2 (Memref.isWhole_whole cc0_scratch2) ((hcond0_0 ⟨0, h⟩).mpr rfl) (Xb m c ⟨0, h⟩) (Wb m c ⟨0, h⟩) (a1b m c ⟨0, h⟩) (a2b m c ⟨0, h⟩) (Ab m c ⟨0, h⟩),
      Xb_eq, Wb_eq, a1b_eq, a2b_eq]
  | n + 1, h => by
    have hN : cfg0.N = 4 := N_0
    have hB : ¬(⟨n + 1, h⟩ : Fin cfg0.N).val % 4 = 0 := by dsimp only; omega
    have ih := outs_scratch c n (Nat.lt_of_succ_lt h)
    rw [outsAt0_B m c ⟨n + 1, h⟩ hB]
    dsimp only
    unfold sout0_B_0 sout0_B_1 sout0_B_2
    exact ih

/-- After point `n` the output's staging buffer holds the body's last payload of the point's score rows, the target
    scores, the point's adjacency block and the projection. -/
theorem outs_out (c : Dev nD) : ∀ (n : ℕ) (h : n < cfg0.N),
    (outsAt0 m c n h).1 = k0_pay5 (fblk (grid0.coords ⟨n, h⟩) (fS m c)) (gS m c) (Ab m c ⟨n, h⟩) (hS m c)
  | 0, h => by
    rw [outsAt0_A m c ⟨0, h⟩ rfl]
    dsimp only
    rw [oA5 (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole cc0_scratch0) scM0_1 (Memref.isWhole_whole cc0_scratch1) scM0_2 (Memref.isWhole_whole cc0_scratch2) ((hcond0_0 ⟨0, h⟩).mpr rfl) (Xb m c ⟨0, h⟩) (Wb m c ⟨0, h⟩) (a1b m c ⟨0, h⟩) (a2b m c ⟨0, h⟩) (Ab m c ⟨0, h⟩),
      Xb_eq, Wb_eq, a1b_eq, a2b_eq]
  | n + 1, h => by
    have hN : cfg0.N = 4 := N_0
    have hB : ¬(⟨n + 1, h⟩ : Fin cfg0.N).val % 4 = 0 := by dsimp only; omega
    have ih := outs_scratch m c n (Nat.lt_of_succ_lt h)
    have e0 : (outsAt0 m c (n + 1 - 1) (Nat.lt_of_le_of_lt (Nat.sub_le _ _) h)).2.1 = hS m c := congrArg (fun p => p.1) ih
    have e1 : (outsAt0 m c (n + 1 - 1) (Nat.lt_of_le_of_lt (Nat.sub_le _ _) h)).2.2.1 = fS m c := congrArg (fun p => p.2.1) ih
    have e2 : (outsAt0 m c (n + 1 - 1) (Nat.lt_of_le_of_lt (Nat.sub_le _ _) h)).2.2.2 = gS m c := congrArg (fun p => p.2.2) ih
    rw [outsAt0_B m c ⟨n + 1, h⟩ hB]
    dsimp only
    rw [oB5 (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole cc0_scratch0) scM0_1 (Memref.isWhole_whole cc0_scratch1) scM0_2 (Memref.isWhole_whole cc0_scratch2) (fun hh => hB ((hcond0_0 ⟨n + 1, h⟩).mp hh)) (Xb m c ⟨n + 1, h⟩) (Wb m c ⟨n + 1, h⟩) (a1b m c ⟨n + 1, h⟩) (a2b m c ⟨n + 1, h⟩) (Ab m c ⟨n + 1, h⟩) (outsAt0 m c (n + 1 - 1) (Nat.lt_of_le_of_lt (Nat.sub_le _ _) h)).2.1 (outsAt0 m c (n + 1 - 1) (Nat.lt_of_le_of_lt (Nat.sub_le _ _) h)).2.2.1 (outsAt0 m c (n + 1 - 1) (Nat.lt_of_le_of_lt (Nat.sub_le _ _) h)).2.2.2,
      e0, e1, e2]

end Frame

end Generic

/-! ## The payloads read at an index, over the extended reals -/

section AtIdeal

open Idealize.ShloMosaic.ValueIdx
open scoped BigOperators

/-- The projection: entry `(i, k)` of the first product is `∑ d, X (i, d) · W (d, k)`. -/
theorem pay1_apply (X : FVec Ideal S1024x128 .f32) (W : FVec Ideal S128x128 .f32) (i : Fin 1024) (k : Fin 128) :
    k0_pay1 (F := Ideal) X W (ix2 i k) = Cert.Gat.h X W i k := by
  unfold k0_pay1 Cert.Gat.h
  refine (Ideal.matmul_constant_zero_apply dot_S1024x128_S128x128_S1024x128_1_0_0_1_n_n none X W (ix2 i k)).trans ?_
  rw [← Equiv.sum_comp (contrEquiv1 dot_S1024x128_S128x128_S1024x128_1_0_0_1_n_n 128 rfl rfl).symm]
  refine Finset.sum_congr rfl fun d _ => ?_
  have cd := contrEquiv1_symm_val dot_S1024x128_S128x128_S1024x128_1_0_0_1_n_n 128 rfl rfl d
  have l : (dot_S1024x128_S128x128_S1024x128_1_0_0_1_n_n).lhsIdx (ix2 i k) ((contrEquiv1 dot_S1024x128_S128x128_S1024x128_1_0_0_1_n_n 128 rfl rfl).symm d) = ix2 i d := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact cd
  have r : (dot_S1024x128_S128x128_S1024x128_1_0_0_1_n_n).rhsIdx (ix2 i k) ((contrEquiv1 dot_S1024x128_S128x128_S1024x128_1_0_0_1_n_n 128 rfl rfl).symm d) = ix2 d k := by
    funext ax; apply Fin.ext
    match ax with
    | ⟨0, _⟩ => simp [DotDims.rhsIdx, dot_S1024x128_S128x128_S1024x128_1_0_0_1_n_n]; exact cd
    | ⟨1, _⟩ => simp [DotDims.rhsIdx, dot_S1024x128_S128x128_S1024x128_1_0_0_1_n_n]; rfl
  rw [l, r]

end AtIdeal

section AtIdeal2

open Idealize.ShloMosaic.ValueIdx
open scoped BigOperators

/-- The source score: entry `(i, 0)` of the second product is `∑ k, h (i, k) · a₁ (0, k)`. -/
theorem pay3_apply (X : FVec Ideal S1024x128 .f32) (W : FVec Ideal S128x128 .f32) (a1 : FVec Ideal S1x128 .f32)
    (i : Fin 1024) (u : Fin 1) :
    k0_pay3 (F := Ideal) X W a1 (ix2 i u) = ∑ k : Fin 128, Cert.Gat.h X W i k * a1 (ix2 (0 : Fin 1) k) := by
  obtain rfl : u = 0 := Subsingleton.elim _ _
  unfold k0_pay3
  refine (congrFun (shapeCast_self _ _) _).trans ?_
  refine (Ideal.matmul_constant_zero_apply dot_S1024x128_S1x128_S1024x1_1_1_0_0_n_n none _ _ (ix2 i (0 : Fin 1))).trans ?_
  rw [← Equiv.sum_comp (contrEquiv1 dot_S1024x128_S1x128_S1024x1_1_1_0_0_n_n 128 rfl rfl).symm]
  refine Finset.sum_congr rfl fun d _ => ?_
  have cd := contrEquiv1_symm_val dot_S1024x128_S1x128_S1024x1_1_1_0_0_n_n 128 rfl rfl d
  have l : (dot_S1024x128_S1x128_S1024x1_1_1_0_0_n_n).lhsIdx (ix2 i (0 : Fin 1)) ((contrEquiv1 dot_S1024x128_S1x128_S1024x1_1_1_0_0_n_n 128 rfl rfl).symm d) = ix2 i d := by
    funext ax; apply Fin.ext
    match ax with
    | ⟨0, _⟩ => simp [DotDims.lhsIdx, dot_S1024x128_S1x128_S1024x1_1_1_0_0_n_n]; rfl
    | ⟨1, _⟩ => simp [DotDims.lhsIdx, dot_S1024x128_S1x128_S1024x1_1_1_0_0_n_n]; exact cd
  have r : (dot_S1024x128_S1x128_S1024x1_1_1_0_0_n_n).rhsIdx (ix2 i (0 : Fin 1)) ((contrEquiv1 dot_S1024x128_S1x128_S1024x1_1_1_0_0_n_n 128 rfl rfl).symm d) = ix2 (0 : Fin 1) d := by
    funext ax; apply Fin.ext
    match ax with
    | ⟨0, _⟩ => simp [DotDims.rhsIdx, dot_S1024x128_S1x128_S1024x1_1_1_0_0_n_n] <;> rfl
    | ⟨1, _⟩ => simp [DotDims.rhsIdx, dot_S1024x128_S1x128_S1024x1_1_1_0_0_n_n]; exact cd
  rw [l, r, pay1_apply, shapeCast_self]

/-- The target score: entry `(0, j)` of the third product is `∑ k, a₂ (0, k) · h (j, k)`. -/
theorem pay4_apply (X : FVec Ideal S1024x128 .f32) (W : FVec Ideal S128x128 .f32) (a2 : FVec Ideal S1x128 .f32)
    (u : Fin 1) (j : Fin 1024) :
    k0_pay4 (F := Ideal) X W a2 (ix2 u j) = ∑ k : Fin 128, a2 (ix2 (0 : Fin 1) k) * Cert.Gat.h X W j k := by
  obtain rfl : u = 0 := Subsingleton.elim _ _
  unfold k0_pay4
  refine (congrFun (shapeCast_self _ _) _).trans ?_
  refine (Ideal.matmul_constant_zero_apply dot_S1x128_S1024x128_S1x1024_1_1_0_0_n_n none _ _ (ix2 (0 : Fin 1) j)).trans ?_
  rw [← Equiv.sum_comp (contrEquiv1 dot_S1x128_S1024x128_S1x1024_1_1_0_0_n_n 128 rfl rfl).symm]
  refine Finset.sum_congr rfl fun d _ => ?_
  have cd := contrEquiv1_symm_val dot_S1x128_S1024x128_S1x1024_1_1_0_0_n_n 128 rfl rfl d
  have l : (dot_S1x128_S1024x128_S1x1024_1_1_0_0_n_n).lhsIdx (ix2 (0 : Fin 1) j) ((contrEquiv1 dot_S1x128_S1024x128_S1x1024_1_1_0_0_n_n 128 rfl rfl).symm d) = ix2 (0 : Fin 1) d := by
    funext ax; apply Fin.ext
    match ax with
    | ⟨0, _⟩ => simp [DotDims.lhsIdx, dot_S1x128_S1024x128_S1x1024_1_1_0_0_n_n] <;> rfl
    | ⟨1, _⟩ => simp [DotDims.lhsIdx, dot_S1x128_S1024x128_S1x1024_1_1_0_0_n_n]; exact cd
  have r : (dot_S1x128_S1024x128_S1x1024_1_1_0_0_n_n).rhsIdx (ix2 (0 : Fin 1) j) ((contrEquiv1 dot_S1x128_S1024x128_S1x1024_1_1_0_0_n_n 128 rfl rfl).symm d) = ix2 j d := by
    funext ax; apply Fin.ext
    match ax with
    | ⟨0, _⟩ => simp [DotDims.rhsIdx, dot_S1x128_S1024x128_S1x1024_1_1_0_0_n_n]; rfl
    | ⟨1, _⟩ => simp [DotDims.rhsIdx, dot_S1x128_S1024x128_S1x1024_1_1_0_0_n_n]; exact cd
  rw [l, r, pay1_apply, shapeCast_self]

/-- The stored projection is the first product itself. -/
theorem pay2_apply (X : FVec Ideal S1024x128 .f32) (W : FVec Ideal S128x128 .f32) (i : Fin 1024) (k : Fin 128) :
    k0_pay2 (F := Ideal) X W (ix2 i k) = Cert.Gat.h X W i k := by
  unfold k0_pay2
  rw [shapeCast_self, pay1_apply]

end AtIdeal2

section AtIdeal3

open Idealize.ShloMosaic.ValueIdx
open scoped BigOperators

/-- The word `0x3F800000` is the real number one. -/
theorem ofBits_one_f32 : Ideal.ofBits .f32 0x3F800000#32 = 1 := by
  simp [Ideal.ofBits, Ideal.ieee, -EReal.coe_mul]; norm_num

/-- A select on "the word is not zero" is the `if`. -/
theorem select_ne_zero {α : Type} (a : BitVec 32) (x y : α) :
    Scalar.select (IntOp.cmpi .ne a 0#32) x y = if a ≠ 0#32 then x else y := by
  by_cases h : a = 0#32
  · subst h; simp [Scalar.select, IntOp.cmpi]
  · have hb : (a != 0#32) = true := by simp [bne_iff_ne, h]
    simp [Scalar.select, IntOp.cmpi, hb, h]

/-- The weight of the pair (row `r` of the block, column `j`): `exp (min (0 − s) (c' · s))` at the sum `s` of the row's
    and the column's scores where the adjacency word is not zero, zero elsewhere. -/
def wgt (v5 : FVec Ideal S256x1 .f32) (v6 : FVec Ideal S1x1024 .f32) (v16 : Vec Ideal S256x1024 .i32)
    (r : Fin 256) (j : Fin 1024) : EReal :=
  if v16 (ix2 r j) ≠ 0#32 then
    Ideal.exp (min (0 - (v5 (ix2 r (0 : Fin 1)) + v6 (ix2 (0 : Fin 1) j)))
      (Cert.Gat.nslope * (v5 (ix2 r (0 : Fin 1)) + v6 (ix2 (0 : Fin 1) j))))
  else 0

/-- The body's weight matrix, as the operations compute it. -/
def wmat (v5 : FVec Ideal S256x1 .f32) (v6 : FVec Ideal S1x1024 .f32) (v16 : Vec Ideal S256x1024 .i32) :
    FVec Ideal S256x1024 .f32 :=
  select (cmpi .ne v16 (broadcast S256x1024 0#32))
    (exp (minimumf
      (subf (broadcast S256x1024 (Scalar.ofBits .f32 0x00000000#32 : Ideal .f32))
        (addf (broadcastTo S256x1024 v5 broadcasts_S256x1_S256x1024) (broadcastTo S256x1024 v6 broadcasts_S1x1024_S256x1024)))
      (mulf (broadcast S256x1024 (Scalar.ofBits .f32 0xBC23D70A#32 : Ideal .f32))
        (addf (broadcastTo S256x1024 v5 broadcasts_S256x1_S256x1024) (broadcastTo S256x1024 v6 broadcasts_S1x1024_S256x1024)))))
    (broadcast S256x1024 (Scalar.ofBits .f32 0x00000000#32 : Ideal .f32))

/-- The weighted sum of the projection's rows over the row's total weight. -/
def quot (w : FVec Ideal S256x1024 .f32) (v23 : FVec Ideal S1024x128 .f32) : FVec Ideal S256x128 .f32 :=
  divf (matmul dot_S256x1024_S1024x128_S256x128_1_0_0_1_n_n none w v23 (constant (F := Ideal) S256x128 .f32 0x00000000#32))
    (broadcastTo S256x128 (shapeCast S256x1 (multiReduction (F := Ideal) .add [1] S256 w 0x00000000#32 reduces_S256x1024_S256 (.inl rfl) rfl) shapeCasts_S256_S256x1) broadcasts_S256x1_S256x128)

/-- `elu` over a block. -/
def eluv (q : FVec Ideal S256x128 .f32) : FVec Ideal S256x128 .f32 :=
  select (cmpf .ogt q (broadcast S256x128 (Scalar.ofBits .f32 0x00000000#32 : Ideal .f32))) q
    (subf (exp q) (broadcast S256x128 (Scalar.ofBits .f32 0x3F800000#32 : Ideal .f32)))

/-- The body's last payload is those three stages composed. -/
theorem pay5_eq (v5 : FVec Ideal S256x1 .f32) (v6 : FVec Ideal S1x1024 .f32) (v16 : Vec Ideal S256x1024 .i32)
    (v23 : FVec Ideal S1024x128 .f32) : k0_pay5 (F := Ideal) v5 v6 v16 v23 = eluv (quot (wmat v5 v6 v16) v23) := rfl

theorem wmat_apply (v5 : FVec Ideal S256x1 .f32) (v6 : FVec Ideal S1x1024 .f32) (v16 : Vec Ideal S256x1024 .i32)
    (r : Fin 256) (j : Fin 1024) : wmat v5 v6 v16 (ix2 r j) = wgt v5 v6 v16 r j := by
  have b5 : broadcastTo S256x1024 v5 broadcasts_S256x1_S256x1024 (ix2 r j) = v5 (ix2 r (0 : Fin 1)) :=
    broadcastTo_apply v5 broadcasts_S256x1_S256x1024 (ix2 r j) (ix2 r (0 : Fin 1)) fun ax => by
      match ax with
      | ⟨0, _⟩ => rfl
      | ⟨1, _⟩ => rfl
  have b6 : broadcastTo S256x1024 v6 broadcasts_S1x1024_S256x1024 (ix2 r j) = v6 (ix2 (0 : Fin 1) j) :=
    broadcastTo_1b_ab_apply v6 broadcasts_S1x1024_S256x1024 r j
  show Scalar.select (IntOp.cmpi .ne (v16 (ix2 r j)) 0#32)
      (Ideal.exp (min
        (Ideal.ofBits .f32 0x00000000#32 - (broadcastTo S256x1024 v5 broadcasts_S256x1_S256x1024 (ix2 r j) + broadcastTo S256x1024 v6 broadcasts_S1x1024_S256x1024 (ix2 r j)))
        (Ideal.ofBits .f32 0xBC23D70A#32 * (broadcastTo S256x1024 v5 broadcasts_S256x1_S256x1024 (ix2 r j) + broadcastTo S256x1024 v6 broadcasts_S1x1024_S256x1024 (ix2 r j)))))
      (Ideal.ofBits .f32 0x00000000#32) = _
  rw [b5, b6, select_ne_zero, Ideal.ofBits_zero_f32]
  rfl

theorem quot_apply (w : FVec Ideal S256x1024 .f32) (v23 : FVec Ideal S1024x128 .f32) (r : Fin 256) (k : Fin 128) :
    quot w v23 (ix2 r k)
      = Ideal.div (∑ j : Fin 1024, w (ix2 r j) * v23 (ix2 j k)) (∑ j : Fin 1024, w (ix2 r j)) := by
  have hnum : matmul dot_S256x1024_S1024x128_S256x128_1_0_0_1_n_n none w v23 (constant (F := Ideal) S256x128 .f32 0x00000000#32) (ix2 r k)
      = ∑ j : Fin 1024, w (ix2 r j) * v23 (ix2 j k) := by
    refine (Ideal.matmul_constant_zero_apply dot_S256x1024_S1024x128_S256x128_1_0_0_1_n_n none w v23 (ix2 r k)).trans ?_
    rw [← Equiv.sum_comp (contrEquiv1 dot_S256x1024_S1024x128_S256x128_1_0_0_1_n_n 1024 rfl rfl).symm]
    refine Finset.sum_congr rfl fun d _ => ?_
    have cd := contrEquiv1_symm_val dot_S256x1024_S1024x128_S256x128_1_0_0_1_n_n 1024 rfl rfl d
    have l : (dot_S256x1024_S1024x128_S256x128_1_0_0_1_n_n).lhsIdx (ix2 r k) ((contrEquiv1 dot_S256x1024_S1024x128_S256x128_1_0_0_1_n_n 1024 rfl rfl).symm d) = ix2 r d := by
      funext ax; apply Fin.ext
      match ax with
      | ⟨0, _⟩ => simp [DotDims.lhsIdx, dot_S256x1024_S1024x128_S256x128_1_0_0_1_n_n]; rfl
      | ⟨1, _⟩ => simp [DotDims.lhsIdx, dot_S256x1024_S1024x128_S256x128_1_0_0_1_n_n]; exact cd
    have r' : (dot_S256x1024_S1024x128_S256x128_1_0_0_1_n_n).rhsIdx (ix2 r k) ((contrEquiv1 dot_S256x1024_S1024x128_S256x128_1_0_0_1_n_n 1024 rfl rfl).symm d) = ix2 d k := by
      funext ax; apply Fin.ext
      match ax with
      | ⟨0, _⟩ => simp [DotDims.rhsIdx, dot_S256x1024_S1024x128_S256x128_1_0_0_1_n_n]; exact cd
      | ⟨1, _⟩ => simp [DotDims.rhsIdx, dot_S256x1024_S1024x128_S256x128_1_0_0_1_n_n]; rfl
    rw [l, r']
  have hden : broadcastTo S256x128 (shapeCast S256x1 (multiReduction (F := Ideal) .add [1] S256 w 0x00000000#32 reduces_S256x1024_S256 (.inl rfl) rfl) shapeCasts_S256_S256x1) broadcasts_S256x1_S256x128 (ix2 r k)
      = ∑ j : Fin 1024, w (ix2 r j) := by
    refine (broadcastTo_apply _ broadcasts_S256x1_S256x128 (ix2 r k) (ix2 r (0 : Fin 1)) fun ax => by
      match ax with
      | ⟨0, _⟩ => rfl
      | ⟨1, _⟩ => rfl).trans ?_
    refine (shapeCast_apply _ shapeCasts_S256_S256x1 (ix2 r (0 : Fin 1)) (ix1 r) (by
      rw [Shape.rowMajor_val_one, Shape.rowMajor_val_two]
      show r.val = r.val * 1 + 0
      omega)).trans ?_
    refine (Ideal.multiReduction_add_single w 0x00000000#32 reduces_S256x1024_S256 (.inl rfl) rfl (ix1 r)).trans ?_
    refine Finset.sum_congr rfl fun j _ => congrArg w ?_
    funext ax; apply Fin.ext
    match ax with
    | ⟨0, _⟩ => rfl
    | ⟨1, _⟩ => rfl
  show Ideal.div (matmul dot_S256x1024_S1024x128_S256x128_1_0_0_1_n_n none w v23 (constant (F := Ideal) S256x128 .f32 0x00000000#32) (ix2 r k))
      (broadcastTo S256x128 (shapeCast S256x1 (multiReduction (F := Ideal) .add [1] S256 w 0x00000000#32 reduces_S256x1024_S256 (.inl rfl) rfl) shapeCasts_S256_S256x1) broadcasts_S256x1_S256x128 (ix2 r k)) = _
  rw [hnum, hden]

theorem eluv_apply (q : FVec Ideal S256x128 .f32) (j : S256x128.Idx) : eluv q j = Cert.Gat.elu (q j) := by
  show Scalar.select (Ideal.cmp .ogt (q j) (Ideal.ofBits .f32 0x00000000#32)) (q j)
      (Ideal.exp (q j) - Ideal.ofBits .f32 0x3F800000#32) = _
  rw [Ideal.ofBits_zero_f32, ofBits_one_f32]
  rfl

/-- The body's last payload at `(r, k)`: `elu` of the weighted mean of the projection's column `k` under row `r`'s
    weights. -/
theorem pay5_apply (v5 : FVec Ideal S256x1 .f32) (v6 : FVec Ideal S1x1024 .f32) (v16 : Vec Ideal S256x1024 .i32)
    (v23 : FVec Ideal S1024x128 .f32) (r : Fin 256) (k : Fin 128) :
    k0_pay5 (F := Ideal) v5 v6 v16 v23 (ix2 r k)
      = Cert.Gat.elu (Ideal.div (∑ j : Fin 1024, wgt v5 v6 v16 r j * v23 (ix2 j k)) (∑ j : Fin 1024, wgt v5 v6 v16 r j)) := by
  rw [pay5_eq, eluv_apply, quot_apply]
  simp only [wmat_apply]

end AtIdeal3

/-! ## From the blocks to the result array -/

section Final

open Idealize.ShloMosaic.ValueIdx
open scoped BigOperators

/-- ONE ENTRY OF A BLOCK. With the carried buffers at the projection and the two score vectors of the whole arrays, the
    attention vector's two halves `a₁`, `a₂` read off `a`, and the adjacency block the rows `[256 t, 256 t + 256)` of
    `A`, the body's last payload at `(r, k)` is the dense layer at row `256 t + r`, column `k`. -/
theorem pay5_block (X : FVec Ideal S1024x128 .f32) (W : FVec Ideal S128x128 .f32) (a : FVec Ideal S1x256 .f32)
    (a1 a2 : FVec Ideal S1x128 .f32) (A : Vec Ideal S1024x1024 .i32) (Ablk : Vec Ideal S256x1024 .i32)
    (i : grid0.Coords) (tt : ℕ) (htt : tt < 4)
    (ha1 : ∀ k : Fin 128, a1 (ix2 (0 : Fin 1) k) = a (ix2 (0 : Fin 1) (⟨k.val, by omega⟩ : Fin 256)))
    (ha2 : ∀ k : Fin 128, a2 (ix2 (0 : Fin 1) k) = a (ix2 (0 : Fin 1) (⟨128 + k.val, by omega⟩ : Fin 256)))
    (hoff0 : k0_off1 i (0 : Fin 2) = 256 * tt) (hoff1 : k0_off1 i (1 : Fin 2) = 0)
    (hA : ∀ (r : Fin 256) (j : Fin 1024), Ablk (ix2 r j) = A (ix2 (⟨256 * tt + r.val, by omega⟩ : Fin 1024) j))
    (r : Fin 256) (k : Fin 128) :
    k0_pay5 (F := Ideal) (fblk (F := Ideal) i (k0_pay3 (F := Ideal) X W a1)) (k0_pay4 (F := Ideal) X W a2) Ablk
        (k0_pay2 (F := Ideal) X W) (ix2 r k)
      = Cert.Gat.outK X W a A (⟨256 * tt + r.val, by omega⟩ : Fin 1024) k := by
  have hf : ∀ i' : Fin 1024, k0_pay3 (F := Ideal) X W a1 (ix2 i' (0 : Fin 1)) = Cert.Gat.f X W a i' := fun i' => by
    rw [pay3_apply]; unfold Cert.Gat.f
    exact Finset.sum_congr rfl fun k _ => by rw [ha1 k]
  have hg : ∀ j : Fin 1024, k0_pay4 (F := Ideal) X W a2 (ix2 (0 : Fin 1) j) = Cert.Gat.g X W a j := fun j => by
    rw [pay4_apply]; unfold Cert.Gat.g
    exact Finset.sum_congr rfl fun k _ => by rw [ha2 k]
  have hrow : fblk (F := Ideal) i (k0_pay3 (F := Ideal) X W a1) (ix2 r (0 : Fin 1))
      = Cert.Gat.f X W a (⟨256 * tt + r.val, by omega⟩ : Fin 1024) := by
    refine Eq.trans (congrArg (k0_pay3 (F := Ideal) X W a1) ?_) (hf _)
    funext ax; apply Fin.ext
    match ax with
    | ⟨0, _⟩ => show k0_off1 i (0 : Fin 2) + 1 * r.val = 256 * tt + r.val; omega
    | ⟨1, _⟩ => show k0_off1 i (1 : Fin 2) + 1 * 0 = 0; omega
  have hw : ∀ j : Fin 1024, wgt (fblk (F := Ideal) i (k0_pay3 (F := Ideal) X W a1)) (k0_pay4 (F := Ideal) X W a2) Ablk r j
      = Cert.Gat.wK X W a A (⟨256 * tt + r.val, by omega⟩ : Fin 1024) j := fun j => by
    unfold wgt Cert.Gat.wK
    rw [hrow, hg j, hA r j]
  rw [pay5_apply]
  unfold Cert.Gat.outK Cert.Gat.aggK Cert.Gat.rowK
  simp only [hw, pay2_apply]

variable (m : (ℓ : Loc nD τ sig) → Buf (Elt Ideal) ℓ) (ρ : Dev nD → PrngReg)

/-- The dense layer of the four arguments, as contents of the result array. -/
abbrev target (c : Dev nD) : S1024x128.Idx → EReal := fun idx =>
  Cert.Gat.outK (m ((c.tc : Thread nD τ).loc main_arg0)) (m ((c.tc : Thread nD τ).loc main_arg2))
    (m ((c.tc : Thread nD τ).loc main_arg3)) (m ((c.tc : Thread nD τ).loc main_arg1)) (idx 0) (idx 1)

/-- Row `r` of block `t` of the result, as an index of the array: row `256 t + r`. -/
def rowIdx (tt : ℕ) (htt : tt < 4) (y : S256x128.Idx) : S1024x128.Idx :=
  ix2 (⟨256 * tt + (y 0).val, by have := idx2_lt0 y; omega⟩ : Fin 1024) (y 1)

/-- The region finds the three untouched arguments as launched. -/
theorem Xa_eq (c : Dev nD) : Xa m c = m ((c.tc : Thread nD τ).loc main_arg0) := V_main_arg0 m c
theorem Wa_eq (c : Dev nD) : Wa m c = m ((c.tc : Thread nD τ).loc main_arg2) := V_main_arg2 m c
theorem Aa_eq (c : Dev nD) : Aa m c = m ((c.tc : Thread nD τ).loc main_arg1) := V_main_arg1 m c

/-- The two arrays the host cut from the attention vector before the region: its first and its second half. -/
theorem a1a_eq (c : Dev nD) : (a1a m c : S1x128.Idx → EReal)
    = extractStridedSlice S1x128 ![0, 0] (m ((c.tc : Thread nD τ).loc main_arg3)) slices_S1x256_S1x128_0_0 := by
  dsimp only [a1a, V, hostOps0]; after_results
theorem a2a_eq (c : Dev nD) : (a2a m c : S1x128.Idx → EReal)
    = extractStridedSlice S1x128 ![0, 128] (m ((c.tc : Thread nD τ).loc main_arg3)) slices_S1x256_S1x128_0_128 := by
  dsimp only [a2a, V, hostOps0]; after_results

theorem a1a_apply (c : Dev nD) (k : Fin 128) :
    a1a m c (ix2 (0 : Fin 1) k) = m ((c.tc : Thread nD τ).loc main_arg3) (ix2 (0 : Fin 1) (⟨k.val, by omega⟩ : Fin 256)) := by
  rw [a1a_eq]
  refine extractStridedSlice_apply _ _ _ _ _ fun ax => ?_
  match ax with
  | ⟨0, _⟩ => rfl
  | ⟨1, _⟩ => show k.val = 0 + k.val; omega
theorem a2a_apply (c : Dev nD) (k : Fin 128) :
    a2a m c (ix2 (0 : Fin 1) k) = m ((c.tc : Thread nD τ).loc main_arg3) (ix2 (0 : Fin 1) (⟨128 + k.val, by omega⟩ : Fin 256)) := by
  rw [a2a_eq]
  refine extractStridedSlice_apply _ _ _ _ _ fun ax => ?_
  match ax with
  | ⟨0, _⟩ => rfl
  | ⟨1, _⟩ => rfl

/-- The adjacency window's block at point `t` is rows `[256 t, 256 t + 256)` of the adjacency matrix. -/
theorem Ab_apply (c : Dev nD) (t : Fin cfg0.N) (r : Fin 256) (j : Fin 1024) (hb : 256 * t.val + r.val < 1024) :
    Ab m c t (ix2 r j) = Aa m c (ix2 (⟨256 * t.val + r.val, hb⟩ : Fin 1024) j) := by
  obtain ⟨-, -, -, -, -, -, -, -, e0, e1, -⟩ := idx_facts t
  show V m c main_arg1 (((cfg0.win 4).blk t).view.emb (ix2 r j)) = V m c main_arg1 (ix2 (⟨256 * t.val + r.val, hb⟩ : Fin 1024) j)
  refine congrArg (V m c main_arg1) (funext fun a => Fin.ext ?_)
  match a with
  | ⟨0, _⟩ => show win0_4.index t (0 : Fin 2) * 256 + 1 * r.val = 256 * t.val + r.val; omega
  | ⟨1, _⟩ => show win0_4.index t (1 : Fin 2) * 1024 + 1 * j.val = j.val; omega

/-- What point `t` leaves in the output's staging buffer, as one function of the block's index. -/
theorem out_fun (c : Dev nD) (t : Fin cfg0.N) (ht : t.val < 4) :
    (k0_pay5 (F := Ideal) (fblk (F := Ideal) (grid0.coords ⟨t.val, t.isLt⟩) (fS m c)) (gS m c) (Ab m c ⟨t.val, t.isLt⟩) (hS m c) : S256x128.Idx → EReal)
      = fun y => target m c (rowIdx t.val ht y) := by
  obtain ⟨-, -, -, -, -, -, -, -, -, -, -, -, eo0, eo1⟩ := idx_facts t
  funext y
  obtain ⟨r, k, rfl⟩ : ∃ (r : Fin 256) (k : Fin 128), y = ix2 r k := ⟨y 0, y 1, eq_ix2 y⟩
  refine (pay5_block (Xa m c) (Wa m c) (m ((c.tc : Thread nD τ).loc main_arg3)) (a1a m c) (a2a m c) (Aa m c) (Ab m c t)
    (grid0.coords t) t.val ht (a1a_apply m c) (a2a_apply m c) eo0 eo1 (fun r j => Ab_apply m c t r j _) r k).trans ?_
  rw [Xa_eq, Wa_eq, Aa_eq]
  rfl

/-- WHAT POINT `t` WRITES BACK is block `t` of the dense layer. -/
theorem flushed_eq (c : Dev nD) (t : Fin cfg0.N) :
    (dats m 0 c).flushed 5 t = ((cfg0.win 5).blk t).view.read (Elt Ideal) (target m c) := by
  have hN : cfg0.N = 4 := N_0
  have ht : t.val < 4 := lt_of_lt_of_eq t.isLt hN
  obtain ⟨-, -, -, -, -, -, -, -, -, -, e0, e1, -⟩ := idx_facts t
  rw [Cert.KernelIdeal.Value.flushed5, outs_out m c t.val t.isLt, out_fun m c t ht]
  funext y
  show target m c (rowIdx t.val ht y) = target m c (((cfg0.win 5).blk t).view.emb y)
  refine congrArg (target m c) (funext fun a => Fin.ext ?_)
  match a with
  | ⟨0, _⟩ => show 256 * t.val + (y 0).val = win0_5.index t (0 : Fin 2) * 256 + 1 * (y 0).val; omega
  | ⟨1, _⟩ => show (y 1).val = win0_5.index t (1 : Fin 2) * 128 + 1 * (y 1).val; omega

/-- An index of the result array is in point `t`'s block iff each coordinate is in the block's range on its axis. -/
theorem mem_blk (t : Fin cfg0.N) (i : S1024x128.Idx) :
    i ∈ ((cfg0.win 5).blk t).view.set ↔ ∀ a : Fin 2, win0_5.index t a * S256x128.size a ≤ (i a).val
      ∧ (i a).val < win0_5.index t a * S256x128.size a + S256x128.size a := by
  show i ∈ ((View.whole main_v2).slice (win0_5.rect t)).set ↔ _
  rw [View.set_slice_whole, Rect.mem_set_unit]
  exact Iff.rfl

/-- The four blocks of 256 rows tile the result: row `i` is in the block of point `i / 256`. So after the run the result
    array is the dense layer. -/
theorem final (c : Dev nD) : (dats m 0 c).arrAt 5 cfg0.N = target m c :=
  (dats m 0 c).arrAt_eq_of_cover 5 (target m c) (fun t _ => flushed_eq m c t) fun i => by
    have hN : cfg0.N = 4 := N_0
    have hi0 : (i 0 : Nat) < 1024 := (i 0).isLt
    have hi1 : (i 1 : Nat) < 128 := (i 1).isLt
    have hq : (i 0 : Nat) / 256 < cfg0.N := by rw [hN]; omega
    obtain ⟨-, -, -, -, -, -, -, -, -, -, e0, e1, -⟩ := idx_facts ⟨(i 0 : Nat) / 256, hq⟩
    refine ⟨⟨(i 0 : Nat) / 256, hq⟩, flush0_5 _, ?_⟩
    rw [mem_blk]
    intro a
    match a with
    | ⟨0, _⟩ =>
      show win0_5.index ⟨(i 0 : Nat) / 256, hq⟩ (0 : Fin 2) * 256 ≤ (i 0 : Nat)
        ∧ (i 0 : Nat) < win0_5.index ⟨(i 0 : Nat) / 256, hq⟩ (0 : Fin 2) * 256 + 256
      rw [e0]; dsimp only; omega
    | ⟨1, _⟩ =>
      show win0_5.index ⟨(i 0 : Nat) / 256, hq⟩ (1 : Fin 2) * 128 ≤ (i 1 : Nat)
        ∧ (i 1 : Nat) < win0_5.index ⟨(i 0 : Nat) / 256, hq⟩ (1 : Fin 2) * 128 + 128
      rw [e1]; omega

end Final

end Support

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
          = (fun idx : S1024x128.Idx =>
              Cert.Gat.outK (m ((c.tc : Thread nD τ).loc main_arg0)) (m ((c.tc : Thread nD τ).loc main_arg2))
                (m ((c.tc : Thread nD τ).loc main_arg3)) (m ((c.tc : Thread nD τ).loc main_arg1)) (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨(h c).1.trans (final m c), (h c).2⟩)
    (Cert.KernelIdeal.Value.run_blocks m ρ)

end Cert.KernelIdeal.KValue

end
-- ==== Proof.RefFlow.lean ====
/-
  The reference's dataflow, as named functions of its four arguments: one definition per stretch of its host operations,
  each written with exactly the operations (and the stated shape facts) the printed program applies, so that the program's
  composed result term is these definitions unfolded.

  The integer stretch turns the adjacency matrix into an edge list: the mask `A ≠ 0` flattened row-major, its running
  count, a histogram of the running count (one bin per count value), the histogram's running count (entry `e` then
  holds the flat position of the `e`-th marked entry, and the array's length from the number of marked entries on),
  that position's quotient and remainder by the row length as source and target node, both zeroed from the number of
  marked entries on, and the flag "`e` is below the number of marked entries".
  The float stretch gathers the projected rows of each edge's two ends, scores the edge, and accumulates the weights and
  the weighted target rows per source node.
-/
import proofs.«104574_g83193516523656_cont_sun_m_929_5_alg».proof.ReferenceIdeal

noncomputable section

namespace Cert.ReferenceIdeal.Flow

open Idealize.ShloMosaic Cert.ReferenceIdeal Cert.ReferenceIdeal.Facts₀

variable {F : FTy → Type} [FloatOps F] [Facts]

/-! ## Integer building blocks -/

/-- A word broadcast over the edge slots. -/
def splat (w : BitVec 32) : IVec S1048576 32 := broadcastInDim S1048576 ![] bcast_S_S1048576 (constantI S_ 32 w)

/-- The running sum of a vector of words along the edge slots (a window of the whole length, padded low). -/
def runningSum (x : IVec S1048576 32) : IVec S1048576 32 :=
  Host.reduceWindow IntOp.addi ![1048576] ![1] ![1048575] ![0] x
    (broadcastInDim S_ ![] bcast_S_S_ (constantI S_ 32 0#32)) reduceWindows_S1048576_S1048576_w1048576s1p1048575_0 h_S_

/-- An index vector with negative entries wrapped by `n` (the normalisation applied before a gather or scatter). -/
def wrapNeg (n : BitVec 32) (x : IVec S1048576 32) : IVec S1048576 32 :=
  select (cmpi .slt x (splat 0#32)) (addi x (splat n)) x

/-- An index vector as a column of one-component index vectors. -/
def asColumn (x : IVec S1048576 32) : IVec S1048576x1 32 := broadcastInDim S1048576x1 ![0] bcast_S1048576_S1048576x1_0 x

/-- Floor division of every entry by the word `c` (quotient toward zero, less one where the signs differ and the
    remainder is not zero). -/
def floorDiv (x : IVec S1048576 32) (c : BitVec 32) : IVec S1048576 32 :=
  select
    (andi
      (cmpi .ne (signi x) (broadcastInDim S1048576 ![] bcast_S_S1048576 (signi (constantI S_ 32 c))))
      (cmpi .ne (Host.remsi x (splat c)) (splat 0#32)))
    (subi (Host.divsi x (splat c)) (splat 1#32))
    (Host.divsi x (splat c))

/-- The divisor a remainder is taken by: `1` in place of `0`. -/
def safeDivisor (c : BitVec 32) : IVec S_ 32 :=
  select (cmpi .eq (constantI S_ 32 c) (constantI S_ 32 0#32)) (constantI S_ 32 1#32) (constantI S_ 32 c)

/-- The remainder of every entry by the word `c`, with the divisor's sign. -/
def floorMod (x : IVec S1048576 32) (c : BitVec 32) : IVec S1048576 32 :=
  select
    (andi
      (cmpi .ne
        (cmpi .slt (Host.remsi x (broadcastInDim S1048576 ![] bcast_S_S1048576 (safeDivisor c))) (splat 0#32))
        (broadcastInDim S1048576 ![] bcast_S_S1048576 (cmpi .slt (safeDivisor c) (constantI S_ 32 0#32))))
      (cmpi .ne (Host.remsi x (broadcastInDim S1048576 ![] bcast_S_S1048576 (safeDivisor c))) (splat 0#32)))
    (addi (Host.remsi x (broadcastInDim S1048576 ![] bcast_S_S1048576 (safeDivisor c)))
      (broadcastInDim S1048576 ![] bcast_S_S1048576 (safeDivisor c)))
    (Host.remsi x (broadcastInDim S1048576 ![] bcast_S_S1048576 (safeDivisor c)))

/-! ## The integer stretch -/

variable (adj : IVec S1024x1024 32)

/-- The mask `A ≠ 0`. -/
def mask : IVec S1024x1024 1 := cmpi .ne adj (broadcastInDim S1024x1024 ![] bcast_S_S1024x1024 (constantI S_ 32 0#32))

/-- The mask flattened row-major, as words. -/
def maskFlat : IVec S1048576 32 := extui 32 (shapeCast S1048576 (mask adj) shapeCasts_S1024x1024_S1048576) natLt_1_32

/-- The running count of marked entries. -/
def count : IVec S1048576 32 := runningSum (maskFlat adj)

/-- The running count as a scatter index: clipped below at zero, negative entries wrapped. -/
def countIdx : IVec S1048576 32 := wrapNeg 1048576#32 (maxsi (splat 0#32) (count adj))

/-- The histogram of the running count: bin `v` counts the positions whose running count is `v`. -/
def histogram : IVec S1048576 32 :=
  Host.scatter scatter_S1048576_S1048576x1_S1048576_n_0_0_1 IntOp.addi (splat 0#32) (asColumn (countIdx adj)) (splat 1#32)

/-- The histogram's running count: entry `e` is the number of positions whose running count is at most `e`. -/
def flatPos : IVec S1048576 32 := runningSum (histogram adj)

/-- The number of marked entries (summed over the widened mask). -/
def total : IVec S_ 32 :=
  Host.reduce IntOp.addi (extui 32 (mask adj) natLt_1_32) (constantI S_ 32 0#32) reducesTo_S1024x1024_S_d0_1 h_S_

/-- "Edge slot `e` is at or past the number of marked entries". -/
def pastEnd : IVec S1048576 1 :=
  cmpi .sge (iotaInDim S1048576 32 0) (broadcastInDim S1048576 ![] bcast_S_S1048576 (total adj))

/-- The source node of edge slot `e`: the flat position's quotient by the row length, modulo the number of rows; zero past
    the end. -/
def srcV : IVec S1048576 32 := select (pastEnd adj) (splat 0#32) (floorMod (floorDiv (flatPos adj) 1024#32) 1024#32)

/-- The target node of edge slot `e`: the flat position modulo the row length; zero past the end. -/
def dstV : IVec S1048576 32 := select (pastEnd adj) (splat 0#32) (floorMod (floorDiv (flatPos adj) 1#32) 1024#32)

/-- "Edge slot `e` is below the number of marked entries". -/
def validV : IVec S1048576 1 :=
  cmpi .slt (iotaInDim S1048576 32 0) (broadcastInDim S1048576 ![] bcast_S_S1048576 (total adj))

/-! ## The float stretch -/

/-- The rows of `hm` that an index vector names (negative entries wrapped by the number of rows). -/
def takeRows (hm : FVec F S1024x128 .f32) (idx : IVec S1048576 32) : FVec F S1048576x128 .f32 :=
  Host.gather gather_S1024x128_S1048576x1_S1048576x128_1_0_n_n_0_1_1128 hm (asColumn (wrapNeg 1024#32 idx))

/-- `leaky_relu` with the slope given as a scalar. -/
def leaky (x : FVec F S1048576 .f32) (c : FVec F S_ .f32) : FVec F S1048576 .f32 :=
  select (cmpf .oge x (broadcastInDim S1048576 ![] bcast_S_S1048576 (constant S_ .f32 0x00000000#32)))
    x (mulf (broadcastInDim S1048576 ![] bcast_S_S1048576 c) x)

/-- `elu`. -/
def eluV (x : FVec F S1024x128 .f32) : FVec F S1024x128 .f32 :=
  select (cmpf .ogt x (broadcastInDim S1024x128 ![] bcast_S_S1024x128 (constant S_ .f32 0x00000000#32)))
    x
    (mulf (broadcastInDim S1024x128 ![] bcast_S_S1024x128 (constant S_ .f32 0x3F800000#32))
      (Host.expm1
        (select (cmpf .ogt x (broadcastInDim S1024x128 ![] bcast_S_S1024x128 (constant S_ .f32 0x00000000#32)))
          (broadcastInDim S1024x128 ![] bcast_S_S1024x128 (constant S_ .f32 0x00000000#32)) x)))

variable (X : FVec F S1024x128 .f32) (W : FVec F S128x128 .f32) (a : FVec F S1x256 .f32)
  (sv dv : IVec S1048576 32) (vv : IVec S1048576 1)

/-- The projected features. -/
def hV : FVec F S1024x128 .f32 := Host.dotGeneral dot_S1024x128_S128x128_S1024x128_1_0_0_1_n_n none X W

/-- Each edge slot's score: `a` against the transposed concatenation of the two ends' projected rows. -/
def scoreV : FVec F S1048576 .f32 :=
  shapeCast S1048576
    (Host.dotGeneral dot_S1x256_S256x1048576_S1x1048576_1_0_0_1_n_n none a
      (transpose S256x1048576 [1, 0]
        (concatenate S1048576x256 1 [⟨S1048576x128, takeRows (hV X W) sv⟩, ⟨S1048576x128, takeRows (hV X W) dv⟩]
          concatenates_S1048576x128_S1048576x128_S1048576x256_d1)
        transposes_S1048576x256_S256x1048576_1_0))
    shapeCasts_S1x1048576_S1048576

/-- Each edge slot's weight: `exp (−leaky_relu score)` where its flag is set, zero elsewhere. -/
def weightV : FVec F S1048576 .f32 :=
  select vv (Host.exp (Host.negf (leaky (scoreV X W a sv dv) (constant S_ .f32 0x3C23D70A#32))))
    (broadcastInDim S1048576 ![] bcast_S_S1048576 (constant S_ .f32 0x00000000#32))

/-- Each node's total weight, as a column. -/
def rowSumV : FVec F S1024x1 .f32 :=
  broadcastInDim S1024x1 ![0] bcast_S1024_S1024x1_0
    (Host.scatterAdd scatter_S1024_S1048576x1_S1048576_n_0_0_1
      (broadcastInDim S1024 ![] bcast_S_S1024 (constant S_ .f32 0x00000000#32)) (asColumn sv) (weightV X W a sv dv vv))

/-- Each node's weighted sum of target rows. -/
def aggV : FVec F S1024x128 .f32 :=
  Host.scatterAdd scatter_S1024x128_S1048576x1_S1048576x128_1_0_0_1
    (broadcastInDim S1024x128 ![] bcast_S_S1024x128 (constant S_ .f32 0x00000000#32)) (asColumn sv)
    (mulf
      (broadcastInDim S1048576x128 ![0, 1] bcast_S1048576x1_S1048576x128_0_1
        (broadcastInDim S1048576x1 ![0] bcast_S1048576_S1048576x1_0 (weightV X W a sv dv vv)))
      (takeRows (hV X W) dv))

/-- The float stretch over a given edge list. -/
def refFloat : FVec F S1024x128 .f32 :=
  eluV (Host.divf (aggV X W a sv dv vv)
    (broadcastInDim S1024x128 ![0, 1] bcast_S1024x1_S1024x128_0_1 (rowSumV X W a sv dv vv)))

/-- The reference's result as a function of its four arguments. -/
def refOut (adj : IVec S1024x1024 32) : FVec F S1024x128 .f32 :=
  refFloat X W a (srcV adj) (dstV adj) (validV adj)

end Cert.ReferenceIdeal.Flow

end
-- ==== Proof.RefRun.lean ====
/-
  The reference's run: every weakly fair execution of its host program terminates, leaves the four arguments unchanged,
  and leaves in the result buffer the dataflow `Flow.refOut` of the arguments.
-/
import proofs.«104574_g83193516523656_cont_sun_m_929_5_alg».proof.Defs
import proofs.«104574_g83193516523656_cont_sun_m_929_5_alg».proof.Proof.Gen.ReferenceIdeal
import proofs.«104574_g83193516523656_cont_sun_m_929_5_alg».proof.Proof.RefFlow
import Idealize.ShloMosaic.Lib.StableHlo.Run

noncomputable section

namespace Cert.ReferenceIdeal.RefRun

open Idealize.ShloMosaic Idealize.ShloMosaic.StableHlo Idealize.ShloMosaic.TcCoe Idealize.SL.Sem Cert.ReferenceIdeal Cert.ReferenceIdeal.Facts₀

section Lines

variable {F : FTy → Type} [FloatOps F] [Facts]

/-- The contents after two lines in a row are the second line's after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The mask `A ≠ 0`, flattened row-major and widened to words, and its running count. -/
abbrev opsA : List (HloOp τ sig (Elt F)) :=
  [ nullary main_c (constantI S_ 32 0#32),
    unary main_c main_v0 (broadcastInDim S1024x1024 ![] bcast_S_S1024x1024 : (⟨S_, .i32⟩ : BufTy).Contents (Elt F) → (⟨S1024x1024, .i32⟩ : BufTy).Contents (Elt F)),
    binary main_arg1 main_v0 main_v1 (cmpi .ne : (⟨S1024x1024, .i32⟩ : BufTy).Contents (Elt F) → (⟨S1024x1024, .i32⟩ : BufTy).Contents (Elt F) → (⟨S1024x1024, .i1⟩ : BufTy).Contents (Elt F)),
    TRef.reshape (.of main_v1 : StableHlo.TRef sig ⟨S1024x1024, .i1⟩) main_call0.v0 rfl shapeCasts_S1024x1024_S1048576,
    TRef.unary main_call0.v0 main_call0.v1 (extui 32 · natLt_1_32),
    TRef.nullary main_call0.call0.c (constantI S_ 32 0#32),
    TRef.unary main_call0.call0.c main_call0.call0.v0 (broadcastInDim S_ ![] bcast_S_S_),
    TRef.binary main_call0.v1 main_call0.call0.v0 main_call0.call0.v1 (fun x v => Host.reduceWindow IntOp.addi ![1048576] ![1] ![1048575] ![0] x v reduceWindows_S1048576_S1048576_w1048576s1p1048575_0 h_S_) ]

/-- The zero vector, and the running count clipped below at zero. -/
abbrev opsB1 : List (HloOp τ sig (Elt F)) :=
  [ nullary main_c_0 (constantI S_ 32 0#32),
    unary main_c_0 main_v3 (broadcastInDim S1048576 ![] bcast_S_S1048576 : (⟨S_, .i32⟩ : BufTy).Contents (Elt F) → (⟨S1048576, .i32⟩ : BufTy).Contents (Elt F)),
    nullary main_c_1 (constantI S_ 32 0#32),
    TRef.unary (.of main_c_1 : StableHlo.TRef sig ⟨S_, .i32⟩) main_call1.v0 id,
    TRef.unary main_call1.v0 main_call1.v1 (broadcastInDim S1048576 ![] bcast_S_S1048576),
    TRef.binary main_call1.v1 (.of main_v2 : StableHlo.TRef sig ⟨S1048576, .i32⟩) main_call1.v2 maxsi ]

/-- The clipped count with negative entries wrapped by the array length: the scatter index. -/
abbrev opsB2 : List (HloOp τ sig (Elt F)) :=
  [ nullary main_c_2 (constantI S_ 32 0#32),
    unary main_c_2 main_v5 (broadcastInDim S1048576 ![] bcast_S_S1048576 : (⟨S_, .i32⟩ : BufTy).Contents (Elt F) → (⟨S1048576, .i32⟩ : BufTy).Contents (Elt F)),
    binary main_v4 main_v5 main_v6 (cmpi .slt : (⟨S1048576, .i32⟩ : BufTy).Contents (Elt F) → (⟨S1048576, .i32⟩ : BufTy).Contents (Elt F) → (⟨S1048576, .i1⟩ : BufTy).Contents (Elt F)),
    nullary main_c_3 (constantI S_ 32 1048576#32),
    unary main_c_3 main_v7 (broadcastInDim S1048576 ![] bcast_S_S1048576 : (⟨S_, .i32⟩ : BufTy).Contents (Elt F) → (⟨S1048576, .i32⟩ : BufTy).Contents (Elt F)),
    binary main_v4 main_v7 main_v8 (addi : (⟨S1048576, .i32⟩ : BufTy).Contents (Elt F) → (⟨S1048576, .i32⟩ : BufTy).Contents (Elt F) → (⟨S1048576, .i32⟩ : BufTy).Contents (Elt F)),
    ternary main_v6 main_v8 main_v4 main_v9 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ]

/-- The histogram of the running count: one added at each position's count value. -/
abbrev opsB3 : List (HloOp τ sig (Elt F)) :=
  [ unary main_v9 main_v10 (broadcastInDim S1048576x1 ![0] bcast_S1048576_S1048576x1_0 : (⟨S1048576, .i32⟩ : BufTy).Contents (Elt F) → (⟨S1048576x1, .i32⟩ : BufTy).Contents (Elt F)),
    nullary main_c_4 (constantI S_ 32 1#32),
    unary main_c_4 main_v11 (broadcastInDim S1048576 ![] bcast_S_S1048576 : (⟨S_, .i32⟩ : BufTy).Contents (Elt F) → (⟨S1048576, .i32⟩ : BufTy).Contents (Elt F)),
    ternary main_v3 main_v10 main_v11 main_v12 ((fun x i u => Host.scatter scatter_S1048576_S1048576x1_S1048576_n_0_0_1 IntOp.addi x i u) : (⟨S1048576, .i32⟩ : BufTy).Contents (Elt F) → (⟨S1048576x1, .i32⟩ : BufTy).Contents (Elt F) → (⟨S1048576, .i32⟩ : BufTy).Contents (Elt F) → (⟨S1048576, .i32⟩ : BufTy).Contents (Elt F)) ]

/-- The histogram's running count: the flat positions of the marked entries. -/
abbrev opsB4 : List (HloOp τ sig (Elt F)) :=
  [ TRef.nullary main_call2.call0.c (constantI S_ 32 0#32),
    TRef.unary main_call2.call0.c main_call2.call0.v0 (broadcastInDim S_ ![] bcast_S_S_),
    TRef.binary (.of main_v12 : StableHlo.TRef sig ⟨S1048576, .i32⟩) main_call2.call0.v0 main_call2.call0.v1 (fun x v => Host.reduceWindow IntOp.addi ![1048576] ![1] ![1048575] ![0] x v reduceWindows_S1048576_S1048576_w1048576s1p1048575_0 h_S_) ]

/-- The flat positions' floor quotient by the row length. -/
abbrev opsC : List (HloOp τ sig (Elt F)) :=
  [ nullary main_c_5 (constantI S_ 32 1024#32),
    TRef.unary (.of main_c_5 : StableHlo.TRef sig ⟨S_, .i32⟩) main_call3.v0 (broadcastInDim S1048576 ![] bcast_S_S1048576),
    TRef.binary (.of main_v13 : StableHlo.TRef sig ⟨S1048576, .i32⟩) main_call3.v0 main_call3.v1 Host.divsi,
    TRef.unary (.of main_v13 : StableHlo.TRef sig ⟨S1048576, .i32⟩) main_call3.v2 signi,
    TRef.unary (.of main_c_5 : StableHlo.TRef sig ⟨S_, .i32⟩) main_call3.v3 signi,
    TRef.unary main_call3.v3 main_call3.v4 (broadcastInDim S1048576 ![] bcast_S_S1048576),
    TRef.binary main_call3.v2 main_call3.v4 main_call3.v5 (cmpi .ne),
    TRef.unary (.of main_c_5 : StableHlo.TRef sig ⟨S_, .i32⟩) main_call3.v6 (broadcastInDim S1048576 ![] bcast_S_S1048576),
    TRef.binary (.of main_v13 : StableHlo.TRef sig ⟨S1048576, .i32⟩) main_call3.v6 main_call3.v7 Host.remsi,
    TRef.nullary main_call3.c (constantI S_ 32 0#32),
    TRef.unary main_call3.c main_call3.v8 (broadcastInDim S1048576 ![] bcast_S_S1048576),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S1048576 ![] bcast_S_S1048576),
    TRef.binary main_call3.v1 main_call3.v11 main_call3.v12 subi,
    TRef.ternary main_call3.v10 main_call3.v12 main_call3.v1 main_call3.call0.v0 select ]

/-- That quotient's remainder by the number of rows, with the divisor's sign. -/
abbrev opsD : List (HloOp τ sig (Elt F)) :=
  [ nullary main_c_6 (constantI S_ 32 1024#32),
    TRef.unary (.of main_c_6 : StableHlo.TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S1048576 ![] bcast_S_S1048576),
    TRef.binary (.of main_v14 : StableHlo.TRef sig ⟨S1048576, .i32⟩) main_call4.v3 main_call4.v4 Host.remsi,
    TRef.nullary main_call4.c_1 (constantI S_ 32 0#32),
    TRef.unary main_call4.c_1 main_call4.v5 (broadcastInDim S1048576 ![] bcast_S_S1048576),
    TRef.binary main_call4.v4 main_call4.v5 main_call4.v6 (cmpi .ne),
    TRef.nullary main_call4.c_2 (constantI S_ 32 0#32),
    TRef.unary main_call4.c_2 main_call4.v7 (broadcastInDim S1048576 ![] bcast_S_S1048576),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S1048576 ![] bcast_S_S1048576),
    TRef.binary main_call4.v8 main_call4.v10 main_call4.v11 (cmpi .ne),
    TRef.binary main_call4.v11 main_call4.v6 main_call4.v12 andi,
    TRef.unary main_call4.call0.v0 main_call4.v13 (broadcastInDim S1048576 ![] bcast_S_S1048576),
    TRef.binary main_call4.v4 main_call4.v13 main_call4.v14 addi,
    TRef.ternary main_call4.v12 main_call4.v14 main_call4.v4 main_call4.v15 select ]

/-- The flat positions' floor quotient by one. -/
abbrev opsE : List (HloOp τ sig (Elt F)) :=
  [ nullary main_c_7 (constantI S_ 32 1#32),
    TRef.unary (.of main_c_7 : StableHlo.TRef sig ⟨S_, .i32⟩) main_call5.v0 (broadcastInDim S1048576 ![] bcast_S_S1048576),
    TRef.binary (.of main_v13 : StableHlo.TRef sig ⟨S1048576, .i32⟩) main_call5.v0 main_call5.v1 Host.divsi,
    TRef.unary (.of main_v13 : StableHlo.TRef sig ⟨S1048576, .i32⟩) main_call5.v2 signi,
    TRef.unary (.of main_c_7 : StableHlo.TRef sig ⟨S_, .i32⟩) main_call5.v3 signi,
    TRef.unary main_call5.v3 main_call5.v4 (broadcastInDim S1048576 ![] bcast_S_S1048576),
    TRef.binary main_call5.v2 main_call5.v4 main_call5.v5 (cmpi .ne),
    TRef.unary (.of main_c_7 : StableHlo.TRef sig ⟨S_, .i32⟩) main_call5.v6 (broadcastInDim S1048576 ![] bcast_S_S1048576),
    TRef.binary (.of main_v13 : StableHlo.TRef sig ⟨S1048576, .i32⟩) main_call5.v6 main_call5.v7 Host.remsi,
    TRef.nullary main_call5.c (constantI S_ 32 0#32),
    TRef.unary main_call5.c main_call5.v8 (broadcastInDim S1048576 ![] bcast_S_S1048576),
    TRef.binary main_call5.v7 main_call5.v8 main_call5.v9 (cmpi .ne),
    TRef.binary main_call5.v5 main_call5.v9 main_call5.v10 andi,
    TRef.nullary main_call5.c_0 (constantI S_ 32 1#32),
    TRef.unary main_call5.c_0 main_call5.v11 (broadcastInDim S1048576 ![] bcast_S_S1048576),
    TRef.binary main_call5.v1 main_call5.v11 main_call5.v12 subi,
    TRef.ternary main_call5.v10 main_call5.v12 main_call5.v1 main_call5.call0.v0 select ]

/-- Its remainder by the row length, with the divisor's sign. -/
abbrev opsF : List (HloOp τ sig (Elt F)) :=
  [ nullary main_c_8 (constantI S_ 32 1024#32),
    TRef.unary (.of main_c_8 : StableHlo.TRef sig ⟨S_, .i32⟩) main_call6.v0 id,
    TRef.nullary main_call6.c (constantI S_ 32 0#32),
    TRef.binary main_call6.v0 main_call6.c main_call6.v1 (cmpi .eq),
    TRef.nullary main_call6.c_0 (constantI S_ 32 1#32),
    TRef.ternary main_call6.v1 main_call6.c_0 main_call6.v0 main_call6.call0.v0 select,
    TRef.unary main_call6.call0.v0 main_call6.v3 (broadcastInDim S1048576 ![] bcast_S_S1048576),
    TRef.binary (.of main_v16 : StableHlo.TRef sig ⟨S1048576, .i32⟩) main_call6.v3 main_call6.v4 Host.remsi,
    TRef.nullary main_call6.c_1 (constantI S_ 32 0#32),
    TRef.unary main_call6.c_1 main_call6.v5 (broadcastInDim S1048576 ![] bcast_S_S1048576),
    TRef.binary main_call6.v4 main_call6.v5 main_call6.v6 (cmpi .ne),
    TRef.nullary main_call6.c_2 (constantI S_ 32 0#32),
    TRef.unary main_call6.c_2 main_call6.v7 (broadcastInDim S1048576 ![] bcast_S_S1048576),
    TRef.binary main_call6.v4 main_call6.v7 main_call6.v8 (cmpi .slt),
    TRef.nullary main_call6.c_3 (constantI S_ 32 0#32),
    TRef.binary main_call6.call0.v0 main_call6.c_3 main_call6.v9 (cmpi .slt),
    TRef.unary main_call6.v9 main_call6.v10 (broadcastInDim S1048576 ![] bcast_S_S1048576),
    TRef.binary main_call6.v8 main_call6.v10 main_call6.v11 (cmpi .ne),
    TRef.binary main_call6.v11 main_call6.v6 main_call6.v12 andi,
    TRef.unary main_call6.call0.v0 main_call6.v13 (broadcastInDim S1048576 ![] bcast_S_S1048576),
    TRef.binary main_call6.v4 main_call6.v13 main_call6.v14 addi,
    TRef.ternary main_call6.v12 main_call6.v14 main_call6.v4 main_call6.v15 select ]

/-- The number of marked entries and the flag "edge slot at or past it". -/
abbrev opsG1 : List (HloOp τ sig (Elt F)) :=
  [ nullary main_v18 (iotaInDim S1048576 32 0),
    unary main_v1 main_v19 ((extui 32 · natLt_1_32) : (⟨S1024x1024, .i1⟩ : BufTy).Contents (Elt F) → (⟨S1024x1024, .i32⟩ : BufTy).Contents (Elt F)),
    nullary main_c_9 (constantI S_ 32 0#32),
    binary main_v19 main_c_9 main_v20 ((fun x v => Host.reduce IntOp.addi x v reducesTo_S1024x1024_S_d0_1 h_S_) : (⟨S1024x1024, .i32⟩ : BufTy).Contents (Elt F) → (⟨S_, .i32⟩ : BufTy).Contents (Elt F) → (⟨S_, .i32⟩ : BufTy).Contents (Elt F)),
    unary main_v20 main_v21 (broadcastInDim S1048576 ![] bcast_S_S1048576 : (⟨S_, .i32⟩ : BufTy).Contents (Elt F) → (⟨S1048576, .i32⟩ : BufTy).Contents (Elt F)),
    binary main_v18 main_v21 main_v22 (cmpi .sge : (⟨S1048576, .i32⟩ : BufTy).Contents (Elt F) → (⟨S1048576, .i32⟩ : BufTy).Contents (Elt F) → (⟨S1048576, .i1⟩ : BufTy).Contents (Elt F)) ]

/-- Source and target node of each edge slot, zero past the end. -/
abbrev opsG2 : List (HloOp τ sig (Elt F)) :=
  [ nullary main_c_10 (constantI S_ 32 0#32),
    TRef.unary (.of main_c_10 : StableHlo.TRef sig ⟨S_, .i32⟩) main_call7.v0 id,
    TRef.unary main_call7.v0 main_call7.v1 (broadcastInDim S1048576 ![] bcast_S_S1048576),
    TRef.ternary (.of main_v22 : StableHlo.TRef sig ⟨S1048576, .i1⟩) main_call7.v1 (.of main_v15 : StableHlo.TRef sig ⟨S1048576, .i32⟩) main_call7.v2 select,
    nullary main_c_11 (constantI S_ 32 0#32),
    TRef.unary (.of main_c_11 : StableHlo.TRef sig ⟨S_, .i32⟩) main_call8.v0 id,
    TRef.unary main_call8.v0 main_call8.v1 (broadcastInDim S1048576 ![] bcast_S_S1048576),
    TRef.ternary (.of main_v22 : StableHlo.TRef sig ⟨S1048576, .i1⟩) main_call8.v1 (.of main_v17 : StableHlo.TRef sig ⟨S1048576, .i32⟩) main_call8.v2 select ]

/-- The number of marked entries once more and the flag "edge slot below it". -/
abbrev opsG3 : List (HloOp τ sig (Elt F)) :=
  [ nullary main_v25 (iotaInDim S1048576 32 0),
    TRef.nullary main_call9.c (constantI S_ 32 0#32),
    TRef.unary main_call9.c main_call9.v0 (broadcastInDim S1024x1024 ![] bcast_S_S1024x1024),
    TRef.binary (.of main_arg1 : StableHlo.TRef sig ⟨S1024x1024, .i32⟩) main_call9.v0 main_call9.v1 (cmpi .ne),
    TRef.unary main_call9.v1 main_call9.v2 (extui 32 · natLt_1_32),
    TRef.nullary main_call9.c_0 (constantI S_ 32 0#32),
    TRef.binary main_call9.v2 main_call9.c_0 main_call9.v3 (fun x v => Host.reduce IntOp.addi x v reducesTo_S1024x1024_S_d0_1 h_S_),
    unary main_v26 main_v27 (broadcastInDim S1048576 ![] bcast_S_S1048576 : (⟨S_, .i32⟩ : BufTy).Contents (Elt F) → (⟨S1048576, .i32⟩ : BufTy).Contents (Elt F)),
    binary main_v25 main_v27 main_v28 (cmpi .slt : (⟨S1048576, .i32⟩ : BufTy).Contents (Elt F) → (⟨S1048576, .i32⟩ : BufTy).Contents (Elt F) → (⟨S1048576, .i1⟩ : BufTy).Contents (Elt F)) ]

/-- The projected features. -/
abbrev opsH1 : List (HloOp τ sig (Elt F)) :=
  [ binary main_arg0 main_arg2 main_v29 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)) ]

/-- The source nodes wrapped into range, as a column, and the projected rows they name. -/
abbrev opsH2 : List (HloOp τ sig (Elt F)) :=
  [ nullary main_c_12 (constantI S_ 32 0#32),
    unary main_c_12 main_v30 (broadcastInDim S1048576 ![] bcast_S_S1048576 : (⟨S_, .i32⟩ : BufTy).Contents (Elt F) → (⟨S1048576, .i32⟩ : BufTy).Contents (Elt F)),
    binary main_v23 main_v30 main_v31 (cmpi .slt : (⟨S1048576, .i32⟩ : BufTy).Contents (Elt F) → (⟨S1048576, .i32⟩ : BufTy).Contents (Elt F) → (⟨S1048576, .i1⟩ : BufTy).Contents (Elt F)),
    nullary main_c_13 (constantI S_ 32 1024#32),
    unary main_c_13 main_v32 (broadcastInDim S1048576 ![] bcast_S_S1048576 : (⟨S_, .i32⟩ : BufTy).Contents (Elt F) → (⟨S1048576, .i32⟩ : BufTy).Contents (Elt F)),
    binary main_v23 main_v32 main_v33 (addi : (⟨S1048576, .i32⟩ : BufTy).Contents (Elt F) → (⟨S1048576, .i32⟩ : BufTy).Contents (Elt F) → (⟨S1048576, .i32⟩ : BufTy).Contents (Elt F)),
    ternary main_v31 main_v33 main_v23 main_v34 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v34 main_v35 (broadcastInDim S1048576x1 ![0] bcast_S1048576_S1048576x1_0 : (⟨S1048576, .i32⟩ : BufTy).Contents (Elt F) → (⟨S1048576x1, .i32⟩ : BufTy).Contents (Elt F)),
    binary main_v29 main_v35 main_v36 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)) ]

/-- The target nodes wrapped into range, as a column. -/
abbrev opsH3 : List (HloOp τ sig (Elt F)) :=
  [ nullary main_c_14 (constantI S_ 32 0#32),
    unary main_c_14 main_v37 (broadcastInDim S1048576 ![] bcast_S_S1048576 : (⟨S_, .i32⟩ : BufTy).Contents (Elt F) → (⟨S1048576, .i32⟩ : BufTy).Contents (Elt F)),
    binary main_v24 main_v37 main_v38 (cmpi .slt : (⟨S1048576, .i32⟩ : BufTy).Contents (Elt F) → (⟨S1048576, .i32⟩ : BufTy).Contents (Elt F) → (⟨S1048576, .i1⟩ : BufTy).Contents (Elt F)),
    nullary main_c_15 (constantI S_ 32 1024#32),
    unary main_c_15 main_v39 (broadcastInDim S1048576 ![] bcast_S_S1048576 : (⟨S_, .i32⟩ : BufTy).Contents (Elt F) → (⟨S1048576, .i32⟩ : BufTy).Contents (Elt F)),
    binary main_v24 main_v39 main_v40 (addi : (⟨S1048576, .i32⟩ : BufTy).Contents (Elt F) → (⟨S1048576, .i32⟩ : BufTy).Contents (Elt F) → (⟨S1048576, .i32⟩ : BufTy).Contents (Elt F)),
    ternary main_v38 main_v40 main_v24 main_v41 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v41 main_v42 (broadcastInDim S1048576x1 ![0] bcast_S1048576_S1048576x1_0 : (⟨S1048576, .i32⟩ : BufTy).Contents (Elt F) → (⟨S1048576x1, .i32⟩ : BufTy).Contents (Elt F)) ]

/-- The projected rows the target nodes name. -/
abbrev opsI1 : List (HloOp τ sig (Elt F)) :=
  [ binary main_v29 main_v42 main_v43 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)) ]

/-- Each edge slot's score: the attention vector against the two ends' projected rows, side by side and transposed. -/
abbrev opsI2 : List (HloOp τ sig (Elt F)) :=
  [ binary main_v36 main_v43 main_v44 ((fun a b => concatenate S1048576x256 1 [⟨S1048576x128, a⟩, ⟨S1048576x128, b⟩] concatenates_S1048576x128_S1048576x128_S1048576x256_d1) : (⟨S1048576x128, .f32⟩ : BufTy).Contents (Elt F) → (⟨S1048576x128, .f32⟩ : BufTy).Contents (Elt F) → (⟨S1048576x256, .f32⟩ : BufTy).Contents (Elt F)),
    unary main_v44 main_v45 ((transpose S256x1048576 [1, 0] · transposes_S1048576x256_S256x1048576_1_0) : (⟨S1048576x256, .f32⟩ : BufTy).Contents (Elt F) → (⟨S256x1048576, .f32⟩ : BufTy).Contents (Elt F)),
    binary main_arg3 main_v45 main_v46 ((fun l r => Host.dotGeneral dot_S1x256_S256x1048576_S1x1048576_1_0_0_1_n_n none l r) : (⟨S1x256, .f32⟩ : BufTy).Contents (Elt F) → (⟨S256x1048576, .f32⟩ : BufTy).Contents (Elt F) → (⟨S1x1048576, .f32⟩ : BufTy).Contents (Elt F)),
    reshape main_v46 main_v47 rfl shapeCasts_S1x1048576_S1048576 ]

/-- `leaky_relu` of the scores. -/
abbrev opsJ1 : List (HloOp τ sig (Elt F)) :=
  [ nullary main_cst (constant S_ .f32 0x3C23D70A#32),
    TRef.nullary main_call10.cst (constant S_ .f32 0x00000000#32),
    TRef.unary main_call10.cst main_call10.v0 (broadcastInDim S1048576 ![] bcast_S_S1048576),
    TRef.binary (.of main_v47 : StableHlo.TRef sig ⟨S1048576, .f32⟩) main_call10.v0 main_call10.v1 (cmpf .oge),
    TRef.unary (.of main_cst : StableHlo.TRef sig ⟨S_, .f32⟩) main_call10.v2 id,
    TRef.unary main_call10.v2 main_call10.v3 (broadcastInDim S1048576 ![] bcast_S_S1048576),
    TRef.binary main_call10.v3 (.of main_v47 : StableHlo.TRef sig ⟨S1048576, .f32⟩) main_call10.v4 mulf,
    TRef.ternary main_call10.v1 (.of main_v47 : StableHlo.TRef sig ⟨S1048576, .f32⟩) main_call10.v4 main_call10.call0.v0 select ]

/-- Each edge slot's weight: the exponential of the negated value where the slot's flag is set, zero elsewhere. -/
abbrev opsJ2 : List (HloOp τ sig (Elt F)) :=
  [ unary main_v48 main_v49 (Host.negf : (⟨S1048576, .f32⟩ : BufTy).Contents (Elt F) → (⟨S1048576, .f32⟩ : BufTy).Contents (Elt F)),
    unary main_v49 main_v50 (Host.exp : (⟨S1048576, .f32⟩ : BufTy).Contents (Elt F) → (⟨S1048576, .f32⟩ : BufTy).Contents (Elt F)),
    nullary main_cst_16 (constant S_ .f32 0x00000000#32),
    TRef.unary (.of main_cst_16 : StableHlo.TRef sig ⟨S_, .f32⟩) main_call11.v0 id,
    TRef.unary main_call11.v0 main_call11.v1 (broadcastInDim S1048576 ![] bcast_S_S1048576),
    TRef.ternary (.of main_v28 : StableHlo.TRef sig ⟨S1048576, .i1⟩) (.of main_v50 : StableHlo.TRef sig ⟨S1048576, .f32⟩) main_call11.v1 main_call11.v2 select ]

/-- Each node's total weight, as a column. -/
abbrev opsK1 : List (HloOp τ sig (Elt F)) :=
  [ nullary main_cst_17 (constant S_ .f32 0x00000000#32),
    unary main_cst_17 main_v52 (broadcastInDim S1024 ![] bcast_S_S1024 : (⟨S_, .f32⟩ : BufTy).Contents (Elt F) → (⟨S1024, .f32⟩ : BufTy).Contents (Elt F)),
    unary main_v23 main_v53 (broadcastInDim S1048576x1 ![0] bcast_S1048576_S1048576x1_0 : (⟨S1048576, .i32⟩ : BufTy).Contents (Elt F) → (⟨S1048576x1, .i32⟩ : BufTy).Contents (Elt F)),
    ternary main_v52 main_v53 main_v51 main_v54 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),
    unary main_v54 main_v55 (broadcastInDim S1024x1 ![0] bcast_S1024_S1024x1_0 : (⟨S1024, .f32⟩ : BufTy).Contents (Elt F) → (⟨S1024x1, .f32⟩ : BufTy).Contents (Elt F)) ]

/-- The target rows once more, each scaled by its edge slot's weight. -/
abbrev opsK2 : List (HloOp τ sig (Elt F)) :=
  [ unary main_v51 main_v56 (broadcastInDim S1048576x1 ![0] bcast_S1048576_S1048576x1_0 : (⟨S1048576, .f32⟩ : BufTy).Contents (Elt F) → (⟨S1048576x1, .f32⟩ : BufTy).Contents (Elt F)),
    nullary main_c_18 (constantI S_ 32 0#32),
    unary main_c_18 main_v57 (broadcastInDim S1048576 ![] bcast_S_S1048576 : (⟨S_, .i32⟩ : BufTy).Contents (Elt F) → (⟨S1048576, .i32⟩ : BufTy).Contents (Elt F)),
    binary main_v24 main_v57 main_v58 (cmpi .slt : (⟨S1048576, .i32⟩ : BufTy).Contents (Elt F) → (⟨S1048576, .i32⟩ : BufTy).Contents (Elt F) → (⟨S1048576, .i1⟩ : BufTy).Contents (Elt F)),
    nullary main_c_19 (constantI S_ 32 1024#32),
    unary main_c_19 main_v59 (broadcastInDim S1048576 ![] bcast_S_S1048576 : (⟨S_, .i32⟩ : BufTy).Contents (Elt F) → (⟨S1048576, .i32⟩ : BufTy).Contents (Elt F)),
    binary main_v24 main_v59 main_v60 (addi : (⟨S1048576, .i32⟩ : BufTy).Contents (Elt F) → (⟨S1048576, .i32⟩ : BufTy).Contents (Elt F) → (⟨S1048576, .i32⟩ : BufTy).Contents (Elt F)),
    ternary main_v58 main_v60 main_v24 main_v61 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v61 main_v62 (broadcastInDim S1048576x1 ![0] bcast_S1048576_S1048576x1_0 : (⟨S1048576, .i32⟩ : BufTy).Contents (Elt F) → (⟨S1048576x1, .i32⟩ : BufTy).Contents (Elt F)),
    binary main_v29 main_v62 main_v63 ((fun x i => Host.gather gather_S1024x128_S1048576x1_S1048576x128_1_0_n_n_0_1_1128 x i) : (⟨S1024x128, .f32⟩ : BufTy).Contents (Elt F) → (⟨S1048576x1, .i32⟩ : BufTy).Contents (Elt F) → (⟨S1048576x128, .f32⟩ : BufTy).Contents (Elt F)),
    unary main_v56 main_v64 (broadcastInDim S1048576x128 ![0, 1] bcast_S1048576x1_S1048576x128_0_1 : (⟨S1048576x1, .f32⟩ : BufTy).Contents (Elt F) → (⟨S1048576x128, .f32⟩ : BufTy).Contents (Elt F)),
    binary main_v64 main_v63 main_v65 (mulf : (⟨S1048576x128, .f32⟩ : BufTy).Contents (Elt F) → (⟨S1048576x128, .f32⟩ : BufTy).Contents (Elt F) → (⟨S1048576x128, .f32⟩ : BufTy).Contents (Elt F)) ]

/-- Each node's weighted sum of target rows, over its total weight. -/
abbrev opsK3 : List (HloOp τ sig (Elt F)) :=
  [ nullary main_cst_20 (constant S_ .f32 0x00000000#32),
    unary main_cst_20 main_v66 (broadcastInDim S1024x128 ![] bcast_S_S1024x128 : (⟨S_, .f32⟩ : BufTy).Contents (Elt F) → (⟨S1024x128, .f32⟩ : BufTy).Contents (Elt F)),
    unary main_v23 main_v67 (broadcastInDim S1048576x1 ![0] bcast_S1048576_S1048576x1_0 : (⟨S1048576, .i32⟩ : BufTy).Contents (Elt F) → (⟨S1048576x1, .i32⟩ : BufTy).Contents (Elt F)),
    ternary main_v66 main_v67 main_v65 main_v68 ((fun x i u => Host.scatterAdd scatter_S1024x128_S1048576x1_S1048576x128_1_0_0_1 x i u) : (⟨S1024x128, .f32⟩ : BufTy).Contents (Elt F) → (⟨S1048576x1, .i32⟩ : BufTy).Contents (Elt F) → (⟨S1048576x128, .f32⟩ : BufTy).Contents (Elt F) → (⟨S1024x128, .f32⟩ : BufTy).Contents (Elt F)),
    unary main_v55 main_v69 (broadcastInDim S1024x128 ![0, 1] bcast_S1024x1_S1024x128_0_1 : (⟨S1024x1, .f32⟩ : BufTy).Contents (Elt F) → (⟨S1024x128, .f32⟩ : BufTy).Contents (Elt F)),
    binary main_v68 main_v69 main_v70 (Host.divf : (⟨S1024x128, .f32⟩ : BufTy).Contents (Elt F) → (⟨S1024x128, .f32⟩ : BufTy).Contents (Elt F) → (⟨S1024x128, .f32⟩ : BufTy).Contents (Elt F)) ]

/-- `elu` of that quotient: the result. -/
abbrev opsL : List (HloOp τ sig (Elt F)) :=
  [ TRef.nullary main_call12.cst (constant S_ .f32 0x00000000#32),
    TRef.unary main_call12.cst main_call12.v0 (broadcastInDim S1024x128 ![] bcast_S_S1024x128),
    TRef.binary (.of main_v70 : StableHlo.TRef sig ⟨S1024x128, .f32⟩) main_call12.v0 main_call12.v1 (cmpf .ogt),
    TRef.nullary main_call12.cst_0 (constant S_ .f32 0x00000000#32),
    TRef.unary main_call12.cst_0 main_call12.v2 (broadcastInDim S1024x128 ![] bcast_S_S1024x128),
    TRef.binary (.of main_v70 : StableHlo.TRef sig ⟨S1024x128, .f32⟩) main_call12.v2 main_call12.v3 (cmpf .ogt),
    TRef.nullary main_call12.cst_1 (constant S_ .f32 0x00000000#32),
    TRef.unary main_call12.cst_1 main_call12.call0.v0 id,
    TRef.unary main_call12.call0.v0 main_call12.call0.v1 (broadcastInDim S1024x128 ![] bcast_S_S1024x128),
    TRef.ternary main_call12.v3 main_call12.call0.v1 (.of main_v70 : StableHlo.TRef sig ⟨S1024x128, .f32⟩) main_call12.call0.v2 select,
    TRef.unary main_call12.call0.v2 main_call12.v5 Host.expm1,
    TRef.nullary main_call12.cst_2 (constant S_ .f32 0x3F800000#32),
    TRef.unary main_call12.cst_2 main_call12.v6 (broadcastInDim S1024x128 ![] bcast_S_S1024x128),
    TRef.binary main_call12.v6 main_call12.v5 main_call12.v7 mulf,
    TRef.ternary main_call12.v1 (.of main_v70 : StableHlo.TRef sig ⟨S1024x128, .f32⟩) main_call12.v7 main_call12.call1.v0 select ]

/-- The operations of the program's first window. -/
abbrev ops0 : List (HloOp τ sig (Elt F)) := opsA ++ (opsB1 ++ (opsB2 ++ (opsB3 ++ (opsB4 ++ (opsC ++ (opsD ++ (opsE ++ (opsF ++ (opsG1 ++ (opsG2 ++ (opsG3 ++ (opsH1 ++ (opsH2 ++ (opsH3))))))))))))))
/-- The operations of the program's second window. -/
abbrev ops1 : List (HloOp τ sig (Elt F)) := opsI1 ++ (opsI2 ++ (opsJ1 ++ (opsJ2 ++ (opsK1 ++ (opsK2 ++ (opsK3 ++ (opsL)))))))
/-- All the program's operations, in order, each call's body in place of the call. -/
abbrev ops : List (HloOp τ sig (Elt F)) := ops0 ++ ops1

set_option maxRecDepth 100000 in
set_option maxHeartbeats 4000000 in
/-- The first window is its operations in a line: the called functions' bodies unfolded at their calls, sequencing reassociated. -/
theorem part0_eq (c : Dev nD) : main_part0 (F := F) c = seq ops0 := by
  simp only [main_part0, fn_cumsum_0.body, fn_cumsum.body, fn_clip.body, fn_cumsum_1.body, fn_where.body, fn_floor_divide.body, fn_where_2.body, fn_remainder.body, fn_where_3.body, fn_count_nonzero.body, fn_where_4.body, fn_leaky_relu.body, fn_where_5.body, fn_where_6.body, fn_where_7.body, fn_elu.body, ops0, opsA, opsB1, opsB2, opsB3, opsB4, opsC, opsD, opsE, opsF, opsG1, opsG2, opsG3, opsH1, opsH2, opsH3, List.cons_append, List.nil_append, seq, bind_assoc, pure_bind]
  rfl

set_option maxRecDepth 100000 in
set_option maxHeartbeats 4000000 in
/-- The second window likewise. -/
theorem part1_eq (c : Dev nD) : main_part1 (F := F) c = seq ops1 := by
  simp only [main_part1, fn_cumsum_0.body, fn_cumsum.body, fn_clip.body, fn_cumsum_1.body, fn_where.body, fn_floor_divide.body, fn_where_2.body, fn_remainder.body, fn_where_3.body, fn_count_nonzero.body, fn_where_4.body, fn_leaky_relu.body, fn_where_5.body, fn_where_6.body, fn_where_7.body, fn_elu.body, ops1, opsI1, opsI2, opsJ1, opsJ2, opsK1, opsK2, opsK3, opsL, List.cons_append, List.nil_append, seq, bind_assoc, pure_bind]

/-- The program is its operations in a line. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub ..⟩
set_option maxRecDepth 8192 in
theorem opsB1_sub : (opsB1 : List (HloOp τ sig (Elt F))).Forall fun op => op.bufs ⊆ tcRefs τ sig :=
  ⟨nullary_bufs_sub .., unary_bufs_sub .., nullary_bufs_sub .., unary_bufs_sub .., unary_bufs_sub .., binary_bufs_sub ..⟩
set_option maxRecDepth 8192 in
theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩
set_option maxRecDepth 8192 in
theorem opsB3_sub : (opsB3 : List (HloOp τ sig (Elt F))).Forall fun op => op.bufs ⊆ tcRefs τ sig :=
  ⟨unary_bufs_sub .., nullary_bufs_sub .., unary_bufs_sub .., ternary_bufs_sub ..⟩
set_option maxRecDepth 8192 in
theorem opsB4_sub : (opsB4 : List (HloOp τ sig (Elt F))).Forall fun op => op.bufs ⊆ tcRefs τ sig :=
  ⟨nullary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
set_option maxRecDepth 8192 in
theorem opsD_sub : (opsD : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem opsE_sub : (opsE : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
set_option maxRecDepth 8192 in
theorem opsF_sub : (opsF : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
set_option maxRecDepth 8192 in
theorem opsG1_sub : (opsG1 : List (HloOp τ sig (Elt F))).Forall fun op => op.bufs ⊆ tcRefs τ sig :=
  ⟨nullary_bufs_sub .., unary_bufs_sub .., nullary_bufs_sub .., binary_bufs_sub .., unary_bufs_sub .., binary_bufs_sub ..⟩
set_option maxRecDepth 8192 in
theorem opsG2_sub : (opsG2 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., ternary_bufs_sub ..⟩
set_option maxRecDepth 8192 in
theorem opsG3_sub : (opsG3 : List (HloOp τ sig (Elt F))).Forall fun op => op.bufs ⊆ tcRefs τ sig :=
  ⟨nullary_bufs_sub .., nullary_bufs_sub .., unary_bufs_sub .., binary_bufs_sub .., unary_bufs_sub .., nullary_bufs_sub .., binary_bufs_sub .., unary_bufs_sub .., binary_bufs_sub ..⟩
set_option maxRecDepth 8192 in
theorem opsH1_sub : (opsH1 : List (HloOp τ sig (Elt F))).Forall fun op => op.bufs ⊆ tcRefs τ sig :=
  binary_bufs_sub ..
set_option maxRecDepth 8192 in
theorem opsH2_sub : (opsH2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem opsH3_sub : (opsH3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
set_option maxRecDepth 8192 in
theorem opsI1_sub : (opsI1 : List (HloOp τ sig (Elt F))).Forall fun op => op.bufs ⊆ tcRefs τ sig :=
  binary_bufs_sub ..
set_option maxRecDepth 8192 in
theorem opsI2_sub : (opsI2 : List (HloOp τ sig (Elt F))).Forall fun op => op.bufs ⊆ tcRefs τ sig :=
  ⟨binary_bufs_sub .., unary_bufs_sub .., binary_bufs_sub .., reshape_bufs_sub ..⟩
set_option maxRecDepth 8192 in
theorem opsJ1_sub : (opsJ1 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩
set_option maxRecDepth 8192 in
theorem opsJ2_sub : (opsJ2 : List (HloOp τ sig (Elt F))).Forall fun op => op.bufs ⊆ tcRefs τ sig :=
  ⟨unary_bufs_sub .., unary_bufs_sub .., nullary_bufs_sub .., unary_bufs_sub .., unary_bufs_sub .., ternary_bufs_sub ..⟩
set_option maxRecDepth 8192 in
theorem opsK1_sub : (opsK1 : List (HloOp τ sig (Elt F))).Forall fun op => op.bufs ⊆ tcRefs τ sig :=
  ⟨nullary_bufs_sub .., unary_bufs_sub .., unary_bufs_sub .., ternary_bufs_sub .., unary_bufs_sub ..⟩
set_option maxRecDepth 8192 in
theorem opsK2_sub : (opsK2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩
set_option maxRecDepth 8192 in
theorem opsK3_sub : (opsK3 : List (HloOp τ sig (Elt F))).Forall fun op => op.bufs ⊆ tcRefs τ sig :=
  ⟨nullary_bufs_sub .., unary_bufs_sub .., unary_bufs_sub .., ternary_bufs_sub .., unary_bufs_sub .., binary_bufs_sub ..⟩
set_option maxRecDepth 8192 in
theorem opsL_sub : (opsL : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h | h | h | h | h | h | h | h | h | h | h) | (h | h | h | h | h | h | h | h)
    exacts [List.forall_iff_forall_mem.mp opsA_sub op h, List.forall_iff_forall_mem.mp opsB1_sub op h, List.forall_iff_forall_mem.mp opsB2_sub op h, List.forall_iff_forall_mem.mp opsB3_sub op h, List.forall_iff_forall_mem.mp opsB4_sub op h, List.forall_iff_forall_mem.mp opsC_sub op h, List.forall_iff_forall_mem.mp opsD_sub op h, List.forall_iff_forall_mem.mp opsE_sub op h, List.forall_iff_forall_mem.mp opsF_sub op h, List.forall_iff_forall_mem.mp opsG1_sub op h, List.forall_iff_forall_mem.mp opsG2_sub op h, List.forall_iff_forall_mem.mp opsG3_sub op h, List.forall_iff_forall_mem.mp opsH1_sub op h, List.forall_iff_forall_mem.mp opsH2_sub op h, List.forall_iff_forall_mem.mp opsH3_sub op h, List.forall_iff_forall_mem.mp opsI1_sub op h, List.forall_iff_forall_mem.mp opsI2_sub op h, List.forall_iff_forall_mem.mp opsJ1_sub op h, List.forall_iff_forall_mem.mp opsJ2_sub op h, List.forall_iff_forall_mem.mp opsK1_sub op h, List.forall_iff_forall_mem.mp opsK2_sub op h, List.forall_iff_forall_mem.mp opsK3_sub op h, List.forall_iff_forall_mem.mp opsL_sub op h]

attribute [local irreducible] Host.reduceWindow Host.reduce Host.scatter Host.scatterAdd Host.gather concatenate transpose shapeCast broadcastInDim select

set_option maxRecDepth 8192 in
theorem rawA_main_v1 (P : Valuation τ sig (Elt F)) :
    after opsA P (no_index (Proc.devRef .tc main_v1)) = Flow.mask (P (Proc.devRef .tc main_arg1)) := by
  simp only [opsA]
  after_results_simp
  all_goals rfl
set_option maxRecDepth 8192 in
theorem rawA_main_v2 (P : Valuation τ sig (Elt F)) :
    after opsA P (no_index (Proc.devRef .tc main_v2)) = Flow.count (P (Proc.devRef .tc main_arg1)) := by
  simp only [opsA]
  after_results_simp
  all_goals rfl
/-- The buffers' contents after the stretch `opsA`. -/
def valA (V0 : Valuation τ sig (Elt F)) : Valuation τ sig (Elt F) := after opsA (V0)
/-- The buffers the stretch writes. -/
abbrev opsA_W : List (Ref sig .tc) := [main_c, main_v0, main_v1, main_call0_v0, main_call0_v1, main_call0_call0_c, main_call0_call0_v0, main_v2]
set_option maxRecDepth 8192 in
theorem opsA_writes : (opsA : List (HloOp τ sig (Elt F))).Forall fun op => op.writes ⊆ (opsA_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valA_keep (V0 : Valuation τ sig (Elt F)) (r : Ref sig .tc) (h : r ∉ opsA_W) :
    valA V0 (Proc.devRef .tc r) = V0 (Proc.devRef .tc r) :=
  after_of_writes_sub opsA _ opsA_writes h
theorem valA_main_arg0 (V0 : Valuation τ sig (Elt F)) :
    valA V0 (no_index (Proc.devRef .tc main_arg0)) = (V0 (Proc.devRef .tc main_arg0)) :=
  valA_keep V0 main_arg0 (by decide)
theorem valA_main_arg1 (V0 : Valuation τ sig (Elt F)) :
    valA V0 (no_index (Proc.devRef .tc main_arg1)) = (V0 (Proc.devRef .tc main_arg1)) :=
  valA_keep V0 main_arg1 (by decide)
theorem valA_main_arg2 (V0 : Valuation τ sig (Elt F)) :
    valA V0 (no_index (Proc.devRef .tc main_arg2)) = (V0 (Proc.devRef .tc main_arg2)) :=
  valA_keep V0 main_arg2 (by decide)
theorem valA_main_arg3 (V0 : Valuation τ sig (Elt F)) :
    valA V0 (no_index (Proc.devRef .tc main_arg3)) = (V0 (Proc.devRef .tc main_arg3)) :=
  valA_keep V0 main_arg3 (by decide)
theorem valA_main_v1 (V0 : Valuation τ sig (Elt F)) :
    valA V0 (no_index (Proc.devRef .tc main_v1)) = Flow.mask (V0 (Proc.devRef .tc main_arg1)) :=
  rawA_main_v1 V0
theorem valA_main_v2 (V0 : Valuation τ sig (Elt F)) :
    valA V0 (no_index (Proc.devRef .tc main_v2)) = Flow.count (V0 (Proc.devRef .tc main_arg1)) :=
  rawA_main_v2 V0

set_option maxRecDepth 8192 in
theorem rawB1_main_v3 (P : Valuation τ sig (Elt F)) :
    after opsB1 P (no_index (Proc.devRef .tc main_v3)) = Flow.splat 0#32 := by
  simp only [opsB1]
  after_results_simp
  all_goals rfl
set_option maxRecDepth 8192 in
theorem rawB1_main_v4 (P : Valuation τ sig (Elt F)) :
    after opsB1 P (no_index (Proc.devRef .tc main_v4)) = maxsi (Flow.splat 0#32) (P (Proc.devRef .tc main_v2)) := by
  simp only [opsB1]
  after_results_simp
  all_goals rfl
/-- The buffers' contents after the stretch `opsB1` (and all before it). -/
def valB1 (V0 : Valuation τ sig (Elt F)) : Valuation τ sig (Elt F) := after opsB1 (valA V0)
/-- The buffers the stretch writes. -/
abbrev opsB1_W : List (Ref sig .tc) := [main_c_0, main_v3, main_c_1, main_call1_v0, main_call1_v1, main_v4]
set_option maxRecDepth 8192 in
theorem opsB1_writes : (opsB1 : List (HloOp τ sig (Elt F))).Forall fun op => op.writes ⊆ (opsB1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valB1_keep (V0 : Valuation τ sig (Elt F)) (r : Ref sig .tc) (h : r ∉ opsB1_W) :
    valB1 V0 (Proc.devRef .tc r) = valA V0 (Proc.devRef .tc r) :=
  after_of_writes_sub opsB1 _ opsB1_writes h
theorem valB1_main_arg0 (V0 : Valuation τ sig (Elt F)) :
    valB1 V0 (no_index (Proc.devRef .tc main_arg0)) = (V0 (Proc.devRef .tc main_arg0)) :=
  (valB1_keep V0 main_arg0 (by decide)).trans (valA_main_arg0 V0)
theorem valB1_main_arg1 (V0 : Valuation τ sig (Elt F)) :
    valB1 V0 (no_index (Proc.devRef .tc main_arg1)) = (V0 (Proc.devRef .tc main_arg1)) :=
  (valB1_keep V0 main_arg1 (by decide)).trans (valA_main_arg1 V0)
theorem valB1_main_arg2 (V0 : Valuation τ sig (Elt F)) :
    valB1 V0 (no_index (Proc.devRef .tc main_arg2)) = (V0 (Proc.devRef .tc main_arg2)) :=
  (valB1_keep V0 main_arg2 (by decide)).trans (valA_main_arg2 V0)
theorem valB1_main_arg3 (V0 : Valuation τ sig (Elt F)) :
    valB1 V0 (no_index (Proc.devRef .tc main_arg3)) = (V0 (Proc.devRef .tc main_arg3)) :=
  (valB1_keep V0 main_arg3 (by decide)).trans (valA_main_arg3 V0)
theorem valB1_main_v1 (V0 : Valuation τ sig (Elt F)) :
    valB1 V0 (no_index (Proc.devRef .tc main_v1)) = Flow.mask (V0 (Proc.devRef .tc main_arg1)) :=
  (valB1_keep V0 main_v1 (by decide)).trans (valA_main_v1 V0)
set_option maxRecDepth 8192 in
theorem valB1_main_v3 (V0 : Valuation τ sig (Elt F)) :
    valB1 V0 (no_index (Proc.devRef .tc main_v3)) = Flow.splat 0#32 :=
  (rawB1_main_v3 (valA V0)).trans (by rfl)
set_option maxRecDepth 8192 in
theorem valB1_main_v4 (V0 : Valuation τ sig (Elt F)) :
    valB1 V0 (no_index (Proc.devRef .tc main_v4)) = maxsi (Flow.splat 0#32) (Flow.count (V0 (Proc.devRef .tc main_arg1))) :=
  (rawB1_main_v4 (valA V0)).trans (by simp only [valA_main_v2] <;> rfl)

set_option maxRecDepth 8192 in
theorem rawB2_main_v9 (P : Valuation τ sig (Elt F)) :
    after opsB2 P (no_index (Proc.devRef .tc main_v9)) = Flow.wrapNeg 1048576#32 (P (Proc.devRef .tc main_v4)) := by
  simp only [opsB2]
  after_results_simp
  all_goals rfl
/-- The buffers' contents after the stretch `opsB2` (and all before it). -/
def valB2 (V0 : Valuation τ sig (Elt F)) : Valuation τ sig (Elt F) := after opsB2 (valB1 V0)
/-- The buffers the stretch writes. -/
abbrev opsB2_W : List (Ref sig .tc) := [main_c_2, main_v5, main_v6, main_c_3, main_v7, main_v8, main_v9]
set_option maxRecDepth 8192 in
theorem opsB2_writes : (opsB2 : List (HloOp τ sig (Elt F))).Forall fun op => op.writes ⊆ (opsB2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valB2_keep (V0 : Valuation τ sig (Elt F)) (r : Ref sig .tc) (h : r ∉ opsB2_W) :
    valB2 V0 (Proc.devRef .tc r) = valB1 V0 (Proc.devRef .tc r) :=
  after_of_writes_sub opsB2 _ opsB2_writes h
theorem valB2_main_arg0 (V0 : Valuation τ sig (Elt F)) :
    valB2 V0 (no_index (Proc.devRef .tc main_arg0)) = (V0 (Proc.devRef .tc main_arg0)) :=
  (valB2_keep V0 main_arg0 (by decide)).trans (valB1_main_arg0 V0)
theorem valB2_main_arg1 (V0 : Valuation τ sig (Elt F)) :
    valB2 V0 (no_index (Proc.devRef .tc main_arg1)) = (V0 (Proc.devRef .tc main_arg1)) :=
  (valB2_keep V0 main_arg1 (by decide)).trans (valB1_main_arg1 V0)
theorem valB2_main_arg2 (V0 : Valuation τ sig (Elt F)) :
    valB2 V0 (no_index (Proc.devRef .tc main_arg2)) = (V0 (Proc.devRef .tc main_arg2)) :=
  (valB2_keep V0 main_arg2 (by decide)).trans (valB1_main_arg2 V0)
theorem valB2_main_arg3 (V0 : Valuation τ sig (Elt F)) :
    valB2 V0 (no_index (Proc.devRef .tc main_arg3)) = (V0 (Proc.devRef .tc main_arg3)) :=
  (valB2_keep V0 main_arg3 (by decide)).trans (valB1_main_arg3 V0)
theorem valB2_main_v1 (V0 : Valuation τ sig (Elt F)) :
    valB2 V0 (no_index (Proc.devRef .tc main_v1)) = Flow.mask (V0 (Proc.devRef .tc main_arg1)) :=
  (valB2_keep V0 main_v1 (by decide)).trans (valB1_main_v1 V0)
theorem valB2_main_v3 (V0 : Valuation τ sig (Elt F)) :
    valB2 V0 (no_index (Proc.devRef .tc main_v3)) = Flow.splat 0#32 :=
  (valB2_keep V0 main_v3 (by decide)).trans (valB1_main_v3 V0)
set_option maxRecDepth 8192 in
theorem valB2_main_v9 (V0 : Valuation τ sig (Elt F)) :
    valB2 V0 (no_index (Proc.devRef .tc main_v9)) = Flow.countIdx (V0 (Proc.devRef .tc main_arg1)) :=
  (rawB2_main_v9 (valB1 V0)).trans (by simp only [valB1_main_v4] <;> rfl)

set_option maxRecDepth 8192 in
theorem rawB3_main_v12 (P : Valuation τ sig (Elt F)) :
    after opsB3 P (no_index (Proc.devRef .tc main_v12)) = Host.scatter scatter_S1048576_S1048576x1_S1048576_n_0_0_1 IntOp.addi (P (Proc.devRef .tc main_v3)) (Flow.asColumn (P (Proc.devRef .tc main_v9))) (Flow.splat 1#32) := by
  simp only [opsB3]
  after_results_simp
  all_goals rfl
/-- The buffers' contents after the stretch `opsB3` (and all before it). -/
def valB3 (V0 : Valuation τ sig (Elt F)) : Valuation τ sig (Elt F) := after opsB3 (valB2 V0)
/-- The buffers the stretch writes. -/
abbrev opsB3_W : List (Ref sig .tc) := [main_v10, main_c_4, main_v11, main_v12]
set_option maxRecDepth 8192 in
theorem opsB3_writes : (opsB3 : List (HloOp τ sig (Elt F))).Forall fun op => op.writes ⊆ (opsB3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valB3_keep (V0 : Valuation τ sig (Elt F)) (r : Ref sig .tc) (h : r ∉ opsB3_W) :
    valB3 V0 (Proc.devRef .tc r) = valB2 V0 (Proc.devRef .tc r) :=
  after_of_writes_sub opsB3 _ opsB3_writes h
theorem valB3_main_arg0 (V0 : Valuation τ sig (Elt F)) :
    valB3 V0 (no_index (Proc.devRef .tc main_arg0)) = (V0 (Proc.devRef .tc main_arg0)) :=
  (valB3_keep V0 main_arg0 (by decide)).trans (valB2_main_arg0 V0)
theorem valB3_main_arg1 (V0 : Valuation τ sig (Elt F)) :
    valB3 V0 (no_index (Proc.devRef .tc main_arg1)) = (V0 (Proc.devRef .tc main_arg1)) :=
  (valB3_keep V0 main_arg1 (by decide)).trans (valB2_main_arg1 V0)
theorem valB3_main_arg2 (V0 : Valuation τ sig (Elt F)) :
    valB3 V0 (no_index (Proc.devRef .tc main_arg2)) = (V0 (Proc.devRef .tc main_arg2)) :=
  (valB3_keep V0 main_arg2 (by decide)).trans (valB2_main_arg2 V0)
theorem valB3_main_arg3 (V0 : Valuation τ sig (Elt F)) :
    valB3 V0 (no_index (Proc.devRef .tc main_arg3)) = (V0 (Proc.devRef .tc main_arg3)) :=
  (valB3_keep V0 main_arg3 (by decide)).trans (valB2_main_arg3 V0)
theorem valB3_main_v1 (V0 : Valuation τ sig (Elt F)) :
    valB3 V0 (no_index (Proc.devRef .tc main_v1)) = Flow.mask (V0 (Proc.devRef .tc main_arg1)) :=
  (valB3_keep V0 main_v1 (by decide)).trans (valB2_main_v1 V0)
set_option maxRecDepth 8192 in
theorem valB3_main_v12 (V0 : Valuation τ sig (Elt F)) :
    valB3 V0 (no_index (Proc.devRef .tc main_v12)) = Flow.histogram (V0 (Proc.devRef .tc main_arg1)) :=
  (rawB3_main_v12 (valB2 V0)).trans (by simp only [valB2_main_v3, valB2_main_v9] <;> rfl)

set_option maxRecDepth 8192 in
theorem rawB4_main_v13 (P : Valuation τ sig (Elt F)) :
    after opsB4 P (no_index (Proc.devRef .tc main_v13)) = Flow.runningSum (P (Proc.devRef .tc main_v12)) := by
  simp only [opsB4]
  after_results_simp
  all_goals rfl
/-- The buffers' contents after the stretch `opsB4` (and all before it). -/
def valB4 (V0 : Valuation τ sig (Elt F)) : Valuation τ sig (Elt F) := after opsB4 (valB3 V0)
/-- The buffers the stretch writes. -/
abbrev opsB4_W : List (Ref sig .tc) := [main_call2_call0_c, main_call2_call0_v0, main_v13]
set_option maxRecDepth 8192 in
theorem opsB4_writes : (opsB4 : List (HloOp τ sig (Elt F))).Forall fun op => op.writes ⊆ (opsB4_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valB4_keep (V0 : Valuation τ sig (Elt F)) (r : Ref sig .tc) (h : r ∉ opsB4_W) :
    valB4 V0 (Proc.devRef .tc r) = valB3 V0 (Proc.devRef .tc r) :=
  after_of_writes_sub opsB4 _ opsB4_writes h
theorem valB4_main_arg0 (V0 : Valuation τ sig (Elt F)) :
    valB4 V0 (no_index (Proc.devRef .tc main_arg0)) = (V0 (Proc.devRef .tc main_arg0)) :=
  (valB4_keep V0 main_arg0 (by decide)).trans (valB3_main_arg0 V0)
theorem valB4_main_arg1 (V0 : Valuation τ sig (Elt F)) :
    valB4 V0 (no_index (Proc.devRef .tc main_arg1)) = (V0 (Proc.devRef .tc main_arg1)) :=
  (valB4_keep V0 main_arg1 (by decide)).trans (valB3_main_arg1 V0)
theorem valB4_main_arg2 (V0 : Valuation τ sig (Elt F)) :
    valB4 V0 (no_index (Proc.devRef .tc main_arg2)) = (V0 (Proc.devRef .tc main_arg2)) :=
  (valB4_keep V0 main_arg2 (by decide)).trans (valB3_main_arg2 V0)
theorem valB4_main_arg3 (V0 : Valuation τ sig (Elt F)) :
    valB4 V0 (no_index (Proc.devRef .tc main_arg3)) = (V0 (Proc.devRef .tc main_arg3)) :=
  (valB4_keep V0 main_arg3 (by decide)).trans (valB3_main_arg3 V0)
theorem valB4_main_v1 (V0 : Valuation τ sig (Elt F)) :
    valB4 V0 (no_index (Proc.devRef .tc main_v1)) = Flow.mask (V0 (Proc.devRef .tc main_arg1)) :=
  (valB4_keep V0 main_v1 (by decide)).trans (valB3_main_v1 V0)
set_option maxRecDepth 8192 in
theorem valB4_main_v13 (V0 : Valuation τ sig (Elt F)) :
    valB4 V0 (no_index (Proc.devRef .tc main_v13)) = Flow.flatPos (V0 (Proc.devRef .tc main_arg1)) :=
  (rawB4_main_v13 (valB3 V0)).trans (by simp only [valB3_main_v12] <;> rfl)

set_option maxRecDepth 8192 in
theorem rawC_main_v14 (P : Valuation τ sig (Elt F)) :
    after opsC P (no_index (Proc.devRef .tc main_v14)) = Flow.floorDiv (P (Proc.devRef .tc main_v13)) 1024#32 := by
  simp only [opsC]
  after_results_simp
  all_goals rfl
/-- The buffers' contents after the stretch `opsC` (and all before it). -/
def valC (V0 : Valuation τ sig (Elt F)) : Valuation τ sig (Elt F) := after opsC (valB4 V0)
/-- The buffers the stretch writes. -/
abbrev opsC_W : List (Ref sig .tc) := [main_c_5, main_call3_v0, main_call3_v1, main_call3_v2, main_call3_v3, main_call3_v4, main_call3_v5, main_call3_v6, main_call3_v7, main_call3_c, main_call3_v8, main_call3_v9, main_call3_v10, main_call3_c_0, main_call3_v11, main_call3_v12, main_v14]
set_option maxRecDepth 8192 in
theorem opsC_writes : (opsC : List (HloOp τ sig (Elt F))).Forall fun op => op.writes ⊆ (opsC_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valC_keep (V0 : Valuation τ sig (Elt F)) (r : Ref sig .tc) (h : r ∉ opsC_W) :
    valC V0 (Proc.devRef .tc r) = valB4 V0 (Proc.devRef .tc r) :=
  after_of_writes_sub opsC _ opsC_writes h
theorem valC_main_arg0 (V0 : Valuation τ sig (Elt F)) :
    valC V0 (no_index (Proc.devRef .tc main_arg0)) = (V0 (Proc.devRef .tc main_arg0)) :=
  (valC_keep V0 main_arg0 (by decide)).trans (valB4_main_arg0 V0)
theorem valC_main_arg1 (V0 : Valuation τ sig (Elt F)) :
    valC V0 (no_index (Proc.devRef .tc main_arg1)) = (V0 (Proc.devRef .tc main_arg1)) :=
  (valC_keep V0 main_arg1 (by decide)).trans (valB4_main_arg1 V0)
theorem valC_main_arg2 (V0 : Valuation τ sig (Elt F)) :
    valC V0 (no_index (Proc.devRef .tc main_arg2)) = (V0 (Proc.devRef .tc main_arg2)) :=
  (valC_keep V0 main_arg2 (by decide)).trans (valB4_main_arg2 V0)
theorem valC_main_arg3 (V0 : Valuation τ sig (Elt F)) :
    valC V0 (no_index (Proc.devRef .tc main_arg3)) = (V0 (Proc.devRef .tc main_arg3)) :=
  (valC_keep V0 main_arg3 (by decide)).trans (valB4_main_arg3 V0)
theorem valC_main_v1 (V0 : Valuation τ sig (Elt F)) :
    valC V0 (no_index (Proc.devRef .tc main_v1)) = Flow.mask (V0 (Proc.devRef .tc main_arg1)) :=
  (valC_keep V0 main_v1 (by decide)).trans (valB4_main_v1 V0)
theorem valC_main_v13 (V0 : Valuation τ sig (Elt F)) :
    valC V0 (no_index (Proc.devRef .tc main_v13)) = Flow.flatPos (V0 (Proc.devRef .tc main_arg1)) :=
  (valC_keep V0 main_v13 (by decide)).trans (valB4_main_v13 V0)
set_option maxRecDepth 8192 in
theorem valC_main_v14 (V0 : Valuation τ sig (Elt F)) :
    valC V0 (no_index (Proc.devRef .tc main_v14)) = Flow.floorDiv (Flow.flatPos (V0 (Proc.devRef .tc main_arg1))) 1024#32 :=
  (rawC_main_v14 (valB4 V0)).trans (by simp only [valB4_main_v13] <;> rfl)

set_option maxRecDepth 8192 in
theorem rawD_main_v15 (P : Valuation τ sig (Elt F)) :
    after opsD P (no_index (Proc.devRef .tc main_v15)) = Flow.floorMod (P (Proc.devRef .tc main_v14)) 1024#32 := by
  simp only [opsD]
  after_results_simp
  all_goals rfl
/-- The buffers' contents after the stretch `opsD` (and all before it). -/
def valD (V0 : Valuation τ sig (Elt F)) : Valuation τ sig (Elt F) := after opsD (valC V0)
/-- The buffers the stretch writes. -/
abbrev opsD_W : List (Ref sig .tc) := [main_c_6, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v15]
set_option maxRecDepth 8192 in
theorem opsD_writes : (opsD : List (HloOp τ sig (Elt F))).Forall fun op => op.writes ⊆ (opsD_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valD_keep (V0 : Valuation τ sig (Elt F)) (r : Ref sig .tc) (h : r ∉ opsD_W) :
    valD V0 (Proc.devRef .tc r) = valC V0 (Proc.devRef .tc r) :=
  after_of_writes_sub opsD _ opsD_writes h
theorem valD_main_arg0 (V0 : Valuation τ sig (Elt F)) :
    valD V0 (no_index (Proc.devRef .tc main_arg0)) = (V0 (Proc.devRef .tc main_arg0)) :=
  (valD_keep V0 main_arg0 (by decide)).trans (valC_main_arg0 V0)
theorem valD_main_arg1 (V0 : Valuation τ sig (Elt F)) :
    valD V0 (no_index (Proc.devRef .tc main_arg1)) = (V0 (Proc.devRef .tc main_arg1)) :=
  (valD_keep V0 main_arg1 (by decide)).trans (valC_main_arg1 V0)
theorem valD_main_arg2 (V0 : Valuation τ sig (Elt F)) :
    valD V0 (no_index (Proc.devRef .tc main_arg2)) = (V0 (Proc.devRef .tc main_arg2)) :=
  (valD_keep V0 main_arg2 (by decide)).trans (valC_main_arg2 V0)
theorem valD_main_arg3 (V0 : Valuation τ sig (Elt F)) :
    valD V0 (no_index (Proc.devRef .tc main_arg3)) = (V0 (Proc.devRef .tc main_arg3)) :=
  (valD_keep V0 main_arg3 (by decide)).trans (valC_main_arg3 V0)
theorem valD_main_v1 (V0 : Valuation τ sig (Elt F)) :
    valD V0 (no_index (Proc.devRef .tc main_v1)) = Flow.mask (V0 (Proc.devRef .tc main_arg1)) :=
  (valD_keep V0 main_v1 (by decide)).trans (valC_main_v1 V0)
theorem valD_main_v13 (V0 : Valuation τ sig (Elt F)) :
    valD V0 (no_index (Proc.devRef .tc main_v13)) = Flow.flatPos (V0 (Proc.devRef .tc main_arg1)) :=
  (valD_keep V0 main_v13 (by decide)).trans (valC_main_v13 V0)
set_option maxRecDepth 8192 in
theorem valD_main_v15 (V0 : Valuation τ sig (Elt F)) :
    valD V0 (no_index (Proc.devRef .tc main_v15)) = Flow.floorMod (Flow.floorDiv (Flow.flatPos (V0 (Proc.devRef .tc main_arg1))) 1024#32) 1024#32 :=
  (rawD_main_v15 (valC V0)).trans (by simp only [valC_main_v14] <;> rfl)

set_option maxRecDepth 8192 in
theorem rawE_main_v16 (P : Valuation τ sig (Elt F)) :
    after opsE P (no_index (Proc.devRef .tc main_v16)) = Flow.floorDiv (P (Proc.devRef .tc main_v13)) 1#32 := by
  simp only [opsE]
  after_results_simp
  all_goals rfl
/-- The buffers' contents after the stretch `opsE` (and all before it). -/
def valE (V0 : Valuation τ sig (Elt F)) : Valuation τ sig (Elt F) := after opsE (valD V0)
/-- The buffers the stretch writes. -/
abbrev opsE_W : List (Ref sig .tc) := [main_c_7, main_call5_v0, main_call5_v1, main_call5_v2, main_call5_v3, main_call5_v4, main_call5_v5, main_call5_v6, main_call5_v7, main_call5_c, main_call5_v8, main_call5_v9, main_call5_v10, main_call5_c_0, main_call5_v11, main_call5_v12, main_v16]
set_option maxRecDepth 8192 in
theorem opsE_writes : (opsE : List (HloOp τ sig (Elt F))).Forall fun op => op.writes ⊆ (opsE_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valE_keep (V0 : Valuation τ sig (Elt F)) (r : Ref sig .tc) (h : r ∉ opsE_W) :
    valE V0 (Proc.devRef .tc r) = valD V0 (Proc.devRef .tc r) :=
  after_of_writes_sub opsE _ opsE_writes h
theorem valE_main_arg0 (V0 : Valuation τ sig (Elt F)) :
    valE V0 (no_index (Proc.devRef .tc main_arg0)) = (V0 (Proc.devRef .tc main_arg0)) :=
  (valE_keep V0 main_arg0 (by decide)).trans (valD_main_arg0 V0)
theorem valE_main_arg1 (V0 : Valuation τ sig (Elt F)) :
    valE V0 (no_index (Proc.devRef .tc main_arg1)) = (V0 (Proc.devRef .tc main_arg1)) :=
  (valE_keep V0 main_arg1 (by decide)).trans (valD_main_arg1 V0)
theorem valE_main_arg2 (V0 : Valuation τ sig (Elt F)) :
    valE V0 (no_index (Proc.devRef .tc main_arg2)) = (V0 (Proc.devRef .tc main_arg2)) :=
  (valE_keep V0 main_arg2 (by decide)).trans (valD_main_arg2 V0)
theorem valE_main_arg3 (V0 : Valuation τ sig (Elt F)) :
    valE V0 (no_index (Proc.devRef .tc main_arg3)) = (V0 (Proc.devRef .tc main_arg3)) :=
  (valE_keep V0 main_arg3 (by decide)).trans (valD_main_arg3 V0)
theorem valE_main_v1 (V0 : Valuation τ sig (Elt F)) :
    valE V0 (no_index (Proc.devRef .tc main_v1)) = Flow.mask (V0 (Proc.devRef .tc main_arg1)) :=
  (valE_keep V0 main_v1 (by decide)).trans (valD_main_v1 V0)
theorem valE_main_v15 (V0 : Valuation τ sig (Elt F)) :
    valE V0 (no_index (Proc.devRef .tc main_v15)) = Flow.floorMod (Flow.floorDiv (Flow.flatPos (V0 (Proc.devRef .tc main_arg1))) 1024#32) 1024#32 :=
  (valE_keep V0 main_v15 (by decide)).trans (valD_main_v15 V0)
set_option maxRecDepth 8192 in
theorem valE_main_v16 (V0 : Valuation τ sig (Elt F)) :
    valE V0 (no_index (Proc.devRef .tc main_v16)) = Flow.floorDiv (Flow.flatPos (V0 (Proc.devRef .tc main_arg1))) 1#32 :=
  (rawE_main_v16 (valD V0)).trans (by simp only [valD_main_v13] <;> rfl)

set_option maxRecDepth 8192 in
theorem rawF_main_v17 (P : Valuation τ sig (Elt F)) :
    after opsF P (no_index (Proc.devRef .tc main_v17)) = Flow.floorMod (P (Proc.devRef .tc main_v16)) 1024#32 := by
  simp only [opsF]
  after_results_simp
  all_goals rfl
/-- The buffers' contents after the stretch `opsF` (and all before it). -/
def valF (V0 : Valuation τ sig (Elt F)) : Valuation τ sig (Elt F) := after opsF (valE V0)
/-- The buffers the stretch writes. -/
abbrev opsF_W : List (Ref sig .tc) := [main_c_8, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v17]
set_option maxRecDepth 8192 in
theorem opsF_writes : (opsF : List (HloOp τ sig (Elt F))).Forall fun op => op.writes ⊆ (opsF_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valF_keep (V0 : Valuation τ sig (Elt F)) (r : Ref sig .tc) (h : r ∉ opsF_W) :
    valF V0 (Proc.devRef .tc r) = valE V0 (Proc.devRef .tc r) :=
  after_of_writes_sub opsF _ opsF_writes h
theorem valF_main_arg0 (V0 : Valuation τ sig (Elt F)) :
    valF V0 (no_index (Proc.devRef .tc main_arg0)) = (V0 (Proc.devRef .tc main_arg0)) :=
  (valF_keep V0 main_arg0 (by decide)).trans (valE_main_arg0 V0)
theorem valF_main_arg1 (V0 : Valuation τ sig (Elt F)) :
    valF V0 (no_index (Proc.devRef .tc main_arg1)) = (V0 (Proc.devRef .tc main_arg1)) :=
  (valF_keep V0 main_arg1 (by decide)).trans (valE_main_arg1 V0)
theorem valF_main_arg2 (V0 : Valuation τ sig (Elt F)) :
    valF V0 (no_index (Proc.devRef .tc main_arg2)) = (V0 (Proc.devRef .tc main_arg2)) :=
  (valF_keep V0 main_arg2 (by decide)).trans (valE_main_arg2 V0)
theorem valF_main_arg3 (V0 : Valuation τ sig (Elt F)) :
    valF V0 (no_index (Proc.devRef .tc main_arg3)) = (V0 (Proc.devRef .tc main_arg3)) :=
  (valF_keep V0 main_arg3 (by decide)).trans (valE_main_arg3 V0)
theorem valF_main_v1 (V0 : Valuation τ sig (Elt F)) :
    valF V0 (no_index (Proc.devRef .tc main_v1)) = Flow.mask (V0 (Proc.devRef .tc main_arg1)) :=
  (valF_keep V0 main_v1 (by decide)).trans (valE_main_v1 V0)
theorem valF_main_v15 (V0 : Valuation τ sig (Elt F)) :
    valF V0 (no_index (Proc.devRef .tc main_v15)) = Flow.floorMod (Flow.floorDiv (Flow.flatPos (V0 (Proc.devRef .tc main_arg1))) 1024#32) 1024#32 :=
  (valF_keep V0 main_v15 (by decide)).trans (valE_main_v15 V0)
set_option maxRecDepth 8192 in
theorem valF_main_v17 (V0 : Valuation τ sig (Elt F)) :
    valF V0 (no_index (Proc.devRef .tc main_v17)) = Flow.floorMod (Flow.floorDiv (Flow.flatPos (V0 (Proc.devRef .tc main_arg1))) 1#32) 1024#32 :=
  (rawF_main_v17 (valE V0)).trans (by simp only [valE_main_v16] <;> rfl)

set_option maxRecDepth 8192 in
theorem rawG1_main_v22 (P : Valuation τ sig (Elt F)) :
    after opsG1 P (no_index (Proc.devRef .tc main_v22)) = cmpi .sge (iotaInDim S1048576 32 0) (broadcastInDim S1048576 ![] bcast_S_S1048576 (Host.reduce IntOp.addi (extui 32 (P (Proc.devRef .tc main_v1)) natLt_1_32) (constantI S_ 32 0#32) reducesTo_S1024x1024_S_d0_1 h_S_)) := by
  simp only [opsG1]
  after_results_simp
  all_goals rfl
/-- The buffers' contents after the stretch `opsG1` (and all before it). -/
def valG1 (V0 : Valuation τ sig (Elt F)) : Valuation τ sig (Elt F) := after opsG1 (valF V0)
/-- The buffers the stretch writes. -/
abbrev opsG1_W : List (Ref sig .tc) := [main_v18, main_v19, main_c_9, main_v20, main_v21, main_v22]
set_option maxRecDepth 8192 in
theorem opsG1_writes : (opsG1 : List (HloOp τ sig (Elt F))).Forall fun op => op.writes ⊆ (opsG1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valG1_keep (V0 : Valuation τ sig (Elt F)) (r : Ref sig .tc) (h : r ∉ opsG1_W) :
    valG1 V0 (Proc.devRef .tc r) = valF V0 (Proc.devRef .tc r) :=
  after_of_writes_sub opsG1 _ opsG1_writes h
theorem valG1_main_arg0 (V0 : Valuation τ sig (Elt F)) :
    valG1 V0 (no_index (Proc.devRef .tc main_arg0)) = (V0 (Proc.devRef .tc main_arg0)) :=
  (valG1_keep V0 main_arg0 (by decide)).trans (valF_main_arg0 V0)
theorem valG1_main_arg1 (V0 : Valuation τ sig (Elt F)) :
    valG1 V0 (no_index (Proc.devRef .tc main_arg1)) = (V0 (Proc.devRef .tc main_arg1)) :=
  (valG1_keep V0 main_arg1 (by decide)).trans (valF_main_arg1 V0)
theorem valG1_main_arg2 (V0 : Valuation τ sig (Elt F)) :
    valG1 V0 (no_index (Proc.devRef .tc main_arg2)) = (V0 (Proc.devRef .tc main_arg2)) :=
  (valG1_keep V0 main_arg2 (by decide)).trans (valF_main_arg2 V0)
theorem valG1_main_arg3 (V0 : Valuation τ sig (Elt F)) :
    valG1 V0 (no_index (Proc.devRef .tc main_arg3)) = (V0 (Proc.devRef .tc main_arg3)) :=
  (valG1_keep V0 main_arg3 (by decide)).trans (valF_main_arg3 V0)
theorem valG1_main_v15 (V0 : Valuation τ sig (Elt F)) :
    valG1 V0 (no_index (Proc.devRef .tc main_v15)) = Flow.floorMod (Flow.floorDiv (Flow.flatPos (V0 (Proc.devRef .tc main_arg1))) 1024#32) 1024#32 :=
  (valG1_keep V0 main_v15 (by decide)).trans (valF_main_v15 V0)
theorem valG1_main_v17 (V0 : Valuation τ sig (Elt F)) :
    valG1 V0 (no_index (Proc.devRef .tc main_v17)) = Flow.floorMod (Flow.floorDiv (Flow.flatPos (V0 (Proc.devRef .tc main_arg1))) 1#32) 1024#32 :=
  (valG1_keep V0 main_v17 (by decide)).trans (valF_main_v17 V0)
set_option maxRecDepth 8192 in
theorem valG1_main_v22 (V0 : Valuation τ sig (Elt F)) :
    valG1 V0 (no_index (Proc.devRef .tc main_v22)) = Flow.pastEnd (V0 (Proc.devRef .tc main_arg1)) :=
  (rawG1_main_v22 (valF V0)).trans (by simp only [valF_main_v1] <;> rfl)

set_option maxRecDepth 8192 in
theorem rawG2_main_v23 (P : Valuation τ sig (Elt F)) :
    after opsG2 P (no_index (Proc.devRef .tc main_v23)) = select (P (Proc.devRef .tc main_v22)) (Flow.splat 0#32) (P (Proc.devRef .tc main_v15)) := by
  simp only [opsG2]
  after_results_simp
  all_goals rfl
set_option maxRecDepth 8192 in
theorem rawG2_main_v24 (P : Valuation τ sig (Elt F)) :
    after opsG2 P (no_index (Proc.devRef .tc main_v24)) = select (P (Proc.devRef .tc main_v22)) (Flow.splat 0#32) (P (Proc.devRef .tc main_v17)) := by
  simp only [opsG2]
  after_results_simp
  all_goals rfl
/-- The buffers' contents after the stretch `opsG2` (and all before it). -/
def valG2 (V0 : Valuation τ sig (Elt F)) : Valuation τ sig (Elt F) := after opsG2 (valG1 V0)
/-- The buffers the stretch writes. -/
abbrev opsG2_W : List (Ref sig .tc) := [main_c_10, main_call7_v0, main_call7_v1, main_v23, main_c_11, main_call8_v0, main_call8_v1, main_v24]
set_option maxRecDepth 8192 in
theorem opsG2_writes : (opsG2 : List (HloOp τ sig (Elt F))).Forall fun op => op.writes ⊆ (opsG2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valG2_keep (V0 : Valuation τ sig (Elt F)) (r : Ref sig .tc) (h : r ∉ opsG2_W) :
    valG2 V0 (Proc.devRef .tc r) = valG1 V0 (Proc.devRef .tc r) :=
  after_of_writes_sub opsG2 _ opsG2_writes h
theorem valG2_main_arg0 (V0 : Valuation τ sig (Elt F)) :
    valG2 V0 (no_index (Proc.devRef .tc main_arg0)) = (V0 (Proc.devRef .tc main_arg0)) :=
  (valG2_keep V0 main_arg0 (by decide)).trans (valG1_main_arg0 V0)
theorem valG2_main_arg1 (V0 : Valuation τ sig (Elt F)) :
    valG2 V0 (no_index (Proc.devRef .tc main_arg1)) = (V0 (Proc.devRef .tc main_arg1)) :=
  (valG2_keep V0 main_arg1 (by decide)).trans (valG1_main_arg1 V0)
theorem valG2_main_arg2 (V0 : Valuation τ sig (Elt F)) :
    valG2 V0 (no_index (Proc.devRef .tc main_arg2)) = (V0 (Proc.devRef .tc main_arg2)) :=
  (valG2_keep V0 main_arg2 (by decide)).trans (valG1_main_arg2 V0)
theorem valG2_main_arg3 (V0 : Valuation τ sig (Elt F)) :
    valG2 V0 (no_index (Proc.devRef .tc main_arg3)) = (V0 (Proc.devRef .tc main_arg3)) :=
  (valG2_keep V0 main_arg3 (by decide)).trans (valG1_main_arg3 V0)
set_option maxRecDepth 8192 in
theorem valG2_main_v23 (V0 : Valuation τ sig (Elt F)) :
    valG2 V0 (no_index (Proc.devRef .tc main_v23)) = Flow.srcV (V0 (Proc.devRef .tc main_arg1)) :=
  (rawG2_main_v23 (valG1 V0)).trans (by simp only [valG1_main_v22, valG1_main_v15] <;> rfl)
set_option maxRecDepth 8192 in
theorem valG2_main_v24 (V0 : Valuation τ sig (Elt F)) :
    valG2 V0 (no_index (Proc.devRef .tc main_v24)) = Flow.dstV (V0 (Proc.devRef .tc main_arg1)) :=
  (rawG2_main_v24 (valG1 V0)).trans (by simp only [valG1_main_v22, valG1_main_v17] <;> rfl)

set_option maxRecDepth 8192 in
theorem rawG3_main_v28 (P : Valuation τ sig (Elt F)) :
    after opsG3 P (no_index (Proc.devRef .tc main_v28)) = Flow.validV (P (Proc.devRef .tc main_arg1)) := by
  simp only [opsG3]
  after_results_simp
  all_goals rfl
/-- The buffers' contents after the stretch `opsG3` (and all before it). -/
def valG3 (V0 : Valuation τ sig (Elt F)) : Valuation τ sig (Elt F) := after opsG3 (valG2 V0)
/-- The buffers the stretch writes. -/
abbrev opsG3_W : List (Ref sig .tc) := [main_v25, main_call9_c, main_call9_v0, main_call9_v1, main_call9_v2, main_call9_c_0, main_v26, main_v27, main_v28]
set_option maxRecDepth 8192 in
theorem opsG3_writes : (opsG3 : List (HloOp τ sig (Elt F))).Forall fun op => op.writes ⊆ (opsG3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valG3_keep (V0 : Valuation τ sig (Elt F)) (r : Ref sig .tc) (h : r ∉ opsG3_W) :
    valG3 V0 (Proc.devRef .tc r) = valG2 V0 (Proc.devRef .tc r) :=
  after_of_writes_sub opsG3 _ opsG3_writes h
theorem valG3_main_arg0 (V0 : Valuation τ sig (Elt F)) :
    valG3 V0 (no_index (Proc.devRef .tc main_arg0)) = (V0 (Proc.devRef .tc main_arg0)) :=
  (valG3_keep V0 main_arg0 (by decide)).trans (valG2_main_arg0 V0)
theorem valG3_main_arg1 (V0 : Valuation τ sig (Elt F)) :
    valG3 V0 (no_index (Proc.devRef .tc main_arg1)) = (V0 (Proc.devRef .tc main_arg1)) :=
  (valG3_keep V0 main_arg1 (by decide)).trans (valG2_main_arg1 V0)
theorem valG3_main_arg2 (V0 : Valuation τ sig (Elt F)) :
    valG3 V0 (no_index (Proc.devRef .tc main_arg2)) = (V0 (Proc.devRef .tc main_arg2)) :=
  (valG3_keep V0 main_arg2 (by decide)).trans (valG2_main_arg2 V0)
theorem valG3_main_arg3 (V0 : Valuation τ sig (Elt F)) :
    valG3 V0 (no_index (Proc.devRef .tc main_arg3)) = (V0 (Proc.devRef .tc main_arg3)) :=
  (valG3_keep V0 main_arg3 (by decide)).trans (valG2_main_arg3 V0)
theorem valG3_main_v23 (V0 : Valuation τ sig (Elt F)) :
    valG3 V0 (no_index (Proc.devRef .tc main_v23)) = Flow.srcV (V0 (Proc.devRef .tc main_arg1)) :=
  (valG3_keep V0 main_v23 (by decide)).trans (valG2_main_v23 V0)
theorem valG3_main_v24 (V0 : Valuation τ sig (Elt F)) :
    valG3 V0 (no_index (Proc.devRef .tc main_v24)) = Flow.dstV (V0 (Proc.devRef .tc main_arg1)) :=
  (valG3_keep V0 main_v24 (by decide)).trans (valG2_main_v24 V0)
set_option maxRecDepth 8192 in
theorem valG3_main_v28 (V0 : Valuation τ sig (Elt F)) :
    valG3 V0 (no_index (Proc.devRef .tc main_v28)) = Flow.validV (V0 (Proc.devRef .tc main_arg1)) :=
  (rawG3_main_v28 (valG2 V0)).trans (by simp only [valG2_main_arg1] <;> rfl)

set_option maxRecDepth 8192 in
theorem rawH1_main_v29 (P : Valuation τ sig (Elt F)) :
    after opsH1 P (no_index (Proc.devRef .tc main_v29)) = Flow.hV (P (Proc.devRef .tc main_arg0)) (P (Proc.devRef .tc main_arg2)) := by
  simp only [opsH1]
  after_results_simp
  all_goals rfl
/-- The buffers' contents after the stretch `opsH1` (and all before it). -/
def valH1 (V0 : Valuation τ sig (Elt F)) : Valuation τ sig (Elt F) := after opsH1 (valG3 V0)
/-- The buffers the stretch writes. -/
abbrev opsH1_W : List (Ref sig .tc) := [main_v29]
set_option maxRecDepth 8192 in
theorem opsH1_writes : (opsH1 : List (HloOp τ sig (Elt F))).Forall fun op => op.writes ⊆ (opsH1_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
/-- A buffer the stretch does not write keeps its contents through it. -/
theorem valH1_keep (V0 : Valuation τ sig (Elt F)) (r : Ref sig .tc) (h : r ∉ opsH1_W) :
    valH1 V0 (Proc.devRef .tc r) = valG3 V0 (Proc.devRef .tc r) :=
  after_of_writes_sub opsH1 _ opsH1_writes h
theorem valH1_main_arg0 (V0 : Valuation τ sig (Elt F)) :
    valH1 V0 (no_index (Proc.devRef .tc main_arg0)) = (V0 (Proc.devRef .tc main_arg0)) :=
  (valH1_keep V0 main_arg0 (by decide)).trans (valG3_main_arg0 V0)
theorem valH1_main_arg1 (V0 : Valuation τ sig (Elt F)) :
    valH1 V0 (no_index (Proc.devRef .tc main_arg1)) = (V0 (Proc.devRef .tc main_arg1)) :=
  (valH1_keep V0 main_arg1 (by decide)).trans (valG3_main_arg1 V0)
theorem valH1_main_arg2 (V0 : Valuation τ sig (Elt F)) :
    valH1 V0 (no_index (Proc.devRef .tc main_arg2)) = (V0 (Proc.devRef .tc main_arg2)) :=
  (valH1_keep V0 main_arg2 (by decide)).trans (valG3_main_arg2 V0)
theorem valH1_main_arg3 (V0 : Valuation τ sig (Elt F)) :
    valH1 V0 (no_index (Proc.devRef .tc main_arg3)) = (V0 (Proc.devRef .tc main_arg3)) :=
  (valH1_keep V0 main_arg3 (by decide)).trans (valG3_main_arg3 V0)
theorem valH1_main_v23 (V0 : Valuation τ sig (Elt F)) :
    valH1 V0 (no_index (Proc.devRef .tc main_v23)) = Flow.srcV (V0 (Proc.devRef .tc main_arg1)) :=
  (valH1_keep V0 main_v23 (by decide)).trans (valG3_main_v23 V0)
theorem valH1_main_v24 (V0 : Valuation τ sig (Elt F)) :
    valH1 V0 (no_index (Proc.devRef .tc main_v24)) = Flow.dstV (V0 (Proc.devRef .tc main_arg1)) :=
  (valH1_keep V0 main_v24 (by decide)).trans (valG3_main_v24 V0)
theorem valH1_main_v28 (V0 : Valuation τ sig (Elt F)) :
    valH1 V0 (no_index (Proc.devRef .tc main_v28)) = Flow.validV (V0 (Proc.devRef .tc main_arg1)) :=
  (valH1_keep V0 main_v28 (by decide)).trans (valG3_main_v28 V0)
set_option maxRecDepth 8192 in
theorem valH1_main_v29 (V0 : Valuation τ sig (Elt F)) :
    valH1 V0 (no_index (Proc.devRef .tc main_v29)) = Flow.hV (V0 (Proc.devRef .tc main_arg0)) (V0 (Proc.devRef .tc main_arg2)) :=
  (rawH1_main_v29 (valG3 V0)).trans (by simp only [valG3_main_arg0, valG3_main_arg2] <;> rfl)

set_option maxRecDepth 8192 in
theorem rawH2_main_v36 (P : Valuation τ sig (Elt F)) :
    after opsH2 P (no_index (Proc.devRef .tc main_v36)) = Flow.takeRows (P (Proc.devRef .tc main_v29)) (P (Proc.devRef .tc main_v23)) := by
  simp only [opsH2]
  after_results_simp
  all_goals rfl
/-- The buffers' contents after the stretch `opsH2` (and all before it). -/
def valH2 (V0 : Valuation τ sig (Elt F)) : Valuation τ sig (Elt F) := after opsH2 (valH1 V0)
/-- The buffers the stretch writes. -/
abbrev opsH2_W : List (Ref sig .tc) := [main_c_12, main_v30, main_v31, main_c_13, main_v32, main_v33, main_v34, main_v35, main_v36]
set_option maxRecDepth 8192 in
theorem opsH2_writes : (opsH2 : List (HloOp τ sig (Elt F))).Forall fun op => op.writes ⊆ (opsH2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valH2_keep (V0 : Valuation τ sig (Elt F)) (r : Ref sig .tc) (h : r ∉ opsH2_W) :
    valH2 V0 (Proc.devRef .tc r) = valH1 V0 (Proc.devRef .tc r) :=
  after_of_writes_sub opsH2 _ opsH2_writes h
theorem valH2_main_arg0 (V0 : Valuation τ sig (Elt F)) :
    valH2 V0 (no_index (Proc.devRef .tc main_arg0)) = (V0 (Proc.devRef .tc main_arg0)) :=
  (valH2_keep V0 main_arg0 (by decide)).trans (valH1_main_arg0 V0)
theorem valH2_main_arg1 (V0 : Valuation τ sig (Elt F)) :
    valH2 V0 (no_index (Proc.devRef .tc main_arg1)) = (V0 (Proc.devRef .tc main_arg1)) :=
  (valH2_keep V0 main_arg1 (by decide)).trans (valH1_main_arg1 V0)
theorem valH2_main_arg2 (V0 : Valuation τ sig (Elt F)) :
    valH2 V0 (no_index (Proc.devRef .tc main_arg2)) = (V0 (Proc.devRef .tc main_arg2)) :=
  (valH2_keep V0 main_arg2 (by decide)).trans (valH1_main_arg2 V0)
theorem valH2_main_arg3 (V0 : Valuation τ sig (Elt F)) :
    valH2 V0 (no_index (Proc.devRef .tc main_arg3)) = (V0 (Proc.devRef .tc main_arg3)) :=
  (valH2_keep V0 main_arg3 (by decide)).trans (valH1_main_arg3 V0)
theorem valH2_main_v23 (V0 : Valuation τ sig (Elt F)) :
    valH2 V0 (no_index (Proc.devRef .tc main_v23)) = Flow.srcV (V0 (Proc.devRef .tc main_arg1)) :=
  (valH2_keep V0 main_v23 (by decide)).trans (valH1_main_v23 V0)
theorem valH2_main_v24 (V0 : Valuation τ sig (Elt F)) :
    valH2 V0 (no_index (Proc.devRef .tc main_v24)) = Flow.dstV (V0 (Proc.devRef .tc main_arg1)) :=
  (valH2_keep V0 main_v24 (by decide)).trans (valH1_main_v24 V0)
theorem valH2_main_v28 (V0 : Valuation τ sig (Elt F)) :
    valH2 V0 (no_index (Proc.devRef .tc main_v28)) = Flow.validV (V0 (Proc.devRef .tc main_arg1)) :=
  (valH2_keep V0 main_v28 (by decide)).trans (valH1_main_v28 V0)
theorem valH2_main_v29 (V0 : Valuation τ sig (Elt F)) :
    valH2 V0 (no_index (Proc.devRef .tc main_v29)) = Flow.hV (V0 (Proc.devRef .tc main_arg0)) (V0 (Proc.devRef .tc main_arg2)) :=
  (valH2_keep V0 main_v29 (by decide)).trans (valH1_main_v29 V0)
set_option maxRecDepth 8192 in
theorem valH2_main_v36 (V0 : Valuation τ sig (Elt F)) :
    valH2 V0 (no_index (Proc.devRef .tc main_v36)) = Flow.takeRows (Flow.hV (V0 (Proc.devRef .tc main_arg0)) (V0 (Proc.devRef .tc main_arg2))) (Flow.srcV (V0 (Proc.devRef .tc main_arg1))) :=
  (rawH2_main_v36 (valH1 V0)).trans (by simp only [valH1_main_v29, valH1_main_v23] <;> rfl)

set_option maxRecDepth 8192 in
theorem rawH3_main_v42 (P : Valuation τ sig (Elt F)) :
    after opsH3 P (no_index (Proc.devRef .tc main_v42)) = Flow.asColumn (Flow.wrapNeg 1024#32 (P (Proc.devRef .tc main_v24))) := by
  simp only [opsH3]
  after_results_simp
  all_goals rfl
/-- The buffers' contents after the stretch `opsH3` (and all before it). -/
def valH3 (V0 : Valuation τ sig (Elt F)) : Valuation τ sig (Elt F) := after opsH3 (valH2 V0)
/-- The buffers the stretch writes. -/
abbrev opsH3_W : List (Ref sig .tc) := [main_c_14, main_v37, main_v38, main_c_15, main_v39, main_v40, main_v41, main_v42]
set_option maxRecDepth 8192 in
theorem opsH3_writes : (opsH3 : List (HloOp τ sig (Elt F))).Forall fun op => op.writes ⊆ (opsH3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valH3_keep (V0 : Valuation τ sig (Elt F)) (r : Ref sig .tc) (h : r ∉ opsH3_W) :
    valH3 V0 (Proc.devRef .tc r) = valH2 V0 (Proc.devRef .tc r) :=
  after_of_writes_sub opsH3 _ opsH3_writes h
theorem valH3_main_arg0 (V0 : Valuation τ sig (Elt F)) :
    valH3 V0 (no_index (Proc.devRef .tc main_arg0)) = (V0 (Proc.devRef .tc main_arg0)) :=
  (valH3_keep V0 main_arg0 (by decide)).trans (valH2_main_arg0 V0)
theorem valH3_main_arg1 (V0 : Valuation τ sig (Elt F)) :
    valH3 V0 (no_index (Proc.devRef .tc main_arg1)) = (V0 (Proc.devRef .tc main_arg1)) :=
  (valH3_keep V0 main_arg1 (by decide)).trans (valH2_main_arg1 V0)
theorem valH3_main_arg2 (V0 : Valuation τ sig (Elt F)) :
    valH3 V0 (no_index (Proc.devRef .tc main_arg2)) = (V0 (Proc.devRef .tc main_arg2)) :=
  (valH3_keep V0 main_arg2 (by decide)).trans (valH2_main_arg2 V0)
theorem valH3_main_arg3 (V0 : Valuation τ sig (Elt F)) :
    valH3 V0 (no_index (Proc.devRef .tc main_arg3)) = (V0 (Proc.devRef .tc main_arg3)) :=
  (valH3_keep V0 main_arg3 (by decide)).trans (valH2_main_arg3 V0)
theorem valH3_main_v23 (V0 : Valuation τ sig (Elt F)) :
    valH3 V0 (no_index (Proc.devRef .tc main_v23)) = Flow.srcV (V0 (Proc.devRef .tc main_arg1)) :=
  (valH3_keep V0 main_v23 (by decide)).trans (valH2_main_v23 V0)
theorem valH3_main_v24 (V0 : Valuation τ sig (Elt F)) :
    valH3 V0 (no_index (Proc.devRef .tc main_v24)) = Flow.dstV (V0 (Proc.devRef .tc main_arg1)) :=
  (valH3_keep V0 main_v24 (by decide)).trans (valH2_main_v24 V0)
theorem valH3_main_v28 (V0 : Valuation τ sig (Elt F)) :
    valH3 V0 (no_index (Proc.devRef .tc main_v28)) = Flow.validV (V0 (Proc.devRef .tc main_arg1)) :=
  (valH3_keep V0 main_v28 (by decide)).trans (valH2_main_v28 V0)
theorem valH3_main_v29 (V0 : Valuation τ sig (Elt F)) :
    valH3 V0 (no_index (Proc.devRef .tc main_v29)) = Flow.hV (V0 (Proc.devRef .tc main_arg0)) (V0 (Proc.devRef .tc main_arg2)) :=
  (valH3_keep V0 main_v29 (by decide)).trans (valH2_main_v29 V0)
theorem valH3_main_v36 (V0 : Valuation τ sig (Elt F)) :
    valH3 V0 (no_index (Proc.devRef .tc main_v36)) = Flow.takeRows (Flow.hV (V0 (Proc.devRef .tc main_arg0)) (V0 (Proc.devRef .tc main_arg2))) (Flow.srcV (V0 (Proc.devRef .tc main_arg1))) :=
  (valH3_keep V0 main_v36 (by decide)).trans (valH2_main_v36 V0)
set_option maxRecDepth 8192 in
theorem valH3_main_v42 (V0 : Valuation τ sig (Elt F)) :
    valH3 V0 (no_index (Proc.devRef .tc main_v42)) = Flow.asColumn (Flow.wrapNeg 1024#32 (Flow.dstV (V0 (Proc.devRef .tc main_arg1)))) :=
  (rawH3_main_v42 (valH2 V0)).trans (by simp only [valH2_main_v24] <;> rfl)

set_option maxRecDepth 8192 in
theorem rawI1_main_v43 (P : Valuation τ sig (Elt F)) :
    after opsI1 P (no_index (Proc.devRef .tc main_v43)) = Host.gather gather_S1024x128_S1048576x1_S1048576x128_1_0_n_n_0_1_1128 (P (Proc.devRef .tc main_v29)) (P (Proc.devRef .tc main_v42)) := by
  simp only [opsI1]
  after_results_simp
  all_goals rfl
/-- The buffers' contents after the stretch `opsI1` (and all before it). -/
def valI1 (V0 : Valuation τ sig (Elt F)) : Valuation τ sig (Elt F) := after opsI1 (valH3 V0)
/-- The buffers the stretch writes. -/
abbrev opsI1_W : List (Ref sig .tc) := [main_v43]
set_option maxRecDepth 8192 in
theorem opsI1_writes : (opsI1 : List (HloOp τ sig (Elt F))).Forall fun op => op.writes ⊆ (opsI1_W.map (Proc.devRef (τ := τ) .tc)).toFinset := by
  simp only [List.Forall]
  exact (by simp only [nullary_writes, unary_writes, binary_writes, ternary_writes, quaternary_writes, reshape_writes, Finset.singleton_subset_iff, List.mem_toFinset]; exact List.mem_map_of_mem (by decide))
/-- A buffer the stretch does not write keeps its contents through it. -/
theorem valI1_keep (V0 : Valuation τ sig (Elt F)) (r : Ref sig .tc) (h : r ∉ opsI1_W) :
    valI1 V0 (Proc.devRef .tc r) = valH3 V0 (Proc.devRef .tc r) :=
  after_of_writes_sub opsI1 _ opsI1_writes h
theorem valI1_main_arg0 (V0 : Valuation τ sig (Elt F)) :
    valI1 V0 (no_index (Proc.devRef .tc main_arg0)) = (V0 (Proc.devRef .tc main_arg0)) :=
  (valI1_keep V0 main_arg0 (by decide)).trans (valH3_main_arg0 V0)
theorem valI1_main_arg1 (V0 : Valuation τ sig (Elt F)) :
    valI1 V0 (no_index (Proc.devRef .tc main_arg1)) = (V0 (Proc.devRef .tc main_arg1)) :=
  (valI1_keep V0 main_arg1 (by decide)).trans (valH3_main_arg1 V0)
theorem valI1_main_arg2 (V0 : Valuation τ sig (Elt F)) :
    valI1 V0 (no_index (Proc.devRef .tc main_arg2)) = (V0 (Proc.devRef .tc main_arg2)) :=
  (valI1_keep V0 main_arg2 (by decide)).trans (valH3_main_arg2 V0)
theorem valI1_main_arg3 (V0 : Valuation τ sig (Elt F)) :
    valI1 V0 (no_index (Proc.devRef .tc main_arg3)) = (V0 (Proc.devRef .tc main_arg3)) :=
  (valI1_keep V0 main_arg3 (by decide)).trans (valH3_main_arg3 V0)
theorem valI1_main_v23 (V0 : Valuation τ sig (Elt F)) :
    valI1 V0 (no_index (Proc.devRef .tc main_v23)) = Flow.srcV (V0 (Proc.devRef .tc main_arg1)) :=
  (valI1_keep V0 main_v23 (by decide)).trans (valH3_main_v23 V0)
theorem valI1_main_v24 (V0 : Valuation τ sig (Elt F)) :
    valI1 V0 (no_index (Proc.devRef .tc main_v24)) = Flow.dstV (V0 (Proc.devRef .tc main_arg1)) :=
  (valI1_keep V0 main_v24 (by decide)).trans (valH3_main_v24 V0)
theorem valI1_main_v28 (V0 : Valuation τ sig (Elt F)) :
    valI1 V0 (no_index (Proc.devRef .tc main_v28)) = Flow.validV (V0 (Proc.devRef .tc main_arg1)) :=
  (valI1_keep V0 main_v28 (by decide)).trans (valH3_main_v28 V0)
theorem valI1_main_v29 (V0 : Valuation τ sig (Elt F)) :
    valI1 V0 (no_index (Proc.devRef .tc main_v29)) = Flow.hV (V0 (Proc.devRef .tc main_arg0)) (V0 (Proc.devRef .tc main_arg2)) :=
  (valI1_keep V0 main_v29 (by decide)).trans (valH3_main_v29 V0)
theorem valI1_main_v36 (V0 : Valuation τ sig (Elt F)) :
    valI1 V0 (no_index (Proc.devRef .tc main_v36)) = Flow.takeRows (Flow.hV (V0 (Proc.devRef .tc main_arg0)) (V0 (Proc.devRef .tc main_arg2))) (Flow.srcV (V0 (Proc.devRef .tc main_arg1))) :=
  (valI1_keep V0 main_v36 (by decide)).trans (valH3_main_v36 V0)
set_option maxRecDepth 8192 in
theorem valI1_main_v43 (V0 : Valuation τ sig (Elt F)) :
    valI1 V0 (no_index (Proc.devRef .tc main_v43)) = Flow.takeRows (Flow.hV (V0 (Proc.devRef .tc main_arg0)) (V0 (Proc.devRef .tc main_arg2))) (Flow.dstV (V0 (Proc.devRef .tc main_arg1))) :=
  (rawI1_main_v43 (valH3 V0)).trans (by simp only [valH3_main_v29, valH3_main_v42] <;> rfl)

set_option maxRecDepth 8192 in
theorem rawI2_main_v47 (P : Valuation τ sig (Elt F)) :
    after opsI2 P (no_index (Proc.devRef .tc main_v47)) = shapeCast S1048576 (Host.dotGeneral dot_S1x256_S256x1048576_S1x1048576_1_0_0_1_n_n none (P (Proc.devRef .tc main_arg3)) (transpose S256x1048576 [1, 0] (concatenate S1048576x256 1 [⟨S1048576x128, (P (Proc.devRef .tc main_v36))⟩, ⟨S1048576x128, (P (Proc.devRef .tc main_v43))⟩] concatenates_S1048576x128_S1048576x128_S1048576x256_d1) transposes_S1048576x256_S256x1048576_1_0)) shapeCasts_S1x1048576_S1048576 := by
  simp only [opsI2]
  after_results
  all_goals rfl
/-- The buffers' contents after the stretch `opsI2` (and all before it). -/
def valI2 (V0 : Valuation τ sig (Elt F)) : Valuation τ sig (Elt F) := after opsI2 (valI1 V0)
/-- The buffers the stretch writes. -/
abbrev opsI2_W : List (Ref sig .tc) := [main_v44, main_v45, main_v46, main_v47]
set_option maxRecDepth 8192 in
theorem opsI2_writes : (opsI2 : List (HloOp τ sig (Elt F))).Forall fun op => op.writes ⊆ (opsI2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valI2_keep (V0 : Valuation τ sig (Elt F)) (r : Ref sig .tc) (h : r ∉ opsI2_W) :
    valI2 V0 (Proc.devRef .tc r) = valI1 V0 (Proc.devRef .tc r) :=
  after_of_writes_sub opsI2 _ opsI2_writes h
theorem valI2_main_arg0 (V0 : Valuation τ sig (Elt F)) :
    valI2 V0 (no_index (Proc.devRef .tc main_arg0)) = (V0 (Proc.devRef .tc main_arg0)) :=
  (valI2_keep V0 main_arg0 (by decide)).trans (valI1_main_arg0 V0)
theorem valI2_main_arg1 (V0 : Valuation τ sig (Elt F)) :
    valI2 V0 (no_index (Proc.devRef .tc main_arg1)) = (V0 (Proc.devRef .tc main_arg1)) :=
  (valI2_keep V0 main_arg1 (by decide)).trans (valI1_main_arg1 V0)
theorem valI2_main_arg2 (V0 : Valuation τ sig (Elt F)) :
    valI2 V0 (no_index (Proc.devRef .tc main_arg2)) = (V0 (Proc.devRef .tc main_arg2)) :=
  (valI2_keep V0 main_arg2 (by decide)).trans (valI1_main_arg2 V0)
theorem valI2_main_arg3 (V0 : Valuation τ sig (Elt F)) :
    valI2 V0 (no_index (Proc.devRef .tc main_arg3)) = (V0 (Proc.devRef .tc main_arg3)) :=
  (valI2_keep V0 main_arg3 (by decide)).trans (valI1_main_arg3 V0)
theorem valI2_main_v23 (V0 : Valuation τ sig (Elt F)) :
    valI2 V0 (no_index (Proc.devRef .tc main_v23)) = Flow.srcV (V0 (Proc.devRef .tc main_arg1)) :=
  (valI2_keep V0 main_v23 (by decide)).trans (valI1_main_v23 V0)
theorem valI2_main_v24 (V0 : Valuation τ sig (Elt F)) :
    valI2 V0 (no_index (Proc.devRef .tc main_v24)) = Flow.dstV (V0 (Proc.devRef .tc main_arg1)) :=
  (valI2_keep V0 main_v24 (by decide)).trans (valI1_main_v24 V0)
theorem valI2_main_v28 (V0 : Valuation τ sig (Elt F)) :
    valI2 V0 (no_index (Proc.devRef .tc main_v28)) = Flow.validV (V0 (Proc.devRef .tc main_arg1)) :=
  (valI2_keep V0 main_v28 (by decide)).trans (valI1_main_v28 V0)
theorem valI2_main_v29 (V0 : Valuation τ sig (Elt F)) :
    valI2 V0 (no_index (Proc.devRef .tc main_v29)) = Flow.hV (V0 (Proc.devRef .tc main_arg0)) (V0 (Proc.devRef .tc main_arg2)) :=
  (valI2_keep V0 main_v29 (by decide)).trans (valI1_main_v29 V0)
set_option maxRecDepth 8192 in
theorem valI2_main_v47 (V0 : Valuation τ sig (Elt F)) :
    valI2 V0 (no_index (Proc.devRef .tc main_v47)) = Flow.scoreV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1))) :=
  (rawI2_main_v47 (valI1 V0)).trans (by rw [valI1_main_arg3, valI1_main_v36, valI1_main_v43] <;> rfl)

set_option maxRecDepth 8192 in
theorem rawJ1_main_v48 (P : Valuation τ sig (Elt F)) :
    after opsJ1 P (no_index (Proc.devRef .tc main_v48)) = Flow.leaky (P (Proc.devRef .tc main_v47)) (constant S_ .f32 0x3C23D70A#32) := by
  simp only [opsJ1]
  after_results_simp
  all_goals rfl
/-- The buffers' contents after the stretch `opsJ1` (and all before it). -/
def valJ1 (V0 : Valuation τ sig (Elt F)) : Valuation τ sig (Elt F) := after opsJ1 (valI2 V0)
/-- The buffers the stretch writes. -/
abbrev opsJ1_W : List (Ref sig .tc) := [main_cst, main_call10_cst, main_call10_v0, main_call10_v1, main_call10_v2, main_call10_v3, main_call10_v4, main_v48]
set_option maxRecDepth 8192 in
theorem opsJ1_writes : (opsJ1 : List (HloOp τ sig (Elt F))).Forall fun op => op.writes ⊆ (opsJ1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valJ1_keep (V0 : Valuation τ sig (Elt F)) (r : Ref sig .tc) (h : r ∉ opsJ1_W) :
    valJ1 V0 (Proc.devRef .tc r) = valI2 V0 (Proc.devRef .tc r) :=
  after_of_writes_sub opsJ1 _ opsJ1_writes h
theorem valJ1_main_arg0 (V0 : Valuation τ sig (Elt F)) :
    valJ1 V0 (no_index (Proc.devRef .tc main_arg0)) = (V0 (Proc.devRef .tc main_arg0)) :=
  (valJ1_keep V0 main_arg0 (by decide)).trans (valI2_main_arg0 V0)
theorem valJ1_main_arg1 (V0 : Valuation τ sig (Elt F)) :
    valJ1 V0 (no_index (Proc.devRef .tc main_arg1)) = (V0 (Proc.devRef .tc main_arg1)) :=
  (valJ1_keep V0 main_arg1 (by decide)).trans (valI2_main_arg1 V0)
theorem valJ1_main_arg2 (V0 : Valuation τ sig (Elt F)) :
    valJ1 V0 (no_index (Proc.devRef .tc main_arg2)) = (V0 (Proc.devRef .tc main_arg2)) :=
  (valJ1_keep V0 main_arg2 (by decide)).trans (valI2_main_arg2 V0)
theorem valJ1_main_arg3 (V0 : Valuation τ sig (Elt F)) :
    valJ1 V0 (no_index (Proc.devRef .tc main_arg3)) = (V0 (Proc.devRef .tc main_arg3)) :=
  (valJ1_keep V0 main_arg3 (by decide)).trans (valI2_main_arg3 V0)
theorem valJ1_main_v23 (V0 : Valuation τ sig (Elt F)) :
    valJ1 V0 (no_index (Proc.devRef .tc main_v23)) = Flow.srcV (V0 (Proc.devRef .tc main_arg1)) :=
  (valJ1_keep V0 main_v23 (by decide)).trans (valI2_main_v23 V0)
theorem valJ1_main_v24 (V0 : Valuation τ sig (Elt F)) :
    valJ1 V0 (no_index (Proc.devRef .tc main_v24)) = Flow.dstV (V0 (Proc.devRef .tc main_arg1)) :=
  (valJ1_keep V0 main_v24 (by decide)).trans (valI2_main_v24 V0)
theorem valJ1_main_v28 (V0 : Valuation τ sig (Elt F)) :
    valJ1 V0 (no_index (Proc.devRef .tc main_v28)) = Flow.validV (V0 (Proc.devRef .tc main_arg1)) :=
  (valJ1_keep V0 main_v28 (by decide)).trans (valI2_main_v28 V0)
theorem valJ1_main_v29 (V0 : Valuation τ sig (Elt F)) :
    valJ1 V0 (no_index (Proc.devRef .tc main_v29)) = Flow.hV (V0 (Proc.devRef .tc main_arg0)) (V0 (Proc.devRef .tc main_arg2)) :=
  (valJ1_keep V0 main_v29 (by decide)).trans (valI2_main_v29 V0)
set_option maxRecDepth 8192 in
theorem valJ1_main_v48 (V0 : Valuation τ sig (Elt F)) :
    valJ1 V0 (no_index (Proc.devRef .tc main_v48)) = Flow.leaky (Flow.scoreV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1)))) (constant S_ .f32 0x3C23D70A#32) :=
  (rawJ1_main_v48 (valI2 V0)).trans (by simp only [valI2_main_v47] <;> rfl)

set_option maxRecDepth 8192 in
theorem rawJ2_main_v51 (P : Valuation τ sig (Elt F)) :
    after opsJ2 P (no_index (Proc.devRef .tc main_v51)) = select (P (Proc.devRef .tc main_v28)) (Host.exp (Host.negf (P (Proc.devRef .tc main_v48)))) (broadcastInDim S1048576 ![] bcast_S_S1048576 (constant S_ .f32 0x00000000#32)) := by
  simp only [opsJ2]
  after_results_simp
  all_goals rfl
/-- The buffers' contents after the stretch `opsJ2` (and all before it). -/
def valJ2 (V0 : Valuation τ sig (Elt F)) : Valuation τ sig (Elt F) := after opsJ2 (valJ1 V0)
/-- The buffers the stretch writes. -/
abbrev opsJ2_W : List (Ref sig .tc) := [main_v49, main_v50, main_cst_16, main_call11_v0, main_call11_v1, main_v51]
set_option maxRecDepth 8192 in
theorem opsJ2_writes : (opsJ2 : List (HloOp τ sig (Elt F))).Forall fun op => op.writes ⊆ (opsJ2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valJ2_keep (V0 : Valuation τ sig (Elt F)) (r : Ref sig .tc) (h : r ∉ opsJ2_W) :
    valJ2 V0 (Proc.devRef .tc r) = valJ1 V0 (Proc.devRef .tc r) :=
  after_of_writes_sub opsJ2 _ opsJ2_writes h
theorem valJ2_main_arg0 (V0 : Valuation τ sig (Elt F)) :
    valJ2 V0 (no_index (Proc.devRef .tc main_arg0)) = (V0 (Proc.devRef .tc main_arg0)) :=
  (valJ2_keep V0 main_arg0 (by decide)).trans (valJ1_main_arg0 V0)
theorem valJ2_main_arg1 (V0 : Valuation τ sig (Elt F)) :
    valJ2 V0 (no_index (Proc.devRef .tc main_arg1)) = (V0 (Proc.devRef .tc main_arg1)) :=
  (valJ2_keep V0 main_arg1 (by decide)).trans (valJ1_main_arg1 V0)
theorem valJ2_main_arg2 (V0 : Valuation τ sig (Elt F)) :
    valJ2 V0 (no_index (Proc.devRef .tc main_arg2)) = (V0 (Proc.devRef .tc main_arg2)) :=
  (valJ2_keep V0 main_arg2 (by decide)).trans (valJ1_main_arg2 V0)
theorem valJ2_main_arg3 (V0 : Valuation τ sig (Elt F)) :
    valJ2 V0 (no_index (Proc.devRef .tc main_arg3)) = (V0 (Proc.devRef .tc main_arg3)) :=
  (valJ2_keep V0 main_arg3 (by decide)).trans (valJ1_main_arg3 V0)
theorem valJ2_main_v23 (V0 : Valuation τ sig (Elt F)) :
    valJ2 V0 (no_index (Proc.devRef .tc main_v23)) = Flow.srcV (V0 (Proc.devRef .tc main_arg1)) :=
  (valJ2_keep V0 main_v23 (by decide)).trans (valJ1_main_v23 V0)
theorem valJ2_main_v24 (V0 : Valuation τ sig (Elt F)) :
    valJ2 V0 (no_index (Proc.devRef .tc main_v24)) = Flow.dstV (V0 (Proc.devRef .tc main_arg1)) :=
  (valJ2_keep V0 main_v24 (by decide)).trans (valJ1_main_v24 V0)
theorem valJ2_main_v29 (V0 : Valuation τ sig (Elt F)) :
    valJ2 V0 (no_index (Proc.devRef .tc main_v29)) = Flow.hV (V0 (Proc.devRef .tc main_arg0)) (V0 (Proc.devRef .tc main_arg2)) :=
  (valJ2_keep V0 main_v29 (by decide)).trans (valJ1_main_v29 V0)
set_option maxRecDepth 8192 in
theorem valJ2_main_v51 (V0 : Valuation τ sig (Elt F)) :
    valJ2 V0 (no_index (Proc.devRef .tc main_v51)) = Flow.weightV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1))) (Flow.validV (V0 (Proc.devRef .tc main_arg1))) :=
  (rawJ2_main_v51 (valJ1 V0)).trans (by simp only [valJ1_main_v28, valJ1_main_v48] <;> rfl)

set_option maxRecDepth 8192 in
theorem rawK1_main_v55 (P : Valuation τ sig (Elt F)) :
    after opsK1 P (no_index (Proc.devRef .tc main_v55)) = broadcastInDim S1024x1 ![0] bcast_S1024_S1024x1_0 (Host.scatterAdd scatter_S1024_S1048576x1_S1048576_n_0_0_1 (broadcastInDim S1024 ![] bcast_S_S1024 (constant S_ .f32 0x00000000#32)) (Flow.asColumn (P (Proc.devRef .tc main_v23))) (P (Proc.devRef .tc main_v51))) := by
  simp only [opsK1]
  after_results_simp
  all_goals rfl
/-- The buffers' contents after the stretch `opsK1` (and all before it). -/
def valK1 (V0 : Valuation τ sig (Elt F)) : Valuation τ sig (Elt F) := after opsK1 (valJ2 V0)
/-- The buffers the stretch writes. -/
abbrev opsK1_W : List (Ref sig .tc) := [main_cst_17, main_v52, main_v53, main_v54, main_v55]
set_option maxRecDepth 8192 in
theorem opsK1_writes : (opsK1 : List (HloOp τ sig (Elt F))).Forall fun op => op.writes ⊆ (opsK1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valK1_keep (V0 : Valuation τ sig (Elt F)) (r : Ref sig .tc) (h : r ∉ opsK1_W) :
    valK1 V0 (Proc.devRef .tc r) = valJ2 V0 (Proc.devRef .tc r) :=
  after_of_writes_sub opsK1 _ opsK1_writes h
theorem valK1_main_arg0 (V0 : Valuation τ sig (Elt F)) :
    valK1 V0 (no_index (Proc.devRef .tc main_arg0)) = (V0 (Proc.devRef .tc main_arg0)) :=
  (valK1_keep V0 main_arg0 (by decide)).trans (valJ2_main_arg0 V0)
theorem valK1_main_arg1 (V0 : Valuation τ sig (Elt F)) :
    valK1 V0 (no_index (Proc.devRef .tc main_arg1)) = (V0 (Proc.devRef .tc main_arg1)) :=
  (valK1_keep V0 main_arg1 (by decide)).trans (valJ2_main_arg1 V0)
theorem valK1_main_arg2 (V0 : Valuation τ sig (Elt F)) :
    valK1 V0 (no_index (Proc.devRef .tc main_arg2)) = (V0 (Proc.devRef .tc main_arg2)) :=
  (valK1_keep V0 main_arg2 (by decide)).trans (valJ2_main_arg2 V0)
theorem valK1_main_arg3 (V0 : Valuation τ sig (Elt F)) :
    valK1 V0 (no_index (Proc.devRef .tc main_arg3)) = (V0 (Proc.devRef .tc main_arg3)) :=
  (valK1_keep V0 main_arg3 (by decide)).trans (valJ2_main_arg3 V0)
theorem valK1_main_v23 (V0 : Valuation τ sig (Elt F)) :
    valK1 V0 (no_index (Proc.devRef .tc main_v23)) = Flow.srcV (V0 (Proc.devRef .tc main_arg1)) :=
  (valK1_keep V0 main_v23 (by decide)).trans (valJ2_main_v23 V0)
theorem valK1_main_v24 (V0 : Valuation τ sig (Elt F)) :
    valK1 V0 (no_index (Proc.devRef .tc main_v24)) = Flow.dstV (V0 (Proc.devRef .tc main_arg1)) :=
  (valK1_keep V0 main_v24 (by decide)).trans (valJ2_main_v24 V0)
theorem valK1_main_v29 (V0 : Valuation τ sig (Elt F)) :
    valK1 V0 (no_index (Proc.devRef .tc main_v29)) = Flow.hV (V0 (Proc.devRef .tc main_arg0)) (V0 (Proc.devRef .tc main_arg2)) :=
  (valK1_keep V0 main_v29 (by decide)).trans (valJ2_main_v29 V0)
theorem valK1_main_v51 (V0 : Valuation τ sig (Elt F)) :
    valK1 V0 (no_index (Proc.devRef .tc main_v51)) = Flow.weightV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1))) (Flow.validV (V0 (Proc.devRef .tc main_arg1))) :=
  (valK1_keep V0 main_v51 (by decide)).trans (valJ2_main_v51 V0)
set_option maxRecDepth 8192 in
theorem valK1_main_v55 (V0 : Valuation τ sig (Elt F)) :
    valK1 V0 (no_index (Proc.devRef .tc main_v55)) = Flow.rowSumV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1))) (Flow.validV (V0 (Proc.devRef .tc main_arg1))) :=
  (rawK1_main_v55 (valJ2 V0)).trans (by simp only [valJ2_main_v23, valJ2_main_v51] <;> rfl)

set_option maxRecDepth 8192 in
theorem rawK2_main_v65 (P : Valuation τ sig (Elt F)) :
    after opsK2 P (no_index (Proc.devRef .tc main_v65)) = mulf (broadcastInDim S1048576x128 ![0, 1] bcast_S1048576x1_S1048576x128_0_1 (broadcastInDim S1048576x1 ![0] bcast_S1048576_S1048576x1_0 (P (Proc.devRef .tc main_v51)))) (Flow.takeRows (P (Proc.devRef .tc main_v29)) (P (Proc.devRef .tc main_v24))) := by
  simp only [opsK2]
  after_results_simp
  all_goals rfl
/-- The buffers' contents after the stretch `opsK2` (and all before it). -/
def valK2 (V0 : Valuation τ sig (Elt F)) : Valuation τ sig (Elt F) := after opsK2 (valK1 V0)
/-- The buffers the stretch writes. -/
abbrev opsK2_W : List (Ref sig .tc) := [main_v56, main_c_18, main_v57, main_v58, main_c_19, main_v59, main_v60, main_v61, main_v62, main_v63, main_v64, main_v65]
set_option maxRecDepth 8192 in
theorem opsK2_writes : (opsK2 : List (HloOp τ sig (Elt F))).Forall fun op => op.writes ⊆ (opsK2_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valK2_keep (V0 : Valuation τ sig (Elt F)) (r : Ref sig .tc) (h : r ∉ opsK2_W) :
    valK2 V0 (Proc.devRef .tc r) = valK1 V0 (Proc.devRef .tc r) :=
  after_of_writes_sub opsK2 _ opsK2_writes h
theorem valK2_main_arg0 (V0 : Valuation τ sig (Elt F)) :
    valK2 V0 (no_index (Proc.devRef .tc main_arg0)) = (V0 (Proc.devRef .tc main_arg0)) :=
  (valK2_keep V0 main_arg0 (by decide)).trans (valK1_main_arg0 V0)
theorem valK2_main_arg1 (V0 : Valuation τ sig (Elt F)) :
    valK2 V0 (no_index (Proc.devRef .tc main_arg1)) = (V0 (Proc.devRef .tc main_arg1)) :=
  (valK2_keep V0 main_arg1 (by decide)).trans (valK1_main_arg1 V0)
theorem valK2_main_arg2 (V0 : Valuation τ sig (Elt F)) :
    valK2 V0 (no_index (Proc.devRef .tc main_arg2)) = (V0 (Proc.devRef .tc main_arg2)) :=
  (valK2_keep V0 main_arg2 (by decide)).trans (valK1_main_arg2 V0)
theorem valK2_main_arg3 (V0 : Valuation τ sig (Elt F)) :
    valK2 V0 (no_index (Proc.devRef .tc main_arg3)) = (V0 (Proc.devRef .tc main_arg3)) :=
  (valK2_keep V0 main_arg3 (by decide)).trans (valK1_main_arg3 V0)
theorem valK2_main_v23 (V0 : Valuation τ sig (Elt F)) :
    valK2 V0 (no_index (Proc.devRef .tc main_v23)) = Flow.srcV (V0 (Proc.devRef .tc main_arg1)) :=
  (valK2_keep V0 main_v23 (by decide)).trans (valK1_main_v23 V0)
theorem valK2_main_v55 (V0 : Valuation τ sig (Elt F)) :
    valK2 V0 (no_index (Proc.devRef .tc main_v55)) = Flow.rowSumV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1))) (Flow.validV (V0 (Proc.devRef .tc main_arg1))) :=
  (valK2_keep V0 main_v55 (by decide)).trans (valK1_main_v55 V0)
set_option maxRecDepth 8192 in
theorem valK2_main_v65 (V0 : Valuation τ sig (Elt F)) :
    valK2 V0 (no_index (Proc.devRef .tc main_v65)) = mulf (broadcastInDim S1048576x128 ![0, 1] bcast_S1048576x1_S1048576x128_0_1 (broadcastInDim S1048576x1 ![0] bcast_S1048576_S1048576x1_0 (Flow.weightV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1))) (Flow.validV (V0 (Proc.devRef .tc main_arg1)))))) (Flow.takeRows (Flow.hV (V0 (Proc.devRef .tc main_arg0)) (V0 (Proc.devRef .tc main_arg2))) (Flow.dstV (V0 (Proc.devRef .tc main_arg1)))) :=
  (rawK2_main_v65 (valK1 V0)).trans (by simp only [valK1_main_v51, valK1_main_v29, valK1_main_v24] <;> rfl)

set_option maxRecDepth 8192 in
theorem rawK3_main_v70 (P : Valuation τ sig (Elt F)) :
    after opsK3 P (no_index (Proc.devRef .tc main_v70)) = Host.divf (Host.scatterAdd scatter_S1024x128_S1048576x1_S1048576x128_1_0_0_1 (broadcastInDim S1024x128 ![] bcast_S_S1024x128 (constant S_ .f32 0x00000000#32)) (Flow.asColumn (P (Proc.devRef .tc main_v23))) (P (Proc.devRef .tc main_v65))) (broadcastInDim S1024x128 ![0, 1] bcast_S1024x1_S1024x128_0_1 (P (Proc.devRef .tc main_v55))) := by
  simp only [opsK3]
  after_results_simp
  all_goals rfl
/-- The buffers' contents after the stretch `opsK3` (and all before it). -/
def valK3 (V0 : Valuation τ sig (Elt F)) : Valuation τ sig (Elt F) := after opsK3 (valK2 V0)
/-- The buffers the stretch writes. -/
abbrev opsK3_W : List (Ref sig .tc) := [main_cst_20, main_v66, main_v67, main_v68, main_v69, main_v70]
set_option maxRecDepth 8192 in
theorem opsK3_writes : (opsK3 : List (HloOp τ sig (Elt F))).Forall fun op => op.writes ⊆ (opsK3_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valK3_keep (V0 : Valuation τ sig (Elt F)) (r : Ref sig .tc) (h : r ∉ opsK3_W) :
    valK3 V0 (Proc.devRef .tc r) = valK2 V0 (Proc.devRef .tc r) :=
  after_of_writes_sub opsK3 _ opsK3_writes h
theorem valK3_main_arg0 (V0 : Valuation τ sig (Elt F)) :
    valK3 V0 (no_index (Proc.devRef .tc main_arg0)) = (V0 (Proc.devRef .tc main_arg0)) :=
  (valK3_keep V0 main_arg0 (by decide)).trans (valK2_main_arg0 V0)
theorem valK3_main_arg1 (V0 : Valuation τ sig (Elt F)) :
    valK3 V0 (no_index (Proc.devRef .tc main_arg1)) = (V0 (Proc.devRef .tc main_arg1)) :=
  (valK3_keep V0 main_arg1 (by decide)).trans (valK2_main_arg1 V0)
theorem valK3_main_arg2 (V0 : Valuation τ sig (Elt F)) :
    valK3 V0 (no_index (Proc.devRef .tc main_arg2)) = (V0 (Proc.devRef .tc main_arg2)) :=
  (valK3_keep V0 main_arg2 (by decide)).trans (valK2_main_arg2 V0)
theorem valK3_main_arg3 (V0 : Valuation τ sig (Elt F)) :
    valK3 V0 (no_index (Proc.devRef .tc main_arg3)) = (V0 (Proc.devRef .tc main_arg3)) :=
  (valK3_keep V0 main_arg3 (by decide)).trans (valK2_main_arg3 V0)
set_option maxRecDepth 8192 in
theorem valK3_main_v70 (V0 : Valuation τ sig (Elt F)) :
    valK3 V0 (no_index (Proc.devRef .tc main_v70)) = Host.divf (Flow.aggV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1))) (Flow.validV (V0 (Proc.devRef .tc main_arg1)))) (broadcastInDim S1024x128 ![0, 1] bcast_S1024x1_S1024x128_0_1 (Flow.rowSumV (V0 (Proc.devRef .tc main_arg0)) (V0 (Proc.devRef .tc main_arg2)) (V0 (Proc.devRef .tc main_arg3)) (Flow.srcV (V0 (Proc.devRef .tc main_arg1))) (Flow.dstV (V0 (Proc.devRef .tc main_arg1))) (Flow.validV (V0 (Proc.devRef .tc main_arg1))))) :=
  (rawK3_main_v70 (valK2 V0)).trans (by simp only [valK2_main_v23, valK2_main_v65, valK2_main_v55] <;> rfl)

set_option maxRecDepth 8192 in
theorem rawL_main_v71 (P : Valuation τ sig (Elt F)) :
    after opsL P (no_index (Proc.devRef .tc main_v71)) = Flow.eluV (P (Proc.devRef .tc main_v70)) := by
  simp only [opsL]
  after_results_simp
  all_goals rfl
/-- The buffers' contents after the stretch `opsL` (and all before it). -/
def valL (V0 : Valuation τ sig (Elt F)) : Valuation τ sig (Elt F) := after opsL (valK3 V0)
/-- The buffers the stretch writes. -/
abbrev opsL_W : List (Ref sig .tc) := [main_call12_cst, main_call12_v0, main_call12_v1, main_call12_cst_0, main_call12_v2, main_call12_v3, main_call12_cst_1, main_call12_call0_v0, main_call12_call0_v1, main_call12_v4, main_call12_v5, main_call12_cst_2, main_call12_v6, main_call12_v7, main_v71]
set_option maxRecDepth 8192 in
theorem opsL_writes : (opsL : List (HloOp τ sig (Elt F))).Forall fun op => op.writes ⊆ (opsL_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer the stretch does not write keeps its contents through it. -/
theorem valL_keep (V0 : Valuation τ sig (Elt F)) (r : Ref sig .tc) (h : r ∉ opsL_W) :
    valL V0 (Proc.devRef .tc r) = valK3 V0 (Proc.devRef .tc r) :=
  after_of_writes_sub opsL _ opsL_writes h
theorem valL_main_arg0 (V0 : Valuation τ sig (Elt F)) :
    valL V0 (no_index (Proc.devRef .tc main_arg0)) = (V0 (Proc.devRef .tc main_arg0)) :=
  (valL_keep V0 main_arg0 (by decide)).trans (valK3_main_arg0 V0)
theorem valL_main_arg1 (V0 : Valuation τ sig (Elt F)) :
    valL V0 (no_index (Proc.devRef .tc main_arg1)) = (V0 (Proc.devRef .tc main_arg1)) :=
  (valL_keep V0 main_arg1 (by decide)).trans (valK3_main_arg1 V0)
theorem valL_main_arg2 (V0 : Valuation τ sig (Elt F)) :
    valL V0 (no_index (Proc.devRef .tc main_arg2)) = (V0 (Proc.devRef .tc main_arg2)) :=
  (valL_keep V0 main_arg2 (by decide)).trans (valK3_main_arg2 V0)
theorem valL_main_arg3 (V0 : Valuation τ sig (Elt F)) :
    valL V0 (no_index (Proc.devRef .tc main_arg3)) = (V0 (Proc.devRef .tc main_arg3)) :=
  (valL_keep V0 main_arg3 (by decide)).trans (valK3_main_arg3 V0)
set_option maxRecDepth 8192 in
theorem valL_main_v71 (V0 : Valuation τ sig (Elt F)) :
    valL V0 (no_index (Proc.devRef .tc main_v71)) = Flow.refOut (V0 (Proc.devRef .tc main_arg0)) (V0 (Proc.devRef .tc main_arg2)) (V0 (Proc.devRef .tc main_arg3)) (V0 (Proc.devRef .tc main_arg1)) :=
  (rawL_main_v71 (valK3 V0)).trans (by simp only [valK3_main_v70] <;> rfl)

/-- The contents after the whole line are the contents after its last stretch. -/
theorem after_ops (V0 : Valuation τ sig (Elt F)) : after ops V0 = valL V0 := by
  simp only [ops, ops0, ops1, after_app]
  rfl

end Lines

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v71)
          = Flow.refOut (F := Ideal) (m ((c.tc : Thread nD τ).loc main_arg0)) (m ((c.tc : Thread nD τ).loc main_arg2))
              (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v71).trans (by simp only [after_ops]; exact valL_main_v71 (launchContents m c)),
      (h c main_arg0).trans (by simp only [after_ops]; exact valL_main_arg0 (launchContents m c)),
      (h c main_arg1).trans (by simp only [after_ops]; exact valL_main_arg1 (launchContents m c)),
      (h c main_arg2).trans (by simp only [after_ops]; exact valL_main_arg2 (launchContents m c)),
      (h c main_arg3).trans (by simp only [after_ops]; exact valL_main_arg3 (launchContents m c))⟩)
    (run_seq scopedRefs_eq scopedSems_eq defs main (fun _ => ops) main_eq (fun _ => ops_sub) m ρ)

end Cert.ReferenceIdeal.RefRun

end
-- ==== Proof.Bridge.lean ====
/-
  The layer by edge list equals the dense layer, entry by entry, whenever the edge list enumerates the adjacency matrix:
  for every node `i`, summing a quantity of the target over the flagged edge slots leaving `i` is summing it over the `j`
  with `A i j ≠ 0`.

  * An edge leaving `i` scores `f i + g (target)`: the sum over the 256 entries of `a` splits into its two halves.
  * `−leaky_relu s = min (0 − s) (c' · s)` on every extended real `s`, with `0 < c < 1` the slope and `c' = −c`.
  * A flagged slot's weight times the target's row is the flagged product, so both of a node's sums are sums the edge
    list re-indexes.
  * The guarded `elu` is `elu`.
-/
import proofs.«104574_g83193516523656_cont_sun_m_929_5_alg».proof.Proof.Spec
import Mathlib.Algebra.BigOperators.Fin

noncomputable section

open scoped BigOperators

namespace Cert.Gat

open Idealize.ShloMosaic Idealize.ShloMosaic.ValueIdx

/-! ## The three float words -/

/-- The slope word denotes a real strictly between zero and one. -/
theorem slope_eq : slope = ((10737418 / 1073741824 : ℝ) : EReal) := by
  unfold slope
  simp [Ideal.ofBits, Ideal.ieee, -EReal.coe_mul]; norm_num

/-- The negated slope word denotes the negated real. -/
theorem nslope_eq : nslope = ((-(10737418 / 1073741824) : ℝ) : EReal) := by
  unfold nslope
  simp [Ideal.ofBits, Ideal.ieee, -EReal.coe_mul]; norm_num

/-- The word of `1.0` denotes one. -/
theorem ofBits_one : Ideal.ofBits .f32 0x3F800000#32 = 1 := by
  simp [Ideal.ofBits, Ideal.ieee, -EReal.coe_mul]; norm_num

/-! ## `−leaky_relu` as a minimum -/

theorem select_ofBool_true {α : Type} (x y : α) : Scalar.select (BitVec.ofBool true) x y = x := if_pos rfl
theorem select_ofBool_false {α : Type} (x y : α) : Scalar.select (BitVec.ofBool false) x y = y := if_neg (by decide)

/-- `−leaky_relu s = min (0 − s) (c' · s)` on every extended real: at a real `r ≥ 0` both are `−r` (as `c < 1`), at a
    real `r < 0` both are `−(c · r)`, at `⊤` both are `⊥` and at `⊥` both are `⊤` (as `c > 0`). -/
theorem neg_leaky (s : EReal) :
    -(Scalar.select (Ideal.cmp .oge s 0) s (slope * s)) = min (0 - s) (nslope * s) := by
  rw [slope_eq, nslope_eq]
  have hc : (0 : ℝ) < 10737418 / 1073741824 := by norm_num
  have hc1 : (10737418 / 1073741824 : ℝ) < 1 := by norm_num
  generalize (10737418 / 1073741824 : ℝ) = c at hc hc1
  induction s using EReal.rec with
  | bot =>
    have h0 : ¬ ((0 : EReal) ≤ ⊥) := by simp
    simp only [Ideal.cmp, decide_eq_false h0, select_ofBool_false]
    rw [EReal.coe_mul_bot_of_pos hc, EReal.neg_bot, EReal.coe_mul_bot_of_neg (by linarith : -c < 0)]
    simp
  | top =>
    have h0 : (0 : EReal) ≤ ⊤ := le_top
    simp only [Ideal.cmp, decide_eq_true h0, select_ofBool_true]
    rw [EReal.neg_top]
    simp
  | coe r =>
    have e1 : (0 : EReal) - (r : EReal) = ((-r : ℝ) : EReal) := by rw [zero_sub, EReal.coe_neg]
    have e2 : ((-c : ℝ) : EReal) * (r : EReal) = ((-c * r : ℝ) : EReal) := (EReal.coe_mul _ _).symm
    rw [e1, e2]
    by_cases hr : 0 ≤ r
    · have h0 : (0 : EReal) ≤ (r : EReal) := EReal.coe_nonneg.mpr hr
      simp only [Ideal.cmp, decide_eq_true h0, select_ofBool_true]
      rw [← EReal.coe_neg, min_eq_left (EReal.coe_le_coe_iff.mpr (by nlinarith))]
    · have h0 : ¬ ((0 : EReal) ≤ (r : EReal)) := fun h => hr (EReal.coe_nonneg.mp h)
      simp only [Ideal.cmp, decide_eq_false h0, select_ofBool_false]
      rw [← EReal.coe_mul, ← EReal.coe_neg, min_eq_right (EReal.coe_le_coe_iff.mpr (by nlinarith))]
      congr 1; ring

/-! ## The guarded `elu` -/

/-- The guard changes nothing: where `0 < x` both give `x`, elsewhere the guarded argument is `x` itself. -/
theorem eluR_eq (x : EReal) : eluR x = elu x := by
  unfold eluR elu
  rw [ofBits_one, one_mul]
  unfold Scalar.select
  by_cases h : Ideal.cmp .ogt x 0 = 1
  · rw [if_pos h, if_pos h]
  · rw [if_neg h, if_neg h, if_neg h]

/-! ## An edge's score -/

/-- A sum over 256 entries in two halves of 128. -/
theorem sum_two_halves {M : Type*} [AddCommMonoid M] (F : Fin 256 → M) :
    ∑ k : Fin 256, F k = ∑ k : Fin 128, F ⟨k.val, by omega⟩ + ∑ k : Fin 128, F ⟨128 + k.val, by omega⟩ :=
  Fin.sum_univ_add (a := 128) (b := 128) (fun k : Fin (128 + 128) => F k)

variable (X : (⟨2, ![1024, 128]⟩ : Shape).Idx → EReal) (W : (⟨2, ![128, 128]⟩ : Shape).Idx → EReal)
  (a : (⟨2, ![1, 256]⟩ : Shape).Idx → EReal)

/-- An edge's score is its source's score plus its target's: `a`'s first half meets the source's row, its second half
    the target's. -/
theorem sR_eq (src dst : Fin E → Fin 1024) (e : Fin E) :
    sR X W a src dst e = f X W a (src e) + g X W a (dst e) := by
  unfold sR f g
  rw [sum_two_halves]
  congr 1
  · refine Finset.sum_congr rfl fun k _ => ?_
    rw [dif_pos (show (⟨k.val, by omega⟩ : Fin 256).val < 128 from k.isLt)]
    exact mul_comm _ _

/-! ## The two layers agree -/

/-- Where the edge list enumerates the adjacency matrix, the layer by edge list is the dense layer. -/
theorem outR_eq_outK (A : (⟨2, ![1024, 1024]⟩ : Shape).Idx → BitVec 32) (src dst : Fin E → Fin 1024) (vld : Fin E → BitVec 1)
    (hsum : ∀ (i : Fin 1024) (φ : Fin 1024 → EReal),
      (∑ e ∈ Finset.univ.filter (fun e : Fin E => src e = i), Scalar.select (vld e) (φ (dst e)) 0)
        = ∑ j : Fin 1024, if A (ix2 i j) ≠ 0#32 then φ j else 0)
    (i : Fin 1024) (k : Fin 128) :
    outR X W a src dst vld i k = outK X W a A i k := by
  -- the weight of a slot leaving `i`, as a function of its target
  have hw : ∀ e ∈ Finset.univ.filter (fun e : Fin E => src e = i),
      wR X W a src dst vld e
        = Scalar.select (vld e)
            (Ideal.exp (min (0 - (f X W a i + g X W a (dst e))) (nslope * (f X W a i + g X W a (dst e))))) 0 := by
    intro e he
    have hi : src e = i := (Finset.mem_filter.mp he).2
    unfold wR
    rw [neg_leaky, sR_eq, hi]
  have hrow : rowR X W a src dst vld i = rowK X W a A i := by
    unfold rowR rowK
    rw [Finset.sum_congr rfl hw]
    exact hsum i (fun j => Ideal.exp (min (0 - (f X W a i + g X W a j)) (nslope * (f X W a i + g X W a j))))
  have hagg : aggR X W a src dst vld i k = aggK X W a A i k := by
    unfold aggR aggK
    have hw' : ∀ e ∈ Finset.univ.filter (fun e : Fin E => src e = i),
        wR X W a src dst vld e * h X W (dst e) k
          = Scalar.select (vld e)
              (Ideal.exp (min (0 - (f X W a i + g X W a (dst e))) (nslope * (f X W a i + g X W a (dst e)))) * h X W (dst e) k) 0 := by
      intro e he
      rw [hw e he]
      unfold Scalar.select
      split_ifs
      · rfl
      · exact zero_mul _
    rw [Finset.sum_congr rfl hw']
    rw [hsum i (fun j => Ideal.exp (min (0 - (f X W a i + g X W a j)) (nslope * (f X W a i + g X W a j))) * h X W j k)]
    refine Finset.sum_congr rfl fun j _ => ?_
    unfold wK
    split_ifs
    · rfl
    · exact (zero_mul _).symm
  unfold outR outK
  rw [eluR_eq, hrow, hagg]

end Cert.Gat

end
-- ==== Proof.Enum.lean ====
/-
  Enumerating the marked positions of a finite sequence by running counts.

  For marks `b : Fin N → Bool` let `cnt b p` be the number of marked positions `≤ p`, `total b` the number of marked
  positions, and `pos b k` the number of positions whose running count is at most `k`. The running count steps by one
  exactly at marked positions, so the positions with count `≤ k` form an initial segment: for `k < total b` its length
  `pos b k` IS the `k`-th marked position (counting from zero), and `k ↦ pos b k` maps `{k | k < total b}` one-to-one
  onto the marked positions; from `total b` on, `pos b k = N`.
-/
import Mathlib.Algebra.BigOperators.Group.Finset.Basic
import Mathlib.Data.Fintype.Card
import Mathlib.Data.Fintype.BigOperators
import Mathlib.Data.Fintype.Fin
import Mathlib.Data.Finset.Max
import Mathlib.Data.Fin.Basic

open scoped BigOperators

namespace Cert.Gat.Enum

variable {N : Nat} (b : Fin N → Bool)

/-- The number of marked positions up to and including `p`. -/
def cnt (p : Fin N) : Nat := (Finset.univ.filter fun q : Fin N => q ≤ p ∧ b q = true).card

/-- The number of marked positions. -/
def total : Nat := (Finset.univ.filter fun q : Fin N => b q = true).card

/-- The number of positions whose running count is at most `k`. -/
def pos (k : Nat) : Nat := (Finset.univ.filter fun p : Fin N => cnt b p ≤ k).card

/-- The number of marked positions strictly before `p`. -/
def cntLt (p : Fin N) : Nat := (Finset.univ.filter fun q : Fin N => q < p ∧ b q = true).card

/-- The running count is monotone in the position. -/
theorem cnt_mono {p q : Fin N} (h : p ≤ q) : cnt b p ≤ cnt b q := by
  unfold cnt
  apply Finset.card_le_card
  intro r hr
  simp only [Finset.mem_filter, Finset.mem_univ, true_and] at hr ⊢
  exact ⟨le_trans hr.1 h, hr.2⟩

/-- The running count at `p` is the strict count plus one exactly when `p` is marked. -/
theorem cnt_eq_cntLt_add (p : Fin N) : cnt b p = cntLt b p + (if b p = true then 1 else 0) := by
  unfold cnt cntLt
  by_cases hp : b p = true
  · rw [if_pos hp]
    have hins : (Finset.univ.filter fun q : Fin N => q ≤ p ∧ b q = true)
        = insert p (Finset.univ.filter fun q : Fin N => q < p ∧ b q = true) := by
      ext q
      simp only [Finset.mem_filter, Finset.mem_univ, true_and, Finset.mem_insert]
      constructor
      · rintro ⟨h1, h2⟩
        rcases lt_or_eq_of_le h1 with h | h
        · exact Or.inr ⟨h, h2⟩
        · exact Or.inl h
      · rintro (h | ⟨h1, h2⟩)
        · subst h; exact ⟨le_refl _, hp⟩
        · exact ⟨le_of_lt h1, h2⟩
    rw [hins, Finset.card_insert_of_notMem]
    simp
  · rw [if_neg hp, add_zero]
    congr 1
    ext q
    simp only [Finset.mem_filter, Finset.mem_univ, true_and]
    constructor
    · rintro ⟨h1, h2⟩
      refine ⟨lt_of_le_of_ne h1 ?_, h2⟩
      rintro rfl
      exact hp h2
    · rintro ⟨h1, h2⟩
      exact ⟨le_of_lt h1, h2⟩

/-- A position strictly before `p` has running count at most the strict count of `p`. -/
theorem cnt_le_cntLt {q p : Fin N} (h : q < p) : cnt b q ≤ cntLt b p := by
  unfold cnt cntLt
  apply Finset.card_le_card
  intro r hr
  simp only [Finset.mem_filter, Finset.mem_univ, true_and] at hr ⊢
  exact ⟨lt_of_le_of_lt hr.1 h, hr.2⟩

/-- If every position before `p` has running count `≤ k`, so has the strict count of `p`:
  it is the running count of the last marked position before `p`, if there is one. -/
theorem cntLt_le {p : Fin N} {k : Nat} (h : ∀ q : Fin N, q < p → cnt b q ≤ k) : cntLt b p ≤ k := by
  by_cases hT : (Finset.univ.filter fun q : Fin N => q < p ∧ b q = true).Nonempty
  · have hmem := Finset.max'_mem _ hT
    have hlt : (Finset.univ.filter fun q : Fin N => q < p ∧ b q = true).max' hT < p := by
      have h2 := hmem
      simp only [Finset.mem_filter, Finset.mem_univ, true_and] at h2
      exact h2.1
    refine le_trans ?_ (h _ hlt)
    unfold cntLt cnt
    apply Finset.card_le_card
    intro r hr
    have hr' := hr
    simp only [Finset.mem_filter, Finset.mem_univ, true_and] at hr' ⊢
    exact ⟨Finset.le_max' _ r hr, hr'.2⟩
  · rw [Finset.not_nonempty_iff_eq_empty] at hT
    unfold cntLt
    rw [hT]
    simp

theorem cnt_le_total (p : Fin N) : cnt b p ≤ total b := by
  unfold cnt total
  apply Finset.card_le_card
  intro r hr
  simp only [Finset.mem_filter, Finset.mem_univ, true_and] at hr ⊢
  exact hr.2

theorem total_le : total b ≤ N := by
  unfold total
  calc _ ≤ (Finset.univ : Finset (Fin N)).card := Finset.card_filter_le _ _
    _ = N := by simp

theorem pos_le (k : Nat) : pos b k ≤ N := by
  unfold pos
  calc _ ≤ (Finset.univ : Finset (Fin N)).card := Finset.card_filter_le _ _
    _ = N := by simp

/-- The histogram of the running count adds up to `pos`: the positions with count `≤ k` are those with count `v`, over `v ≤ k`. -/
theorem pos_eq_sum_hist (k : Nat) :
    pos b k = ∑ v ∈ Finset.range (k + 1), (Finset.univ.filter fun p : Fin N => cnt b p = v).card := by
  induction k with
  | zero =>
    rw [Finset.sum_range_one]
    unfold pos
    congr 1
    ext p
    simp
  | succ k ih =>
    rw [Finset.sum_range_succ, ← ih]
    unfold pos
    rw [← Finset.card_union_of_disjoint]
    · congr 1
      ext p
      simp only [Finset.mem_filter, Finset.mem_univ, true_and, Finset.mem_union]
      omega
    · rw [Finset.disjoint_filter]
      intro p _ h1 h2
      omega

/-- The positions with running count `≤ k` are exactly the first `pos b k` positions: the set is closed downwards
  because the running count is monotone, and a downward closed set of positions is an initial segment. -/
theorem cnt_le_iff (p : Fin N) (k : Nat) : cnt b p ≤ k ↔ p.val < pos b k := by
  constructor
  · intro h
    have hle : (Finset.univ.filter fun q : Fin N => q.val < p.val + 1).card ≤ pos b k := by
      apply Finset.card_le_card
      intro q hq
      simp only [Finset.mem_filter, Finset.mem_univ, true_and] at hq ⊢
      exact le_trans (cnt_mono b (Fin.le_def.mpr (Nat.lt_succ_iff.mp hq))) h
    rw [Fin.card_filter_val_lt] at hle
    have := p.isLt
    omega
  · intro h
    by_contra hc
    have hle : pos b k ≤ (Finset.univ.filter fun q : Fin N => q.val < p.val).card := by
      apply Finset.card_le_card
      intro q hq
      simp only [Finset.mem_filter, Finset.mem_univ, true_and] at hq ⊢
      by_contra hqp
      exact hc (le_trans (cnt_mono b (Fin.le_def.mpr (not_lt.mp hqp))) hq)
    rw [Fin.card_filter_val_lt] at hle
    omega

/-- Below the total, `pos b k` is a position. -/
theorem pos_lt {k : Nat} (hk : k < total b) : pos b k < N := by
  have hN : 0 < N := lt_of_lt_of_le (Nat.zero_lt_of_lt hk) (total_le b)
  have hlast : cnt b ⟨N - 1, by omega⟩ = total b := by
    unfold cnt total
    congr 1
    ext q
    simp only [Finset.mem_filter, Finset.mem_univ, true_and, and_iff_right_iff_imp]
    intro _
    rw [Fin.le_def]
    have := q.isLt
    simp only
    omega
  have hnot : ¬ cnt b ⟨N - 1, by omega⟩ ≤ k := by rw [hlast]; omega
  rw [cnt_le_iff] at hnot
  simp only at hnot
  omega

/-- Below the total, the position `pos b k` has running count exactly `k + 1` and is marked: it is the first position
  whose running count exceeds `k`, while all positions before it have count `≤ k`. -/
theorem pos_spec {k : Nat} (hk : k < total b) :
    cnt b ⟨pos b k, pos_lt b hk⟩ = k + 1 ∧ b ⟨pos b k, pos_lt b hk⟩ = true := by
  have hnot : ¬ cnt b ⟨pos b k, pos_lt b hk⟩ ≤ k := by
    rw [cnt_le_iff]
    simp
  have hlt : cntLt b ⟨pos b k, pos_lt b hk⟩ ≤ k := by
    apply cntLt_le
    intro q hq
    rw [cnt_le_iff]
    exact Fin.lt_def.mp hq
  have hstep := cnt_eq_cntLt_add b ⟨pos b k, pos_lt b hk⟩
  by_cases hb : b ⟨pos b k, pos_lt b hk⟩ = true
  · rw [if_pos hb] at hstep
    exact ⟨by omega, hb⟩
  · rw [if_neg hb] at hstep
    omega

/-- Below the total, `pos b k` is a MARKED position. -/
theorem marked_pos {k : Nat} (hk : k < total b) : b ⟨pos b k, pos_lt b hk⟩ = true :=
  (pos_spec b hk).2

/-- From the total on, every position has count `≤ k`. -/
theorem pos_of_total_le {k : Nat} (hk : total b ≤ k) : pos b k = N := by
  unfold pos
  rw [Finset.filter_true_of_mem]
  · simp
  · intro p _
    exact le_trans (cnt_le_total b p) hk

/-- Different slots below the total sit at different positions. -/
theorem pos_inj {k₁ k₂ : Nat} (h₁ : k₁ < total b) (h₂ : k₂ < total b) (h : pos b k₁ = pos b k₂) : k₁ = k₂ := by
  have e₁ := (pos_spec b h₁).1
  have e₂ := (pos_spec b h₂).1
  have hfin : (⟨pos b k₁, pos_lt b h₁⟩ : Fin N) = ⟨pos b k₂, pos_lt b h₂⟩ := Fin.ext h
  rw [hfin] at e₁
  omega

/-- A marked position `p` is the position of the slot `cnt b p - 1`. -/
theorem pos_cnt {p : Fin N} (hp : b p = true) : 1 ≤ cnt b p ∧ pos b (cnt b p - 1) = p.val := by
  have hstep := cnt_eq_cntLt_add b p
  rw [if_pos hp] at hstep
  refine ⟨by omega, ?_⟩
  have hk : cnt b p - 1 = cntLt b p := by omega
  rw [hk]
  unfold pos
  have hset : (Finset.univ.filter fun q : Fin N => cnt b q ≤ cntLt b p)
      = Finset.univ.filter fun q : Fin N => q.val < p.val := by
    ext q
    simp only [Finset.mem_filter, Finset.mem_univ, true_and]
    constructor
    · intro hq
      by_contra hqp
      have := cnt_mono b (Fin.le_def.mpr (not_lt.mp hqp))
      omega
    · intro hq
      exact cnt_le_cntLt b (Fin.lt_def.mpr hq)
  rw [hset, Fin.card_filter_val_lt]
  have := p.isLt
  omega

/-- Summing over the slots below the total, each at its marked position, is summing over the marked positions. -/
theorem sum_enum {M : Type*} [AddCommMonoid M] (ψ : Fin N → M) :
    (∑ e : Fin N, if h : e.val < total b then ψ ⟨pos b e.val, pos_lt b h⟩ else 0)
      = ∑ p : Fin N, if b p = true then ψ p else 0 := by
  classical
  have key : ∀ e : Fin N,
      (if h : e.val < total b then ψ ⟨pos b e.val, pos_lt b h⟩ else 0) ≠ 0 → e.val < total b := by
    intro e he
    by_contra h
    exact he (dif_neg h)
  refine Finset.sum_bij_ne_zero (fun e _ he => ⟨pos b e.val, pos_lt b (key e he)⟩) ?_ ?_ ?_ ?_
  · intro a _ _
    exact Finset.mem_univ _
  · intro a₁ _ h₁ a₂ _ h₂ heq
    exact Fin.ext (pos_inj b (key a₁ h₁) (key a₂ h₂) (congrArg Fin.val heq))
  · intro p _ hp
    have hbp : b p = true := by
      by_contra h
      exact hp (if_neg h)
    obtain ⟨h1, h2⟩ := pos_cnt b hbp
    have hlt : cnt b p - 1 < total b := by
      have := cnt_le_total b p
      omega
    have hN : cnt b p - 1 < N := lt_of_lt_of_le hlt (total_le b)
    have hfin : (⟨pos b (cnt b p - 1), pos_lt b hlt⟩ : Fin N) = p := Fin.ext h2
    refine ⟨⟨cnt b p - 1, hN⟩, Finset.mem_univ _, ?_, ?_⟩
    · rw [dif_pos (show (⟨cnt b p - 1, hN⟩ : Fin N).val < total b from hlt)]
      simp only
      rw [hfin]
      rw [if_pos hbp] at hp
      exact hp
    · exact hfin
  · intro a _ h₂
    rw [dif_pos (key a h₂)]
    exact (if_pos (marked_pos b (key a h₂))).symm

end Cert.Gat.Enum
-- ==== Proof.LibScatterVec.lean ====
/-
  A scatter into a VECTOR read at an index: operand `[n]`, scatter indices `[S, 1]` (one one-component index vector per
  update), updates `[S]`; dimension numbers update_window_dims `[]`, inserted_window_dims `[0]`,
  scatter_dims_to_operand_dims `[0]`, index_vector_dim `1` (jax's `x.at[idx].add(u)` of a vector, `segment_sum`,
  `bincount`). Update `s` lands at `idx s`, read signed, when `0 ≤ idx s < n`, and is dropped otherwise.

  * the host's accumulating FLOAT scatter at the ideal values is the operand's entry plus the sum of the updates that
    land on it (`scatterAdd_vec_apply`);
  * the host's INTEGER scatter with addition as its body (a left fold over the updates) holds, as a natural number, the
    operand's entry plus the sum of the updates that land on it, as long as that sum stays below `2 ^ 32`
    (`scatter_addi_vec_toNat`).
-/
import Idealize.ShloMosaic.PureOps.Ideal
import Idealize.ShloMosaic.Lib.ValueIdx
import Idealize.ShloMosaic.Lib.ValueIdxRank1

noncomputable section

open scoped BigOperators

namespace Idealize.ShloMosaic.ScatterVec

open Idealize.ShloMosaic Idealize.ShloMosaic.ValueIdx

/-- The dimension numbers of "add update `s` into operand entry `idx s`". -/
abbrev vecDims (n S : Nat) (wf : ScatterDims.WF ⟨1, ![n]⟩ ⟨2, ![S, 1]⟩ ⟨1, ![S]⟩ [] [0] [0] 1) :
    ScatterDims ⟨1, ![n]⟩ ⟨2, ![S, 1]⟩ ⟨1, ![S]⟩ :=
  { updateWindowDims := [], insertedWindowDims := [0], scatterDimsToOperandDims := [0], indexVectorDim := 1, wf := wf }

/-- The window's start on the operand's one axis for update `s` is the index `idx (s, 0)` read signed. -/
theorem vecDims_start0 {n S w : Nat} (wf) (idx : IVec ⟨2, ![S, 1]⟩ w) (s : Fin S) :
    (vecDims n S wf).start (ix1 s) idx 0 = (idx (ix2 s (0 : Fin 1))).toInt := by
  unfold ScatterDims.start
  rw [dif_pos (show (0 : Fin 1) ∈ (vecDims n S wf).scatterDimsToOperandDims from List.mem_singleton.mpr rfl)]
  have hsi : (vecDims n S wf).siIdx (ix1 s) ⟨List.idxOf (0 : Fin 1) (vecDims n S wf).scatterDimsToOperandDims,
      List.idxOf_lt_length_iff.2 (List.mem_singleton.mpr rfl)⟩ = ix2 s (0 : Fin 1) := by
    funext a; refine Fin.ext ?_
    match a with
    | ⟨0, _⟩ => rfl
    | ⟨1, _⟩ => rfl
  rw [hsi]

/-- The window coordinate on the operand's one axis (the inserted axis) is `0`. -/
theorem vecDims_window0 {n S : Nat} (wf) (j : (⟨1, ![S]⟩ : Shape).Idx) :
    (vecDims n S wf).window j 0 = 0 := by
  unfold ScatterDims.window
  have h : (0 : Fin 1) ∉ (vecDims n S wf).sKept :=
    show (0 : Fin 1) ∉ (List.finRange 1).filter (· ∉ [(0 : Fin 1)]) by decide
  rw [dif_neg h]

/-- Update `s` lands at `idx s` when that word, read signed, is in `[0, n)`; otherwise it is dropped. -/
theorem vecDims_resultIdx? {n S w : Nat} (wf) (idx : IVec ⟨2, ![S, 1]⟩ w) (s : Fin S) :
    (vecDims n S wf).resultIdx? (ix1 s) idx
      = if h : 0 ≤ (idx (ix2 s (0 : Fin 1))).toInt ∧ (idx (ix2 s (0 : Fin 1))).toInt < n then
          some (ix1 ⟨(idx (ix2 s (0 : Fin 1))).toInt.toNat, by omega⟩) else none := by
  unfold ScatterDims.resultIdx?
  by_cases h : 0 ≤ (idx (ix2 s (0 : Fin 1))).toInt ∧ (idx (ix2 s (0 : Fin 1))).toInt < n
  · have hall : ∀ a : Fin 1, 0 ≤ (vecDims n S wf).start (ix1 s) idx a + (vecDims n S wf).window (ix1 s) a ∧
        (vecDims n S wf).start (ix1 s) idx a + (vecDims n S wf).window (ix1 s) a
          < ((⟨1, ![n]⟩ : Shape).size a : Int) := by
      intro a
      match a with
      | ⟨0, _⟩ =>
        show 0 ≤ (vecDims n S wf).start (ix1 s) idx 0 + (vecDims n S wf).window (ix1 s) 0 ∧
          (vecDims n S wf).start (ix1 s) idx 0 + (vecDims n S wf).window (ix1 s) 0 < (n : Int)
        rw [vecDims_start0, vecDims_window0]
        omega
    rw [dif_pos hall, dif_pos h]
    congr 1
    funext a
    refine Fin.ext ?_
    match a with
    | ⟨0, _⟩ =>
      show ((vecDims n S wf).start (ix1 s) idx 0 + (vecDims n S wf).window (ix1 s) 0).toNat
        = (idx (ix2 s (0 : Fin 1))).toInt.toNat
      rw [vecDims_start0, vecDims_window0]
      omega
  · rw [dif_neg h, dif_neg]
    intro hall
    have h0 : 0 ≤ (vecDims n S wf).start (ix1 s) idx 0 + (vecDims n S wf).window (ix1 s) 0 ∧
          (vecDims n S wf).start (ix1 s) idx 0 + (vecDims n S wf).window (ix1 s) 0 < (n : Int) := hall 0
    rw [vecDims_start0, vecDims_window0] at h0
    exact h (by omega)

/-- Update `s` lands at `v` exactly when `idx s`, read signed, is `v`. -/
theorem vecDims_resultIdx?_eq_some {n S w : Nat} (wf) (idx : IVec ⟨2, ![S, 1]⟩ w) (s : Fin S) (v : Fin n) :
    (vecDims n S wf).resultIdx? (ix1 s) idx = some (ix1 v)
      ↔ (idx (ix2 s (0 : Fin 1))).toInt = (v.val : Int) := by
  rw [vecDims_resultIdx?]
  have hv := v.isLt
  constructor
  · intro h
    split at h
    · have hi := Option.some.inj h
      have h0 : (idx (ix2 s (0 : Fin 1))).toInt.toNat = v.val := congrArg Fin.val (congrFun hi 0)
      omega
    · cases h
  · intro hq
    have hc : 0 ≤ (idx (ix2 s (0 : Fin 1))).toInt ∧ (idx (ix2 s (0 : Fin 1))).toInt < n := by omega
    rw [dif_pos hc]
    congr 1
    funext a
    match a with
    | ⟨0, _⟩ => exact Fin.ext (show (idx (ix2 s (0 : Fin 1))).toInt.toNat = v.val by omega)

/-- A sum over a rank-1 index set is the sum over its coordinate range. -/
theorem sum_idx1 {M : Type} [AddCommMonoid M] {m : Nat} (f : (⟨1, ![m]⟩ : Shape).Idx → M) :
    ∑ i, f i = ∑ a : Fin m, f (ix1 a) := by
  rw [← Equiv.sum_comp (idxEquiv1 (n := m)).symm f]
  rfl

/-- THE FLOAT SCATTER READ AT `v`: the operand's entry plus the updates over the `s` whose index, read signed, is `v`. -/
theorem scatterAdd_vec_apply {n S w : Nat} (wf) (x : (⟨1, ![n]⟩ : Shape).Idx → EReal) (idx : IVec ⟨2, ![S, 1]⟩ w)
    (upd : (⟨1, ![S]⟩ : Shape).Idx → EReal) (v : Fin n) :
    Ideal.hostScatterAdd (vecDims n S wf) x idx upd (ix1 v)
      = x (ix1 v) + ∑ s ∈ Finset.univ.filter (fun s : Fin S => (idx (ix2 s (0 : Fin 1))).toInt = (v.val : Int)), upd (ix1 s) := by
  unfold Ideal.hostScatterAdd
  congr 1
  rw [Finset.sum_filter, sum_idx1, Finset.sum_filter]
  refine Finset.sum_congr rfl fun s _ => ?_
  by_cases hq : (idx (ix2 s (0 : Fin 1))).toInt = (v.val : Int)
  · rw [if_pos hq, if_pos ((vecDims_resultIdx?_eq_some wf idx s v).2 hq)]
  · rw [if_neg hq, if_neg fun h => hq ((vecDims_resultIdx?_eq_some wf idx s v).1 h)]

/-- A left fold of "add the element's word into the entry the element names, or drop it" holds at entry `i`, as a
    natural number modulo `2 ^ 32`, the entry it started from plus the words of the elements that name `i`. -/
theorem foldl_scatter_toNat {ι κ : Type} [DecidableEq ι] (g : κ → Option ι) (c : κ → BitVec 32) (l : List κ) :
    ∀ (r : ι → BitVec 32) (i : ι),
      ((l.foldl (fun r k => match g k with
          | some i' => fun i'' => if i'' = i' then IntOp.addi (r i') (c k) else r i''
          | none => r) r) i).toNat
        = ((r i).toNat + (l.map (fun k => if g k = some i then (c k).toNat else 0)).sum) % 2 ^ 32 := by
  induction l with
  | nil =>
    intro r i
    rw [List.foldl_nil, List.map_nil, List.sum_nil, Nat.add_zero, Nat.mod_eq_of_lt (r i).isLt]
  | cons k l ih =>
    intro r i
    rw [List.foldl_cons, ih, List.map_cons, List.sum_cons]
    cases hg : g k with
    | none =>
      rw [if_neg (by simp)]
      simp only [Nat.zero_add]
    | some i' =>
      by_cases hi : i = i'
      · subst hi
        simp only [if_pos]
        unfold IntOp.addi
        rw [BitVec.toNat_add]
        omega
      · rw [if_neg (fun h => hi (Option.some.inj h).symm)]
        simp only [if_neg hi, Nat.zero_add]

/-- THE INTEGER SCATTER-ADD READ AT `v`, as a natural number, when nothing wraps. -/
theorem scatter_addi_vec_toNat {n S w : Nat} (wf) (x : IVec ⟨1, ![n]⟩ 32) (idx : IVec ⟨2, ![S, 1]⟩ w) (upd : IVec ⟨1, ![S]⟩ 32)
    (v : Fin n)
    (hno : (x (ix1 v)).toNat + ∑ s : Fin S, (upd (ix1 s)).toNat < 2 ^ 32) :
    (Host.scatter (vecDims n S wf) IntOp.addi x idx upd (ix1 v)).toNat
      = (x (ix1 v)).toNat
        + ∑ s ∈ Finset.univ.filter (fun s : Fin S => (idx (ix2 s (0 : Fin 1))).toInt = (v.val : Int)), (upd (ix1 s)).toNat := by
  have hfold := foldl_scatter_toNat
    (fun k => (vecDims n S wf).resultIdx? ((⟨1, ![S]⟩ : Shape).rowMajor.symm k) idx)
    (fun k => upd ((⟨1, ![S]⟩ : Shape).rowMajor.symm k)) (List.finRange (⟨1, ![S]⟩ : Shape).numel) x (ix1 v)
  have hsum : ((List.finRange (⟨1, ![S]⟩ : Shape).numel).map (fun k =>
        if (vecDims n S wf).resultIdx? ((⟨1, ![S]⟩ : Shape).rowMajor.symm k) idx = some (ix1 v)
          then (upd ((⟨1, ![S]⟩ : Shape).rowMajor.symm k)).toNat else 0)).sum
      = ∑ s ∈ Finset.univ.filter (fun s : Fin S => (idx (ix2 s (0 : Fin 1))).toInt = (v.val : Int)), (upd (ix1 s)).toNat := by
    rw [← Fin.sum_univ_def,
      Equiv.sum_comp (⟨1, ![S]⟩ : Shape).rowMajor.symm (fun j : (⟨1, ![S]⟩ : Shape).Idx =>
        if (vecDims n S wf).resultIdx? j idx = some (ix1 v) then (upd j).toNat else 0),
      sum_idx1, Finset.sum_filter]
    refine Finset.sum_congr rfl fun s _ => ?_
    by_cases hq : (idx (ix2 s (0 : Fin 1))).toInt = (v.val : Int)
    · rw [if_pos hq, if_pos ((vecDims_resultIdx?_eq_some wf idx s v).2 hq)]
    · rw [if_neg hq, if_neg fun h => hq ((vecDims_resultIdx?_eq_some wf idx s v).1 h)]
  have hle : ∑ s ∈ Finset.univ.filter (fun s : Fin S => (idx (ix2 s (0 : Fin 1))).toInt = (v.val : Int)), (upd (ix1 s)).toNat
      ≤ ∑ s : Fin S, (upd (ix1 s)).toNat :=
    Finset.sum_le_sum_of_subset (Finset.filter_subset _ _)
  rw [hsum] at hfold
  unfold Host.scatter
  refine Eq.trans ?_ (hfold.trans (Nat.mod_eq_of_lt (by omega)))
  refine congrArg BitVec.toNat (congrFun (congrArg (fun f => List.foldl f x (List.finRange (⟨1, ![S]⟩ : Shape).numel)) ?_) (ix1 v))
  clear hfold hsum hle hno
  funext r k
  cases (vecDims n S wf).resultIdx? ((⟨1, ![S]⟩ : Shape).rowMajor.symm k) idx with
  | none => rfl
  | some i' =>
    funext i''
    show (if i'' = i' then _ else _) = (if i'' = i' then _ else _)
    congr 1

end Idealize.ShloMosaic.ScatterVec

end
-- ==== Proof.LibWordSums.lean ====
/-
  Integer sums the host computes as left folds, read as natural numbers when nothing wraps.

  * `reduceWindow_prefix_toNat`: a `reduce_window` of a vector with addition as its body, a window of the whole length
    `n`, stride one, padded `n − 1` low and nothing high (jax's integer `cumsum`): entry `j` is the sum of the entries
    at positions `≤ j`.
  * `reduce_all_toNat`: a `reduce` of a rank-2 array over both axes with addition as its body: the sum of all entries
    (plus the initial value).
-/
import Idealize.ShloMosaic.PureOps
import Idealize.ShloMosaic.Lib.ValueIdx
import Idealize.ShloMosaic.Lib.ValueIdxRank1

noncomputable section

open scoped BigOperators

namespace Idealize.ShloMosaic.WordSums

open Idealize.ShloMosaic Idealize.ShloMosaic.ValueIdx

/-- A left fold of word addition that does not wrap: the start plus the sum of the list's values. -/
theorem toNat_foldl_addi {ι : Type} (g : ι → BitVec 32) :
    ∀ (l : List ι) (v : BitVec 32), v.toNat + (l.map fun a => (g a).toNat).sum < 2 ^ 32 →
      (l.foldl (fun r a => IntOp.addi r (g a)) v).toNat = v.toNat + (l.map fun a => (g a).toNat).sum
  | [], v, _ => by simp
  | a :: l, v, h => by
    simp only [List.map_cons, List.sum_cons] at h
    have hv : (IntOp.addi v (g a)).toNat = v.toNat + (g a).toNat := by
      show (v + g a).toNat = _
      rw [BitVec.toNat_add]; exact Nat.mod_eq_of_lt (by omega)
    rw [List.foldl_cons, toNat_foldl_addi g l _ (by rw [hv]; omega), hv]
    simp only [List.map_cons, List.sum_cons]; omega

/-- From the zero word: the fold's value is the sum of the list's values, once that sum is known and below `2 ^ 32`. -/
theorem toNat_foldl_addi_zero {ι : Type} (g : ι → BitVec 32) (l : List ι) (S : ℕ)
    (hS : (l.map fun a => (g a).toNat).sum = S) (hlt : S < 2 ^ 32) :
    (l.foldl (fun r a => IntOp.addi r (g a)) 0#32).toNat = S := by
  rw [toNat_foldl_addi g l _ (by rw [hS]; simpa using hlt), hS]; simp

/-- The running sum: with a zero initial value and a total below `2 ^ 32`, entry `j` of the padded whole-length window
    sum is the sum of the entries at positions up to `j`. -/
theorem reduceWindow_prefix_toNat {n lo : Nat} (hlo : lo + 1 = n) (x : IVec ⟨1, ![n]⟩ 32) (init : IVec ⟨0, ![]⟩ 32)
    (h : (⟨1, ![n]⟩ : Shape).ReduceWindows (![n] : Fin 1 → Nat) ![1] ![lo] ![0] ⟨1, ![n]⟩) (hu : 0 < (⟨0, ![]⟩ : Shape).numel)
    (hinit : init (Shape.Idx.first hu) = 0#32)
    (hsum : ∑ p : Fin n, (x (ix1 p)).toNat < 2 ^ 32) (j : Fin n) :
    (Host.reduceWindow IntOp.addi ![n] ![1] ![lo] ![0] x init h hu (ix1 j)).toNat
      = ∑ p ∈ Finset.univ.filter (fun p : Fin n => p ≤ j), (x (ix1 p)).toNat := by
  have hjlo : j.val ≤ lo := by have := j.isLt; omega
  -- window position `q` reads entry `j + q - lo`; entry `p ≤ j` is read at window position `p + lo - j`
  let σ : Fin n → Fin n := fun q => ⟨j.val + q.val - lo, by have := q.isLt; omega⟩
  let τ : Fin n → Fin n := fun p => ⟨min (p.val + lo - j.val) lo, by omega⟩
  -- a sum over the window's row-major positions is the sum over its one coordinate
  have hS : ∀ A : Fin (⟨1, ![n]⟩ : Shape).numel → ℕ,
      ((List.finRange (⟨1, ![n]⟩ : Shape).numel).map A).sum = ∑ q : Fin n, A ((⟨1, ![n]⟩ : Shape).rowMajor (ix1 q)) := by
    intro A
    rw [← Fin.sum_univ_def, ← Equiv.sum_comp (⟨1, ![n]⟩ : Shape).rowMajor A, ← Equiv.sum_comp idxEquiv1.symm]
    rfl
  -- the window positions at or above the padding correspond one to one to the entries up to `j`
  have hmain : ∑ q : Fin n, (if lo ≤ j.val + q.val then (x (ix1 (σ q))).toNat else 0)
      = ∑ p ∈ Finset.univ.filter (fun p : Fin n => p ≤ j), (x (ix1 p)).toNat := by
    rw [← Finset.sum_filter]
    refine Finset.sum_nbij' σ τ ?_ ?_ ?_ ?_ ?_
    · intro q hq
      have hq' := (Finset.mem_filter.1 hq).2
      have := q.isLt
      exact Finset.mem_filter.2 ⟨Finset.mem_univ _, Fin.le_def.2 (by show j.val + q.val - lo ≤ j.val; omega)⟩
    · intro p hp
      have hp' : p.val ≤ j.val := Fin.le_def.1 (Finset.mem_filter.1 hp).2
      exact Finset.mem_filter.2 ⟨Finset.mem_univ _, by show lo ≤ j.val + min (p.val + lo - j.val) lo; omega⟩
    · intro q hq
      have hq' := (Finset.mem_filter.1 hq).2
      have := q.isLt
      exact Fin.ext (by show min (j.val + q.val - lo + lo - j.val) lo = q.val; omega)
    · intro p hp
      have hp' : p.val ≤ j.val := Fin.le_def.1 (Finset.mem_filter.1 hp).2
      exact Fin.ext (by show j.val + min (p.val + lo - j.val) lo - lo = p.val; omega)
    · intro q _; rfl
  -- a part of the total: the running sum does not wrap either
  have hbound : ∑ p ∈ Finset.univ.filter (fun p : Fin n => p ≤ j), (x (ix1 p)).toNat < 2 ^ 32 :=
    lt_of_le_of_lt (Finset.sum_le_sum_of_subset (Finset.filter_subset _ _)) hsum
  unfold Host.reduceWindow
  simp only [hinit]
  refine toNat_foldl_addi_zero _ _ _ ?_ hbound
  rw [hS]
  simp only [Equiv.symm_apply_apply]
  refine (Finset.sum_congr rfl (g := fun q => if lo ≤ j.val + q.val then (x (ix1 (σ q))).toNat else 0) (fun q _ => ?_)).trans hmain
  have hq := q.isLt
  by_cases hc : lo ≤ j.val + q.val
  · rw [if_pos hc, dif_pos (fun a => by
      obtain rfl : a = 0 := Subsingleton.elim _ _
      exact ⟨by show lo ≤ j.val * 1 + q.val; omega, by show j.val * 1 + q.val - lo < n; omega⟩)]
    refine congrArg (fun i => (x i).toNat) (funext fun a => ?_)
    obtain rfl : a = 0 := Subsingleton.elim _ _
    exact Fin.ext (by show j.val * 1 + q.val - lo = j.val + q.val - lo; omega)
  · rw [if_neg hc, dif_neg (fun hall => hc (by
      have h0 : lo ≤ j.val * 1 + q.val := (hall 0).1
      omega))]
    rfl

/-- The total: with a total below `2 ^ 32`, the reduction of a rank-2 array over both axes from a zero initial value is the
    sum of all entries. -/
theorem reduce_all_toNat {r c : Nat} (x : IVec ⟨2, ![r, c]⟩ 32) (init : IVec ⟨0, ![]⟩ 32)
    (h : (⟨2, ![r, c]⟩ : Shape).ReducesTo [0, 1] ⟨0, ![]⟩) (hu : 0 < (⟨0, ![]⟩ : Shape).numel)
    (hinit : init (Shape.Idx.first hu) = 0#32)
    (hsum : ∑ i : Fin r, ∑ j : Fin c, (x (ix2 i j)).toNat < 2 ^ 32) (o : (⟨0, ![]⟩ : Shape).Idx) :
    (Host.reduce IntOp.addi x init h hu o).toNat = ∑ i : Fin r, ∑ j : Fin c, (x (ix2 i j)).toNat := by
  -- the result has one index, so every entry reduces into it
  have hall : ∀ n : Fin (⟨2, ![r, c]⟩ : Shape).numel,
      decide (h.drop ((⟨2, ![r, c]⟩ : Shape).rowMajor.symm n) = o) = true :=
    fun n => decide_eq_true (funext fun a => a.elim0)
  -- a sum over the row-major positions is the double sum over the two coordinates
  have hS : ((List.finRange (⟨2, ![r, c]⟩ : Shape).numel).map
      fun n => (x ((⟨2, ![r, c]⟩ : Shape).rowMajor.symm n)).toNat).sum = ∑ i : Fin r, ∑ j : Fin c, (x (ix2 i j)).toNat := by
    rw [← Fin.sum_univ_def, Equiv.sum_comp (⟨2, ![r, c]⟩ : Shape).rowMajor.symm (fun i => (x i).toNat), sum_idx2]
  unfold Host.reduce
  rw [List.filter_eq_self.2 (fun n _ => hall n), hinit]
  exact toNat_foldl_addi_zero (fun n => x ((⟨2, ![r, c]⟩ : Shape).rowMajor.symm n)) _ _ hS hsum

end Idealize.ShloMosaic.WordSums

end
-- ==== Proof.WordDivMod.lean ====
/-
  Floor division and remainder of small non-negative words, entry by entry: on a word `x` with `x < 2 ^ 31` and a
  divisor `0 < c < 2 ^ 31`, the host's floor division (quotient toward zero, corrected where the signs differ) is the
  natural-number quotient `x / c`, and the host's remainder (with the divisor's sign) is `x % c`: no sign differs and no
  correction applies.
-/
import proofs.«104574_g83193516523656_cont_sun_m_929_5_alg».proof.Proof.RefFlow
import Idealize.ShloMosaic.Lib.ValueIdx
import Idealize.ShloMosaic.Lib.WordArith

noncomputable section

namespace Cert.ReferenceIdeal.WordDivMod

open Idealize.ShloMosaic Idealize.ShloMosaic.ValueIdx Cert.ReferenceIdeal Cert.ReferenceIdeal.Flow

/-! ## Words below `2 ^ 31`: both readings agree, the top bit is clear -/

/-- A natural number below `2 ^ 31`, as a word, has itself as natural value. -/
theorem toNat_word (c : Nat) (hc' : c < 2 ^ 31) : (BitVec.ofNat 32 c).toNat = c :=
  WordArith.toNat_ofNat_of_lt c (by omega)

/-- A word below `2 ^ 31` has its top bit clear. -/
theorem msb_of_lt (x : BitVec 32) (hx : x.toNat < 2 ^ 31) : x.msb = false := by
  rw [BitVec.msb_eq_decide]; simp; omega

/-- A positive natural number below `2 ^ 31` is not the zero word. -/
theorem word_ne_zero (c : Nat) (hc : 0 < c) (hc' : c < 2 ^ 31) : BitVec.ofNat 32 c ≠ 0 := by
  intro h0
  have h := toNat_word c hc'
  rw [h0] at h; simp at h; omega

/-- A positive divisor below `2 ^ 31` is neither zero nor minus one: signed division by it has no corner. -/
theorem not_corner (x : BitVec 32) (c : Nat) (hc : 0 < c) (hc' : c < 2 ^ 31) :
    ¬ IntOp.SDivCorner x (BitVec.ofNat 32 c) := by
  have h := toNat_word c hc'
  rintro (h0 | ⟨_, h1⟩)
  · exact word_ne_zero c hc hc' h0
  · rw [h1] at h
    have : (-1 : BitVec 32).toNat = 4294967295 := by decide
    omega

/-- A natural number below `2 ^ 31`, as a word, is not signed-below zero. -/
theorem slt_zero_small (n : Nat) (h : n < 2 ^ 31) : IntOp.cmpi .slt (BitVec.ofNat 32 n) 0#32 = 0#1 := by
  have hs : (BitVec.ofNat 32 n).slt 0#32 = false := by
    rw [BitVec.slt_eq_decide, WordArith.toInt_ofNat_small n h]
    have h0 : (0#32 : BitVec 32).toInt = 0 := by decide
    rw [h0]; simp
  show BitVec.ofBool ((BitVec.ofNat 32 n).slt 0#32) = 0#1
  rw [hs]; rfl

/-! ## Signed quotient and remainder of two non-negative words: the natural numbers' -/

/-- With both top bits clear the signed quotient is the unsigned one, which is the natural numbers' quotient (at most
    the dividend, so it fits the word). -/
theorem divsi_small (u : ArithUnit) (x : BitVec 32) (c : Nat) (hc : 0 < c) (hc' : c < 2 ^ 31) (hx : x.toNat < 2 ^ 31) :
    IntOp.divsi u x (BitVec.ofNat 32 c) = BitVec.ofNat 32 (x.toNat / c) := by
  unfold IntOp.divsi
  rw [if_neg (not_corner x c hc hc'), BitVec.sdiv_eq, msb_of_lt x hx, msb_of_lt _ (by rw [toNat_word c hc']; exact hc')]
  apply BitVec.eq_of_toNat_eq
  show (x / BitVec.ofNat 32 c).toNat = _
  rw [BitVec.toNat_udiv, toNat_word c hc', BitVec.toNat_ofNat]
  have h : x.toNat / c ≤ x.toNat := Nat.div_le_self _ _
  exact (Nat.mod_eq_of_lt (by omega)).symm

/-- With both top bits clear the signed remainder is the unsigned one, which is the natural numbers' remainder (below
    the divisor, so it fits the word). -/
theorem remsi_small (u : ArithUnit) (x : BitVec 32) (c : Nat) (hc : 0 < c) (hc' : c < 2 ^ 31) (hx : x.toNat < 2 ^ 31) :
    IntOp.remsi u x (BitVec.ofNat 32 c) = BitVec.ofNat 32 (x.toNat % c) := by
  unfold IntOp.remsi
  rw [if_neg (not_corner x c hc hc'), BitVec.srem_eq, msb_of_lt x hx, msb_of_lt _ (by rw [toNat_word c hc']; exact hc')]
  apply BitVec.eq_of_toNat_eq
  show (x % BitVec.ofNat 32 c).toNat = _
  rw [BitVec.toNat_umod, toNat_word c hc', BitVec.toNat_ofNat]
  have h : x.toNat % c < c := Nat.mod_lt _ hc
  exact (Nat.mod_eq_of_lt (by omega)).symm

/-! ## Floor division and remainder on one word -/

/-- Floor division of a non-negative word by a positive one. The divisor's sign is one. A dividend that is not zero has
    sign one as well, so the signs agree; the zero dividend has remainder zero. Either way the correction's guard is off
    and the result is the quotient toward zero, the natural numbers' quotient. -/
theorem floorDiv_word (u : ArithUnit) (x : BitVec 32) (c : Nat) (hc : 0 < c) (hc' : c < 2 ^ 31) (hx : x.toNat < 2 ^ 31) :
    Scalar.select
      (IntOp.andi
        (IntOp.cmpi .ne (if x = 0 then (0 : BitVec 32) else if x.msb then -1 else 1)
          (if BitVec.ofNat 32 c = 0 then (0 : BitVec 32) else if (BitVec.ofNat 32 c).msb then -1 else 1))
        (IntOp.cmpi .ne (IntOp.remsi u x (BitVec.ofNat 32 c)) 0#32))
      (IntOp.subi (IntOp.divsi u x (BitVec.ofNat 32 c)) 1#32)
      (IntOp.divsi u x (BitVec.ofNat 32 c)) = BitVec.ofNat 32 (x.toNat / c) := by
  rw [remsi_small u x c hc hc' hx, divsi_small u x c hc hc' hx, msb_of_lt x hx,
    msb_of_lt _ (by rw [toNat_word c hc']; exact hc'), if_neg (word_ne_zero c hc hc')]
  by_cases h0 : x = 0
  · subst h0
    simp [Scalar.select, IntOp.andi, IntOp.cmpi]
  · rw [if_neg h0]
    simp [Scalar.select, IntOp.andi, IntOp.cmpi]

/-- The divisor a remainder is taken by is the divisor itself when that is not zero. -/
theorem safeDivisor_word (c : Nat) (hc : 0 < c) (hc' : c < 2 ^ 31) :
    Scalar.select (IntOp.cmpi .eq (BitVec.ofNat 32 c) 0#32) 1#32 (BitVec.ofNat 32 c) = BitVec.ofNat 32 c := by
  have hb : (BitVec.ofNat 32 c == 0#32) = false := beq_eq_false_iff_ne.mpr (word_ne_zero c hc hc')
  show Scalar.select (BitVec.ofBool (BitVec.ofNat 32 c == 0#32)) 1#32 (BitVec.ofNat 32 c) = _
  rw [hb]
  exact if_neg (by decide)

/-- The remainder, with the divisor's sign, of a non-negative word by a positive one. The remainder toward zero is the
    natural numbers' remainder, below `2 ^ 31`, so neither it nor the divisor is negative: the two "is negative" bits
    agree, the correction's guard is off, and the result is that remainder. -/
theorem floorMod_word (u : ArithUnit) (x : BitVec 32) (c : Nat) (hc : 0 < c) (hc' : c < 2 ^ 31) (hx : x.toNat < 2 ^ 31) :
    Scalar.select
      (IntOp.andi
        (IntOp.cmpi .ne
          (IntOp.cmpi .slt (IntOp.remsi u x (Scalar.select (IntOp.cmpi .eq (BitVec.ofNat 32 c) 0#32) 1#32 (BitVec.ofNat 32 c))) 0#32)
          (IntOp.cmpi .slt (Scalar.select (IntOp.cmpi .eq (BitVec.ofNat 32 c) 0#32) 1#32 (BitVec.ofNat 32 c)) 0#32))
        (IntOp.cmpi .ne (IntOp.remsi u x (Scalar.select (IntOp.cmpi .eq (BitVec.ofNat 32 c) 0#32) 1#32 (BitVec.ofNat 32 c))) 0#32))
      (IntOp.addi (IntOp.remsi u x (Scalar.select (IntOp.cmpi .eq (BitVec.ofNat 32 c) 0#32) 1#32 (BitVec.ofNat 32 c)))
        (Scalar.select (IntOp.cmpi .eq (BitVec.ofNat 32 c) 0#32) 1#32 (BitVec.ofNat 32 c)))
      (IntOp.remsi u x (Scalar.select (IntOp.cmpi .eq (BitVec.ofNat 32 c) 0#32) 1#32 (BitVec.ofNat 32 c)))
      = BitVec.ofNat 32 (x.toNat % c) := by
  have hr : x.toNat % c < 2 ^ 31 := by have := Nat.mod_lt x.toNat hc; omega
  rw [safeDivisor_word c hc hc', remsi_small u x c hc hc' hx, slt_zero_small _ hr, slt_zero_small c hc']
  simp [Scalar.select, IntOp.andi, IntOp.cmpi]

/-! ## Entry by entry: every operation of the two definitions acts pointwise, a splat reads its word everywhere -/

variable [Facts]

theorem floorDiv_apply (x : IVec S1048576 32) (c : Nat) (hc : 0 < c) (hc' : c < 2 ^ 31) (e : Fin 1048576)
    (hx : (x (ix1 e)).toNat < 2 ^ 31) :
    floorDiv x (BitVec.ofNat 32 c) (ix1 e) = BitVec.ofNat 32 ((x (ix1 e)).toNat / c) :=
  floorDiv_word .host (x (ix1 e)) c hc hc' hx

theorem floorMod_apply (x : IVec S1048576 32) (c : Nat) (hc : 0 < c) (hc' : c < 2 ^ 31) (e : Fin 1048576)
    (hx : (x (ix1 e)).toNat < 2 ^ 31) :
    floorMod x (BitVec.ofNat 32 c) (ix1 e) = BitVec.ofNat 32 ((x (ix1 e)).toNat % c) :=
  floorMod_word .host (x (ix1 e)) c hc hc' hx

end Cert.ReferenceIdeal.WordDivMod

end
-- ==== Proof.IntFlow.lean ====
/-
  The integer stretch of the reference, word by word, in terms of the enumeration of the marked entries of the
  adjacency matrix read row-major: with `marks adj p` = "entry `(p / 1024, p % 1024)` is not zero", edge slot `e` below the
  number of marked entries holds the row and column of the `e`-th marked entry, every later slot holds `(0, 0)`, and the
  flag says which case a slot is in.
-/
import proofs.«104574_g83193516523656_cont_sun_m_929_5_alg».proof.Proof.RefFlow
import proofs.«104574_g83193516523656_cont_sun_m_929_5_alg».proof.Proof.Enum
import proofs.«104574_g83193516523656_cont_sun_m_929_5_alg».proof.Proof.LibScatterVec
import proofs.«104574_g83193516523656_cont_sun_m_929_5_alg».proof.Proof.LibWordSums
import proofs.«104574_g83193516523656_cont_sun_m_929_5_alg».proof.Proof.WordDivMod
import Idealize.ShloMosaic.Lib.ValueIdx
import Idealize.ShloMosaic.Lib.Pipeline.Value
import Idealize.ShloMosaic.Lib.StableHlo.Predicate

noncomputable section

open scoped BigOperators

namespace Cert.ReferenceIdeal.IntFlow

open Idealize.ShloMosaic Idealize.ShloMosaic.ValueIdx Cert.ReferenceIdeal Cert.ReferenceIdeal.Flow Cert.Gat

variable [Facts]

/-- The marks of the adjacency matrix read row-major. -/
def marks (adj : IVec S1024x1024 32) : Fin 1048576 → Bool := fun p =>
  decide (adj (ix2 (⟨p.val / 1024, by omega⟩ : Fin 1024) (⟨p.val % 1024, by omega⟩ : Fin 1024)) ≠ 0#32)

/-! ## Words -/

/-- The widened bit "the word is not zero" is `1` or `0`. -/
theorem cmpi_ne_zero_setWidth (a : BitVec 32) :
    (IntOp.cmpi .ne a 0#32).setWidth 32 = if decide (a ≠ 0#32) = true then 1#32 else 0#32 := by
  unfold IntOp.cmpi
  by_cases h : a = 0#32
  · subst h; rfl
  · have hb : (a != 0#32) = true := by simpa using h
    have hd : decide (a ≠ 0#32) = true := by simpa using h
    rw [hd, if_pos rfl]
    show (BitVec.ofBool (a != 0#32)).setWidth 32 = 1#32
    rw [hb]; rfl

/-- Clipping below at zero and wrapping the negative words does nothing to a word that reads non-negative. -/
theorem wrap_small (c n : BitVec 32) (hc : c.toNat < 2 ^ 31) :
    Scalar.select (IntOp.cmpi .slt (IntOp.maxsi 0#32 c) 0#32) (IntOp.addi (IntOp.maxsi 0#32 c) n) (IntOp.maxsi 0#32 c) = c := by
  have hti : c.toInt = c.toNat := StableHlo.Predicate.toInt_eq_toNat_of_lt hc
  have h0 : (0#32 : BitVec 32).toInt = 0 := by decide
  have hs : c.slt 0#32 = false := by
    simp only [BitVec.slt, hti, h0, decide_eq_false_iff_not]; omega
  have hm : IntOp.maxsi 0#32 c = c := by
    unfold IntOp.maxsi; rw [hs]; rfl
  rw [hm]
  have hcmp : IntOp.cmpi .slt c 0#32 = 0#1 := by
    unfold IntOp.cmpi; show BitVec.ofBool (c.slt 0#32) = 0#1; rw [hs]; rfl
  rw [hcmp, select_zero]

/-! ## The flattened mask and its running count -/

/-- A word broadcast over the edge slots reads the word. -/
theorem splat_apply (w : BitVec 32) (i : S1048576.Idx) : splat w i = w := rfl

/-- The flattened mask at position `p` is the mark of `p` as a word. -/
theorem maskFlat_apply (adj : IVec S1024x1024 32) (p : Fin 1048576) :
    maskFlat adj (ix1 p) = if marks adj p = true then 1#32 else 0#32 := by
  have hk : (S1024x1024.rowMajor (ix2 (⟨p.val / 1024, by omega⟩ : Fin 1024) (⟨p.val % 1024, by omega⟩ : Fin 1024))).val
      = (S1048576.rowMajor (ix1 p)).val := by
    rw [Shape.rowMajor_val_two, Shape.rowMajor_val_one]
    show p.val / 1024 * 1024 + p.val % 1024 = p.val
    omega
  have h1 : maskFlat adj (ix1 p)
      = (IntOp.cmpi .ne (adj (ix2 (⟨p.val / 1024, by omega⟩ : Fin 1024) (⟨p.val % 1024, by omega⟩ : Fin 1024))) 0#32).setWidth 32 := by
    unfold maskFlat
    rw [extui_apply, shapeCast_apply (mask adj) _ (ix1 p) _ hk]
    rfl
  rw [h1, cmpi_ne_zero_setWidth]
  rfl

/-- The flattened mask as a natural number. -/
theorem maskFlat_toNat (adj : IVec S1024x1024 32) (p : Fin 1048576) :
    (maskFlat adj (ix1 p)).toNat = if marks adj p = true then 1 else 0 := by
  rw [maskFlat_apply]
  split <;> rfl

/-- The flattened mask adds up to at most the number of positions. -/
theorem maskFlat_sum_lt (adj : IVec S1024x1024 32) :
    ∑ p : Fin 1048576, (maskFlat adj (ix1 p)).toNat < 2 ^ 32 := by
  have hle : ∑ p : Fin 1048576, (maskFlat adj (ix1 p)).toNat ≤ ∑ _p : Fin 1048576, 1 :=
    Finset.sum_le_sum fun p _ => by rw [maskFlat_toNat]; split <;> omega
  rw [Finset.sum_const, Finset.card_univ, Fintype.card_fin, smul_eq_mul] at hle
  omega

/-- The running count of the flattened mask at `p` is the number of marked positions up to `p`. -/
theorem count_toNat (adj : IVec S1024x1024 32) (p : Fin 1048576) :
    (Flow.count adj (ix1 p)).toNat = Enum.cnt (marks adj) p := by
  unfold Flow.count runningSum
  rw [WordSums.reduceWindow_prefix_toNat (n := 1048576) (lo := 1048575) rfl (maskFlat adj) _ _ _ rfl
    (maskFlat_sum_lt adj) p]
  unfold Enum.cnt
  rw [Finset.card_filter, Finset.sum_filter]
  refine Finset.sum_congr rfl fun q _ => ?_
  rw [maskFlat_toNat]
  by_cases h1 : q ≤ p <;> by_cases h2 : marks adj q = true <;> simp [h1, h2]

/-- The running count never exceeds the number of positions. -/
theorem count_le (adj : IVec S1024x1024 32) (p : Fin 1048576) : (Flow.count adj (ix1 p)).toNat ≤ 1048576 := by
  rw [count_toNat]
  exact le_trans (Enum.cnt_le_total _ p) (Enum.total_le _)

/-- As a scatter index the running count is itself: it is not negative. -/
theorem countIdx_apply (adj : IVec S1024x1024 32) (p : Fin 1048576) :
    countIdx adj (ix1 p) = Flow.count adj (ix1 p) := by
  have h := count_le adj p
  exact wrap_small (Flow.count adj (ix1 p)) 1048576#32 (by omega)

/-! ## The histogram of the running count and its running count -/

/-- An index vector as a column reads, at row `p`, the vector at `p`. -/
theorem asColumn_apply (x : IVec S1048576 32) (p : Fin 1048576) :
    asColumn x (ix2 p (0 : Fin 1)) = x (ix1 p) := by
  unfold asColumn
  refine broadcastInDim_apply _ _ x _ (ix1 p) fun a => ?_
  match a with
  | ⟨0, _⟩ =>
    show p.val = if (1048576 : Nat) = 1 then 0 else p.val
    rw [if_neg (by omega)]

/-- Bin `v` of the histogram is the number of positions whose running count is `v`. -/
theorem histogram_toNat (adj : IVec S1024x1024 32) (v : Fin 1048576) :
    (histogram adj (ix1 v)).toNat
      = (Finset.univ.filter fun p : Fin 1048576 => Enum.cnt (marks adj) p = v.val).card := by
  have hrec : scatter_S1048576_S1048576x1_S1048576_n_0_0_1
      = ScatterVec.vecDims 1048576 1048576 Facts₀.scatter_S1048576_S1048576x1_S1048576_n_0_0_1_wf := rfl
  have hno : (splat 0#32 (ix1 v)).toNat + ∑ s : Fin 1048576, (splat 1#32 (ix1 s)).toNat < 2 ^ 32 := by
    show 0 + ∑ _s : Fin 1048576, 1 < 2 ^ 32
    rw [Finset.sum_const, Finset.card_univ, Fintype.card_fin, smul_eq_mul]
    omega
  have hfilter : (Finset.univ.filter fun s : Fin 1048576 =>
        (asColumn (countIdx adj) (ix2 s (0 : Fin 1))).toInt = (v.val : Int))
      = Finset.univ.filter fun p : Fin 1048576 => Enum.cnt (marks adj) p = v.val := by
    refine Finset.filter_congr fun s _ => ?_
    have hc := count_le adj s
    rw [asColumn_apply, countIdx_apply, StableHlo.Predicate.toInt_eq_toNat_of_lt (by omega), count_toNat]
    exact Int.natCast_inj
  unfold histogram
  rw [hrec, ScatterVec.scatter_addi_vec_toNat _ (splat 0#32) (asColumn (countIdx adj)) (splat 1#32) v hno, hfilter]
  show 0 + ∑ _s ∈ Finset.univ.filter (fun p : Fin 1048576 => Enum.cnt (marks adj) p = v.val), 1 = _
  rw [Finset.sum_const, smul_eq_mul, mul_one, zero_add]

/-- A sum over the positions up to `e` is a sum over an initial range of naturals. -/
theorem sum_fin_le {N : Nat} (g : Nat → Nat) (e : Fin N) :
    ∑ v ∈ Finset.univ.filter (fun v : Fin N => v ≤ e), g v.val = ∑ v ∈ Finset.range (e.val + 1), g v := by
  calc ∑ v ∈ Finset.univ.filter (fun v : Fin N => v ≤ e), g v.val
      = ∑ v : Fin N, (fun i : Nat => if i ≤ e.val then g i else 0) v.val := by
        rw [Finset.sum_filter]
        exact Finset.sum_congr rfl fun v _ => by simp only [Fin.le_def]
    _ = ∑ i ∈ Finset.range N, (fun i : Nat => if i ≤ e.val then g i else 0) i :=
        Fin.sum_univ_eq_sum_range (fun i : Nat => if i ≤ e.val then g i else 0) N
    _ = ∑ v ∈ Finset.range (e.val + 1), g v := by
        show ∑ i ∈ Finset.range N, (if i ≤ e.val then g i else 0) = _
        rw [← Finset.sum_filter]
        congr 1
        ext i
        simp only [Finset.mem_filter, Finset.mem_range]
        have := e.isLt
        omega

/-- The histogram adds up to the number of positions whose running count is below the number of positions. -/
theorem histogram_sum (adj : IVec S1024x1024 32) :
    ∑ v : Fin 1048576, (histogram adj (ix1 v)).toNat = Enum.pos (marks adj) 1048575 := by
  rw [Enum.pos_eq_sum_hist]
  refine Eq.trans (Finset.sum_congr rfl fun v _ => histogram_toNat adj v) ?_
  exact Fin.sum_univ_eq_sum_range
    (fun v => (Finset.univ.filter fun p : Fin 1048576 => Enum.cnt (marks adj) p = v).card) 1048576

/-- The histogram's running count at `e` is the number of positions whose running count is at most `e`. -/
theorem flatPos_toNat (adj : IVec S1024x1024 32) (e : Fin 1048576) :
    (flatPos adj (ix1 e)).toNat = Enum.pos (marks adj) e.val := by
  have hsum : ∑ v : Fin 1048576, (histogram adj (ix1 v)).toNat < 2 ^ 32 := by
    rw [histogram_sum]
    have := Enum.pos_le (marks adj) 1048575
    omega
  unfold flatPos runningSum
  rw [WordSums.reduceWindow_prefix_toNat (n := 1048576) (lo := 1048575) rfl (histogram adj) _ _ _ rfl hsum e,
    Enum.pos_eq_sum_hist,
    ← sum_fin_le (fun v => (Finset.univ.filter fun p : Fin 1048576 => Enum.cnt (marks adj) p = v).card) e]
  exact Finset.sum_congr rfl fun v _ => histogram_toNat adj v

/-! ## The number of marked entries -/

/-- The positions as (row, column) pairs. -/
def posEquiv : Fin 1024 × Fin 1024 ≃ Fin 1048576 where
  toFun x := ⟨x.1.val * 1024 + x.2.val, by have := x.1.isLt; have := x.2.isLt; omega⟩
  invFun p := (⟨p.val / 1024, by have := p.isLt; omega⟩, ⟨p.val % 1024, by omega⟩)
  left_inv x := by
    have h1 := x.1.isLt
    have h2 := x.2.isLt
    refine Prod.ext (Fin.ext ?_) (Fin.ext ?_)
    · show (x.1.val * 1024 + x.2.val) / 1024 = x.1.val
      omega
    · show (x.1.val * 1024 + x.2.val) % 1024 = x.2.val
      omega
  right_inv p := Fin.ext (by
    show p.val / 1024 * 1024 + p.val % 1024 = p.val
    omega)

/-- The widened mask at an entry is `1` where the entry is not zero and `0` elsewhere. -/
theorem maskWide_toNat (adj : IVec S1024x1024 32) (h : 1 < 32) (i j : Fin 1024) :
    (extui 32 (mask adj) h (ix2 i j)).toNat = if decide (adj (ix2 i j) ≠ 0#32) = true then 1 else 0 := by
  have h1 : extui 32 (mask adj) h (ix2 i j) = (IntOp.cmpi .ne (adj (ix2 i j)) 0#32).setWidth 32 := rfl
  rw [h1, cmpi_ne_zero_setWidth]
  split <;> rfl

/-- The widened mask adds up to the number of marked positions. -/
theorem maskWide_sum (adj : IVec S1024x1024 32) (h : 1 < 32) :
    ∑ i : Fin 1024, ∑ j : Fin 1024, (extui 32 (mask adj) h (ix2 i j)).toNat = Enum.total (marks adj) := by
  unfold Enum.total
  rw [Finset.card_filter, ← Equiv.sum_comp posEquiv, Fintype.sum_prod_type]
  refine Finset.sum_congr rfl fun i _ => Finset.sum_congr rfl fun j _ => ?_
  have hm : marks adj (posEquiv (i, j))
      = decide (adj (ix2 (posEquiv.symm (posEquiv (i, j))).1 (posEquiv.symm (posEquiv (i, j))).2) ≠ 0#32) := rfl
  rw [maskWide_toNat, hm, Equiv.symm_apply_apply]

/-- The reference's total is the number of marked positions. -/
theorem total_toNat (adj : IVec S1024x1024 32) : (total adj ix0).toNat = Enum.total (marks adj) := by
  have hle := Enum.total_le (marks adj)
  unfold total
  rw [WordSums.reduce_all_toNat (r := 1024) (c := 1024) _ _ _ _ rfl
    (by rw [maskWide_sum]; omega) ix0]
  exact maskWide_sum adj _

/-! ## The flags -/

/-- The total broadcast over the edge slots reads the total. -/
theorem bcast_total_apply (adj : IVec S1024x1024 32) (e : Fin 1048576) :
    broadcastInDim S1048576 ![] Facts₀.bcast_S_S1048576 (total adj) (ix1 e) = total adj ix0 :=
  congrArg (total adj) (funext fun a => a.elim0)

/-- The slot number as a word reads the slot number. -/
theorem iota_toNat (e : Fin 1048576) : (iotaInDim S1048576 32 0 (ix1 e)).toNat = e.val := by
  show (BitVec.ofNat 32 e.val).toNat = e.val
  rw [BitVec.toNat_ofNat]
  exact Nat.mod_eq_of_lt (by have := e.isLt; omega)

/-- "At or past the number of marked entries", as a bit. -/
theorem pastEnd_apply (adj : IVec S1024x1024 32) (e : Fin 1048576) :
    pastEnd adj (ix1 e) = if e.val < Enum.total (marks adj) then 0#1 else 1#1 := by
  have ht := total_toNat adj
  have htl := Enum.total_le (marks adj)
  have hi := iota_toNat e
  have he := e.isLt
  have h1 : pastEnd adj (ix1 e) = IntOp.cmpi .sge (iotaInDim S1048576 32 0 (ix1 e)) (total adj ix0) := by
    show IntOp.cmpi .sge (iotaInDim S1048576 32 0 (ix1 e))
      (broadcastInDim S1048576 ![] Facts₀.bcast_S_S1048576 (total adj) (ix1 e)) = _
    rw [bcast_total_apply]
  have hiff := StableHlo.Predicate.sge_iff_toNat (a := iotaInDim S1048576 32 0 (ix1 e)) (b := total adj ix0)
    (by omega) (by omega)
  rw [hi, ht] at hiff
  rw [h1]
  by_cases h : e.val < Enum.total (marks adj)
  · rw [if_pos h]
    exact eq_zero_of_ne_one fun hc => by have := hiff.mp hc; omega
  · rw [if_neg h]
    exact hiff.mpr (by omega)

/-- "Below the number of marked entries", as a bit. -/
theorem validV_apply (adj : IVec S1024x1024 32) (e : Fin 1048576) :
    validV adj (ix1 e) = if e.val < Enum.total (marks adj) then 1#1 else 0#1 := by
  have ht := total_toNat adj
  have htl := Enum.total_le (marks adj)
  have hi := iota_toNat e
  have he := e.isLt
  have h1 : validV adj (ix1 e) = IntOp.cmpi .slt (iotaInDim S1048576 32 0 (ix1 e)) (total adj ix0) := by
    show IntOp.cmpi .slt (iotaInDim S1048576 32 0 (ix1 e))
      (broadcastInDim S1048576 ![] Facts₀.bcast_S_S1048576 (total adj) (ix1 e)) = _
    rw [bcast_total_apply]
  have hiff := StableHlo.Predicate.slt_iff_toNat (a := iotaInDim S1048576 32 0 (ix1 e)) (b := total adj ix0)
    (by omega) (by omega)
  rw [hi, ht] at hiff
  rw [h1]
  by_cases h : e.val < Enum.total (marks adj)
  · rw [if_pos h]
    exact hiff.mpr h
  · rw [if_neg h]
    exact eq_zero_of_ne_one fun hc => h (hiff.mp hc)

/-! ## The edge list -/

/-- Below the number of marked entries the flat position's quotient by the row length is a row number, and its floor
    division and remainder are the natural-number ones. -/
theorem quotRem_apply (adj : IVec S1024x1024 32) (e : Fin 1048576) (c : Nat) (hc : 0 < c) (hc' : c ≤ 1024) :
    floorMod (floorDiv (flatPos adj) (BitVec.ofNat 32 c)) 1024#32 (ix1 e)
      = BitVec.ofNat 32 (Enum.pos (marks adj) e.val / c % 1024) := by
  have hp := Enum.pos_le (marks adj) e.val
  have hf := flatPos_toNat adj e
  have hq : Enum.pos (marks adj) e.val / c ≤ Enum.pos (marks adj) e.val := Nat.div_le_self _ _
  have hd : floorDiv (flatPos adj) (BitVec.ofNat 32 c) (ix1 e) = BitVec.ofNat 32 (Enum.pos (marks adj) e.val / c) := by
    rw [← hf]
    exact WordDivMod.floorDiv_apply (flatPos adj) c hc (by omega) e (by omega)
  have hdn : (floorDiv (flatPos adj) (BitVec.ofNat 32 c) (ix1 e)).toNat = Enum.pos (marks adj) e.val / c := by
    rw [hd, BitVec.toNat_ofNat]
    exact Nat.mod_eq_of_lt (by omega)
  rw [WordDivMod.floorMod_apply (floorDiv (flatPos adj) (BitVec.ofNat 32 c)) 1024 (by omega) (by omega) e
    (by rw [hdn]; omega), hdn]

theorem srcV_eq (adj : IVec S1024x1024 32) (e : Fin 1048576) :
    srcV adj (ix1 e) = BitVec.ofNat 32 (if e.val < Enum.total (marks adj) then Enum.pos (marks adj) e.val / 1024 else 0) := by
  have hsel : srcV adj (ix1 e) = Scalar.select (pastEnd adj (ix1 e)) 0#32
      (floorMod (floorDiv (flatPos adj) 1024#32) 1024#32 (ix1 e)) := rfl
  rw [hsel, pastEnd_apply]
  by_cases h : e.val < Enum.total (marks adj)
  · have hp := Enum.pos_lt (marks adj) h
    rw [if_pos h, if_pos h, select_zero, quotRem_apply adj e 1024 (by omega) (by omega)]
    congr 1
    omega
  · rw [if_neg h, if_neg h, select_one]

theorem dstV_eq (adj : IVec S1024x1024 32) (e : Fin 1048576) :
    dstV adj (ix1 e) = BitVec.ofNat 32 (if e.val < Enum.total (marks adj) then Enum.pos (marks adj) e.val % 1024 else 0) := by
  have hsel : dstV adj (ix1 e) = Scalar.select (pastEnd adj (ix1 e)) 0#32
      (floorMod (floorDiv (flatPos adj) 1#32) 1024#32 (ix1 e)) := rfl
  rw [hsel, pastEnd_apply]
  by_cases h : e.val < Enum.total (marks adj)
  · rw [if_pos h, if_pos h, select_zero, quotRem_apply adj e 1 (by omega) (by omega), Nat.div_one]
  · rw [if_neg h, if_neg h, select_one]

theorem validV_eq (adj : IVec S1024x1024 32) (e : Fin 1048576) :
    validV adj (ix1 e) = if e.val < Enum.total (marks adj) then 1#1 else 0#1 := by
  exact validV_apply adj e

end Cert.ReferenceIdeal.IntFlow

end
-- ==== Proof.EdgeList.lean ====
/-
  The integer stretch of the reference builds an edge list of the adjacency matrix: every edge slot names a source and a
  target node in range, and, for every node `i`, summing a quantity of the target over the FLAGGED slots whose source is
  `i` is summing it over the `j` with `A i j ≠ 0`.
-/
import proofs.«104574_g83193516523656_cont_sun_m_929_5_alg».proof.Proof.RefFlow
import proofs.«104574_g83193516523656_cont_sun_m_929_5_alg».proof.Proof.Enum
import proofs.«104574_g83193516523656_cont_sun_m_929_5_alg».proof.Proof.IntFlow
import Idealize.ShloMosaic.PureOps.Ideal
import Idealize.ShloMosaic.Lib.ValueIdx

noncomputable section

open scoped BigOperators

namespace Cert.ReferenceIdeal.EdgeList

open Idealize.ShloMosaic Idealize.ShloMosaic.ValueIdx Cert.ReferenceIdeal Cert.ReferenceIdeal.Flow Cert.Gat

variable [Facts]

/-- The source node of edge slot `e`: the row of the `e`-th marked entry, zero from the number of marked entries on. -/
def srcN (adj : IVec S1024x1024 32) (e : Fin 1048576) : Fin 1024 :=
  ⟨if e.val < Enum.total (IntFlow.marks adj) then Enum.pos (IntFlow.marks adj) e.val / 1024 else 0, by
    split_ifs with h
    · have := Enum.pos_lt (IntFlow.marks adj) h
      omega
    · omega⟩

/-- The target node of edge slot `e`: the column of the `e`-th marked entry, zero from the number of marked entries on. -/
def dstN (adj : IVec S1024x1024 32) (e : Fin 1048576) : Fin 1024 :=
  ⟨if e.val < Enum.total (IntFlow.marks adj) then Enum.pos (IntFlow.marks adj) e.val % 1024 else 0, by
    split_ifs with h
    · omega
    · omega⟩

theorem srcN_val (adj : IVec S1024x1024 32) (e : Fin 1048576) :
    (srcN adj e).val = if e.val < Enum.total (IntFlow.marks adj) then Enum.pos (IntFlow.marks adj) e.val / 1024 else 0 := by
  simp only [srcN]

theorem dstN_val (adj : IVec S1024x1024 32) (e : Fin 1048576) :
    (dstN adj e).val = if e.val < Enum.total (IntFlow.marks adj) then Enum.pos (IntFlow.marks adj) e.val % 1024 else 0 := by
  simp only [dstN]

/-- The marks at a flat position whose quotient and remainder by the row length are `i` and `j`: "entry `(i, j)` is not zero". -/
theorem marks_eq (adj : IVec S1024x1024 32) (p : Fin 1048576) (i j : Fin 1024)
    (hi : p.val / 1024 = i.val) (hj : p.val % 1024 = j.val) :
    IntFlow.marks adj p = decide (adj (ix2 i j) ≠ 0#32) := by
  have e1 : (⟨p.val / 1024, by omega⟩ : Fin 1024) = i := Fin.ext hi
  have e2 : (⟨p.val % 1024, by omega⟩ : Fin 1024) = j := Fin.ext hj
  unfold IntFlow.marks
  rw [e1, e2]

/-- Summing over the marked flat positions in row `i` is summing over the columns `j` with `A i j ≠ 0`: the flat
    positions of row `i` are `1024 i + j`, one for every column `j`. -/
theorem sum_row (adj : IVec S1024x1024 32) (i : Fin 1024) (φ : Fin 1024 → EReal) :
    (∑ p : Fin 1048576, if IntFlow.marks adj p = true then
        (if p.val / 1024 = i.val then φ ⟨p.val % 1024, by omega⟩ else 0) else 0)
      = ∑ j : Fin 1024, if adj (ix2 i j) ≠ 0#32 then φ j else 0 := by
  classical
  symm
  refine Finset.sum_bij_ne_zero
    (fun j _ _ => (⟨1024 * i.val + j.val, by have := i.isLt; have := j.isLt; omega⟩ : Fin 1048576)) ?_ ?_ ?_ ?_
  · intro a _ _
    exact Finset.mem_univ _
  · intro a₁ _ _ a₂ _ _ h
    have h' := congrArg Fin.val h
    simp only at h'
    exact Fin.ext (by omega)
  · intro p _ hp
    have hb : IntFlow.marks adj p = true := by
      by_contra h
      exact hp (if_neg h)
    rw [if_pos hb] at hp
    have hq : p.val / 1024 = i.val := by
      by_contra h
      exact hp (if_neg h)
    rw [if_pos hq] at hp
    have hj : p.val % 1024 < 1024 := by omega
    have hm := marks_eq adj p i ⟨p.val % 1024, hj⟩ hq rfl
    rw [hb] at hm
    have hne : adj (ix2 i ⟨p.val % 1024, hj⟩) ≠ 0#32 := of_decide_eq_true hm.symm
    refine ⟨⟨p.val % 1024, hj⟩, Finset.mem_univ _, ?_, ?_⟩
    · rw [if_pos hne]
      exact hp
    · apply Fin.ext
      simp only
      omega
  · intro j _ _
    have hlt : 1024 * i.val + j.val < 1048576 := by have := i.isLt; have := j.isLt; omega
    have hq : (⟨1024 * i.val + j.val, hlt⟩ : Fin 1048576).val / 1024 = i.val := by
      have := j.isLt
      simp only
      omega
    have hr : (⟨1024 * i.val + j.val, hlt⟩ : Fin 1048576).val % 1024 = j.val := by
      have := j.isLt
      simp only
      omega
    have hm := marks_eq adj ⟨1024 * i.val + j.val, hlt⟩ i j hq hr
    have hj : (⟨(⟨1024 * i.val + j.val, hlt⟩ : Fin 1048576).val % 1024, by omega⟩ : Fin 1024) = j := Fin.ext hr
    by_cases hne : adj (ix2 i j) ≠ 0#32
    · rw [if_pos hne, if_pos (hm.trans (decide_eq_true hne)), if_pos hq, hj]
    · rw [if_neg hne, if_neg (by rw [hm, decide_eq_false hne]; exact Bool.false_ne_true)]

/-- The edge list of `adj`: node-valued source and target of every slot, agreeing with the words the program computes,
    and the sum over a node's flagged slots re-indexed by the node's neighbours. -/
theorem edge_sum (adj : IVec S1024x1024 32) :
    ∃ (src dst : Fin 1048576 → Fin 1024),
      (∀ e : Fin 1048576, srcV adj (ix1 e) = BitVec.ofNat 32 (src e).val) ∧
      (∀ e : Fin 1048576, dstV adj (ix1 e) = BitVec.ofNat 32 (dst e).val) ∧
      ∀ (i : Fin 1024) (φ : Fin 1024 → EReal),
        (∑ e ∈ Finset.univ.filter (fun e : Fin 1048576 => src e = i), Scalar.select (validV adj (ix1 e)) (φ (dst e)) 0)
          = ∑ j : Fin 1024, if adj (ix2 i j) ≠ 0#32 then φ j else 0 := by
  classical
  refine ⟨srcN adj, dstN adj, ?_, ?_, ?_⟩
  · intro e
    rw [srcN_val]
    exact IntFlow.srcV_eq adj e
  · intro e
    rw [dstN_val]
    exact IntFlow.dstV_eq adj e
  intro i φ
  rw [← sum_row adj i φ, ← Enum.sum_enum (IntFlow.marks adj)
    (fun p : Fin 1048576 => if p.val / 1024 = i.val then φ ⟨p.val % 1024, by omega⟩ else 0), Finset.sum_filter]
  refine Finset.sum_congr rfl ?_
  intro e _
  rw [IntFlow.validV_eq]
  by_cases h : e.val < Enum.total (IntFlow.marks adj)
  · have hd : dstN adj e = ⟨Enum.pos (IntFlow.marks adj) e.val % 1024, by omega⟩ :=
      Fin.ext (by rw [dstN_val, if_pos h])
    have hs : (srcN adj e = i) ↔ (Enum.pos (IntFlow.marks adj) e.val / 1024 = i.val) := by
      rw [Fin.ext_iff, srcN_val, if_pos h]
    rw [dif_pos h, if_pos h, select_one, hd]
    simp only [hs]
  · rw [dif_neg h, if_neg h, select_zero, ite_self]

end Cert.ReferenceIdeal.EdgeList

end
-- ==== Proof.LibScatterAxis.lean ====
/-
  The host's accumulating float scatter READ AT AN INDEX, for the two layouts of "add the rows of an update array
  into the rows of an operand that an index vector names".

  `Ideal.hostScatterAdd d x idx upd` at operand index `i` is `x i` plus the sum of the update elements whose result
  index (`ScatterDims.resultIdx?`: the start index read SIGNED and not clamped, plus the window coordinate; `none` when
  that leaves the operand) is `i`. For an index vector `idx : [S, 1]` and
    * COLUMNS: operand `[B, N]`, updates `[B, S]`, dimension numbers update_window_dims `[0]`, inserted_window_dims `[1]`,
      scatter_dims_to_operand_dims `[1]`, index_vector_dim `1` (`colsDims`; jax `x.at[:, idx].add(u)`),
    * ROWS: operand `[N, B]`, updates `[S, B]`, dimension numbers update_window_dims `[1]`, inserted_window_dims `[0]`,
      scatter_dims_to_operand_dims `[0]`, index_vector_dim `1` (`rowsDims`; jax `x.at[idx].add(u)`),
  update `(b, s)` (resp. `(s, b)`) lands at `(b, idx s)` (resp. `(idx s, b)`) when `0 ≤ idx s < N` and is dropped otherwise
  (`colsDims_resultIdx?`, `rowsDims_resultIdx?`), so the scatter at `(b, n)` (resp. `(n, b)`) adds to the operand's element
  the updates `u (b, s)` (resp. `u (s, b)`) over the `s` with `idx s = n` (`scatterAdd_cols_apply`, `scatterAdd_rows_apply`),
  and the two layouts are transposes of one another (`scatterAdd_cols_eq_rows`).
-/
import Idealize.ShloMosaic.PureOps.Ideal
import Idealize.ShloMosaic.Lib.ValueIdx

noncomputable section

open scoped BigOperators

namespace Idealize.ShloMosaic.ScatterAxis

open Idealize.ShloMosaic Idealize.ShloMosaic.ValueIdx

/-! ## Columns: operand `[B, N]`, indices `[S, 1]`, updates `[B, S]` -/

/-- The dimension numbers of "add update column `s` into operand column `idx s`": operand `[B, N]`, scatter indices
    `[S, 1]`, updates `[B, S]`; the updates' axis 0 is the window axis (it goes to the operand's axis 0), the operand's
    axis 1 is inserted and is the one the index names. Their conditions `wf` are decided on a program's literal shapes. -/
abbrev colsDims (B N S : Nat) (wf : ScatterDims.WF ⟨2, ![B, N]⟩ ⟨2, ![S, 1]⟩ ⟨2, ![B, S]⟩ [0] [1] [1] 1) :
    ScatterDims ⟨2, ![B, N]⟩ ⟨2, ![S, 1]⟩ ⟨2, ![B, S]⟩ :=
  { updateWindowDims := [0], insertedWindowDims := [1], scatterDimsToOperandDims := [1], indexVectorDim := 1, wf := wf }

/-- Columns: the window's start on operand axis 0 is `0` (the index names axis 1 only). -/
theorem colsDims_start0 {B N S w : Nat} (wf) (idx : IVec ⟨2, ![S, 1]⟩ w) (j : (⟨2, ![B, S]⟩ : Shape).Idx) :
    (colsDims B N S wf).start j idx 0 = 0 := by
  unfold ScatterDims.start
  rw [dif_neg (show (0 : Fin 2) ∉ [(1 : Fin 2)] by decide)]

/-- Columns: the window's start on operand axis 1 for update `(b, s)` is the index `idx (s, 0)` read signed. -/
theorem colsDims_start1 {B N S w : Nat} (wf) (idx : IVec ⟨2, ![S, 1]⟩ w) (b : Fin B) (s : Fin S) :
    (colsDims B N S wf).start (ix2 b s) idx 1 = (idx (ix2 s (0 : Fin 1))).toInt := by
  unfold ScatterDims.start
  rw [dif_pos (show (1 : Fin 2) ∈ (colsDims B N S wf).scatterDimsToOperandDims from List.mem_singleton.mpr rfl)]
  have hsi : (colsDims B N S wf).siIdx (ix2 b s) ⟨List.idxOf (1 : Fin 2) (colsDims B N S wf).scatterDimsToOperandDims,
      List.idxOf_lt_length_iff.2 (List.mem_singleton.mpr rfl)⟩ = ix2 s (0 : Fin 1) := by
    funext a; refine Fin.ext ?_
    match a with
    | ⟨0, _⟩ => rfl
    | ⟨1, _⟩ => rfl
  rw [hsi]

/-- Columns: the window coordinate of update `(b, s)` on operand axis 0 is `b`. -/
theorem colsDims_window0 {B N S : Nat} (wf) (b : Fin B) (s : Fin S) :
    (colsDims B N S wf).window (ix2 b s) 0 = b.val := by
  unfold ScatterDims.window
  have h : (0 : Fin 2) ∈ (colsDims B N S wf).sKept :=
    show (0 : Fin 2) ∈ (List.finRange 2).filter (· ∉ [(1 : Fin 2)]) by decide
  rw [dif_pos h]
  rfl

/-- Columns: the window coordinate on operand axis 1 (the inserted axis) is `0`. -/
theorem colsDims_window1 {B N S : Nat} (wf) (j : (⟨2, ![B, S]⟩ : Shape).Idx) :
    (colsDims B N S wf).window j 1 = 0 := by
  unfold ScatterDims.window
  have h : (1 : Fin 2) ∉ (colsDims B N S wf).sKept :=
    show (1 : Fin 2) ∉ (List.finRange 2).filter (· ∉ [(1 : Fin 2)]) by decide
  rw [dif_neg h]

/-- Columns: update `(b, s)` lands at `(b, idx s)` when `idx s`, read signed, is in `[0, N)`; otherwise it is dropped. -/
theorem colsDims_resultIdx? {B N S w : Nat} (wf) (idx : IVec ⟨2, ![S, 1]⟩ w) (b : Fin B) (s : Fin S) :
    (colsDims B N S wf).resultIdx? (ix2 b s) idx
      = if h : 0 ≤ (idx (ix2 s (0 : Fin 1))).toInt ∧ (idx (ix2 s (0 : Fin 1))).toInt < N then
          some (ix2 b ⟨(idx (ix2 s (0 : Fin 1))).toInt.toNat, by omega⟩) else none := by
  unfold ScatterDims.resultIdx?
  have hb := b.isLt
  by_cases h : 0 ≤ (idx (ix2 s (0 : Fin 1))).toInt ∧ (idx (ix2 s (0 : Fin 1))).toInt < N
  · have hall : ∀ a : Fin 2, 0 ≤ (colsDims B N S wf).start (ix2 b s) idx a + (colsDims B N S wf).window (ix2 b s) a ∧
        (colsDims B N S wf).start (ix2 b s) idx a + (colsDims B N S wf).window (ix2 b s) a
          < ((⟨2, ![B, N]⟩ : Shape).size a : Int) := by
      intro a
      match a with
      | ⟨0, _⟩ =>
        show 0 ≤ (colsDims B N S wf).start (ix2 b s) idx 0 + (colsDims B N S wf).window (ix2 b s) 0 ∧
          (colsDims B N S wf).start (ix2 b s) idx 0 + (colsDims B N S wf).window (ix2 b s) 0 < (B : Int)
        rw [colsDims_start0, colsDims_window0]
        omega
      | ⟨1, _⟩ =>
        show 0 ≤ (colsDims B N S wf).start (ix2 b s) idx 1 + (colsDims B N S wf).window (ix2 b s) 1 ∧
          (colsDims B N S wf).start (ix2 b s) idx 1 + (colsDims B N S wf).window (ix2 b s) 1 < (N : Int)
        rw [colsDims_start1, colsDims_window1]
        omega
    rw [dif_pos hall, dif_pos h]
    congr 1
    funext a
    refine Fin.ext ?_
    match a with
    | ⟨0, _⟩ =>
      show ((colsDims B N S wf).start (ix2 b s) idx 0 + (colsDims B N S wf).window (ix2 b s) 0).toNat = b.val
      rw [colsDims_start0, colsDims_window0]
      omega
    | ⟨1, _⟩ =>
      show ((colsDims B N S wf).start (ix2 b s) idx 1 + (colsDims B N S wf).window (ix2 b s) 1).toNat
        = (idx (ix2 s (0 : Fin 1))).toInt.toNat
      rw [colsDims_start1, colsDims_window1]
      omega
  · rw [dif_neg h, dif_neg]
    intro hall
    have h1 : 0 ≤ (colsDims B N S wf).start (ix2 b s) idx 1 + (colsDims B N S wf).window (ix2 b s) 1 ∧
          (colsDims B N S wf).start (ix2 b s) idx 1 + (colsDims B N S wf).window (ix2 b s) 1 < (N : Int) := hall 1
    rw [colsDims_start1, colsDims_window1] at h1
    exact h (by omega)

/-- Columns: update `(b', s)` lands at `(b, n)` exactly when `b' = b` and `idx s`, read signed, is `n`. -/
theorem colsDims_resultIdx?_eq_some {B N S w : Nat} (wf) (idx : IVec ⟨2, ![S, 1]⟩ w) (b' b : Fin B) (s : Fin S) (n : Fin N) :
    (colsDims B N S wf).resultIdx? (ix2 b' s) idx = some (ix2 b n)
      ↔ b' = b ∧ (idx (ix2 s (0 : Fin 1))).toInt = (n.val : Int) := by
  rw [colsDims_resultIdx?]
  have hn := n.isLt
  constructor
  · intro h
    split at h
    · have hi := Option.some.inj h
      have h0 : b' = b := congrFun hi 0
      have h1 : (idx (ix2 s (0 : Fin 1))).toInt.toNat = n.val := congrArg Fin.val (congrFun hi 1)
      exact ⟨h0, by omega⟩
    · cases h
  · rintro ⟨rfl, hq⟩
    have hc : 0 ≤ (idx (ix2 s (0 : Fin 1))).toInt ∧ (idx (ix2 s (0 : Fin 1))).toInt < N := by omega
    rw [dif_pos hc]
    congr 1
    funext a
    match a with
    | ⟨0, _⟩ => rfl
    | ⟨1, _⟩ => exact Fin.ext (show (idx (ix2 s (0 : Fin 1))).toInt.toNat = n.val by omega)

/-- THE COLUMN SCATTER READ AT `(b, n)`: the operand's element plus the updates `upd (b, s)` over the `s` whose index
    `idx s`, read signed, is `n`. -/
theorem scatterAdd_cols_apply {B N S w : Nat} (wf) (x : (⟨2, ![B, N]⟩ : Shape).Idx → EReal) (idx : IVec ⟨2, ![S, 1]⟩ w)
    (upd : (⟨2, ![B, S]⟩ : Shape).Idx → EReal) (b : Fin B) (n : Fin N) :
    Ideal.hostScatterAdd (colsDims B N S wf) x idx upd (ix2 b n)
      = x (ix2 b n) + ∑ s ∈ Finset.univ.filter (fun s : Fin S => (idx (ix2 s (0 : Fin 1))).toInt = (n.val : Int)), upd (ix2 b s) := by
  unfold Ideal.hostScatterAdd
  congr 1
  rw [Finset.sum_filter, sum_idx2, Finset.sum_filter, Finset.sum_eq_single b]
  · refine Finset.sum_congr rfl fun s _ => ?_
    by_cases hq : (idx (ix2 s (0 : Fin 1))).toInt = (n.val : Int)
    · rw [if_pos hq, if_pos ((colsDims_resultIdx?_eq_some wf idx b b s n).2 ⟨rfl, hq⟩)]
    · rw [if_neg hq, if_neg fun h => hq ((colsDims_resultIdx?_eq_some wf idx b b s n).1 h).2]
  · intro b' _ hne
    refine Finset.sum_eq_zero fun s _ => ?_
    rw [if_neg fun h => hne ((colsDims_resultIdx?_eq_some wf idx b' b s n).1 h).1]
  · intro h
    exact absurd (Finset.mem_univ b) h

/-! ## Rows: operand `[N, B]`, indices `[S, 1]`, updates `[S, B]` -/

/-- The dimension numbers of "add update row `s` into operand row `idx s`": operand `[N, B]`, scatter indices `[S, 1]`,
    updates `[S, B]`; the updates' axis 1 is the window axis (it goes to the operand's axis 1), the operand's axis 0 is
    inserted and is the one the index names. Their conditions `wf` are decided on a program's literal shapes. -/
abbrev rowsDims (N B S : Nat) (wf : ScatterDims.WF ⟨2, ![N, B]⟩ ⟨2, ![S, 1]⟩ ⟨2, ![S, B]⟩ [1] [0] [0] 1) :
    ScatterDims ⟨2, ![N, B]⟩ ⟨2, ![S, 1]⟩ ⟨2, ![S, B]⟩ :=
  { updateWindowDims := [1], insertedWindowDims := [0], scatterDimsToOperandDims := [0], indexVectorDim := 1, wf := wf }

/-- Rows: the window's start on operand axis 0 for update `(s, b)` is the index `idx (s, 0)` read signed. -/
theorem rowsDims_start0 {N B S w : Nat} (wf) (idx : IVec ⟨2, ![S, 1]⟩ w) (s : Fin S) (b : Fin B) :
    (rowsDims N B S wf).start (ix2 s b) idx 0 = (idx (ix2 s (0 : Fin 1))).toInt := by
  unfold ScatterDims.start
  rw [dif_pos (show (0 : Fin 2) ∈ (rowsDims N B S wf).scatterDimsToOperandDims from List.mem_singleton.mpr rfl)]
  have hsi : (rowsDims N B S wf).siIdx (ix2 s b) ⟨List.idxOf (0 : Fin 2) (rowsDims N B S wf).scatterDimsToOperandDims,
      List.idxOf_lt_length_iff.2 (List.mem_singleton.mpr rfl)⟩ = ix2 s (0 : Fin 1) := by
    funext a; refine Fin.ext ?_
    match a with
    | ⟨0, _⟩ => rfl
    | ⟨1, _⟩ => rfl
  rw [hsi]

/-- Rows: the window's start on operand axis 1 is `0` (the index names axis 0 only). -/
theorem rowsDims_start1 {N B S w : Nat} (wf) (idx : IVec ⟨2, ![S, 1]⟩ w) (j : (⟨2, ![S, B]⟩ : Shape).Idx) :
    (rowsDims N B S wf).start j idx 1 = 0 := by
  unfold ScatterDims.start
  rw [dif_neg (show (1 : Fin 2) ∉ [(0 : Fin 2)] by decide)]

/-- Rows: the window coordinate on operand axis 0 (the inserted axis) is `0`. -/
theorem rowsDims_window0 {N B S : Nat} (wf) (j : (⟨2, ![S, B]⟩ : Shape).Idx) :
    (rowsDims N B S wf).window j 0 = 0 := by
  unfold ScatterDims.window
  have h : (0 : Fin 2) ∉ (rowsDims N B S wf).sKept :=
    show (0 : Fin 2) ∉ (List.finRange 2).filter (· ∉ [(0 : Fin 2)]) by decide
  rw [dif_neg h]

/-- Rows: the window coordinate of update `(s, b)` on operand axis 1 is `b`. -/
theorem rowsDims_window1 {N B S : Nat} (wf) (s : Fin S) (b : Fin B) :
    (rowsDims N B S wf).window (ix2 s b) 1 = b.val := by
  unfold ScatterDims.window
  have h : (1 : Fin 2) ∈ (rowsDims N B S wf).sKept :=
    show (1 : Fin 2) ∈ (List.finRange 2).filter (· ∉ [(0 : Fin 2)]) by decide
  rw [dif_pos h]
  rfl

/-- Rows: update `(s, b)` lands at `(idx s, b)` when `idx s`, read signed, is in `[0, N)`; otherwise it is dropped. -/
theorem rowsDims_resultIdx? {N B S w : Nat} (wf) (idx : IVec ⟨2, ![S, 1]⟩ w) (s : Fin S) (b : Fin B) :
    (rowsDims N B S wf).resultIdx? (ix2 s b) idx
      = if h : 0 ≤ (idx (ix2 s (0 : Fin 1))).toInt ∧ (idx (ix2 s (0 : Fin 1))).toInt < N then
          some (ix2 ⟨(idx (ix2 s (0 : Fin 1))).toInt.toNat, by omega⟩ b) else none := by
  unfold ScatterDims.resultIdx?
  have hb := b.isLt
  by_cases h : 0 ≤ (idx (ix2 s (0 : Fin 1))).toInt ∧ (idx (ix2 s (0 : Fin 1))).toInt < N
  · have hall : ∀ a : Fin 2, 0 ≤ (rowsDims N B S wf).start (ix2 s b) idx a + (rowsDims N B S wf).window (ix2 s b) a ∧
        (rowsDims N B S wf).start (ix2 s b) idx a + (rowsDims N B S wf).window (ix2 s b) a
          < ((⟨2, ![N, B]⟩ : Shape).size a : Int) := by
      intro a
      match a with
      | ⟨0, _⟩ =>
        show 0 ≤ (rowsDims N B S wf).start (ix2 s b) idx 0 + (rowsDims N B S wf).window (ix2 s b) 0 ∧
          (rowsDims N B S wf).start (ix2 s b) idx 0 + (rowsDims N B S wf).window (ix2 s b) 0 < (N : Int)
        rw [rowsDims_start0, rowsDims_window0]
        omega
      | ⟨1, _⟩ =>
        show 0 ≤ (rowsDims N B S wf).start (ix2 s b) idx 1 + (rowsDims N B S wf).window (ix2 s b) 1 ∧
          (rowsDims N B S wf).start (ix2 s b) idx 1 + (rowsDims N B S wf).window (ix2 s b) 1 < (B : Int)
        rw [rowsDims_start1, rowsDims_window1]
        omega
    rw [dif_pos hall, dif_pos h]
    congr 1
    funext a
    refine Fin.ext ?_
    match a with
    | ⟨0, _⟩ =>
      show ((rowsDims N B S wf).start (ix2 s b) idx 0 + (rowsDims N B S wf).window (ix2 s b) 0).toNat
        = (idx (ix2 s (0 : Fin 1))).toInt.toNat
      rw [rowsDims_start0, rowsDims_window0]
      omega
    | ⟨1, _⟩ =>
      show ((rowsDims N B S wf).start (ix2 s b) idx 1 + (rowsDims N B S wf).window (ix2 s b) 1).toNat = b.val
      rw [rowsDims_start1, rowsDims_window1]
      omega
  · rw [dif_neg h, dif_neg]
    intro hall
    have h0 : 0 ≤ (rowsDims N B S wf).start (ix2 s b) idx 0 + (rowsDims N B S wf).window (ix2 s b) 0 ∧
          (rowsDims N B S wf).start (ix2 s b) idx 0 + (rowsDims N B S wf).window (ix2 s b) 0 < (N : Int) := hall 0
    rw [rowsDims_start0, rowsDims_window0] at h0
    exact h (by omega)

/-- Rows: update `(s, b')` lands at `(n, b)` exactly when `b' = b` and `idx s`, read signed, is `n`. -/
theorem rowsDims_resultIdx?_eq_some {N B S w : Nat} (wf) (idx : IVec ⟨2, ![S, 1]⟩ w) (s : Fin S) (b' b : Fin B) (n : Fin N) :
    (rowsDims N B S wf).resultIdx? (ix2 s b') idx = some (ix2 n b)
      ↔ b' = b ∧ (idx (ix2 s (0 : Fin 1))).toInt = (n.val : Int) := by
  rw [rowsDims_resultIdx?]
  have hn := n.isLt
  constructor
  · intro h
    split at h
    · have hi := Option.some.inj h
      have h1 : b' = b := congrFun hi 1
      have h0 : (idx (ix2 s (0 : Fin 1))).toInt.toNat = n.val := congrArg Fin.val (congrFun hi 0)
      exact ⟨h1, by omega⟩
    · cases h
  · rintro ⟨rfl, hq⟩
    have hc : 0 ≤ (idx (ix2 s (0 : Fin 1))).toInt ∧ (idx (ix2 s (0 : Fin 1))).toInt < N := by omega
    rw [dif_pos hc]
    congr 1
    funext a
    match a with
    | ⟨0, _⟩ => exact Fin.ext (show (idx (ix2 s (0 : Fin 1))).toInt.toNat = n.val by omega)
    | ⟨1, _⟩ => rfl

/-- THE ROW SCATTER READ AT `(n, b)`: the operand's element plus the updates `upd (s, b)` over the `s` whose index
    `idx s`, read signed, is `n`. -/
theorem scatterAdd_rows_apply {N B S w : Nat} (wf) (x : (⟨2, ![N, B]⟩ : Shape).Idx → EReal) (idx : IVec ⟨2, ![S, 1]⟩ w)
    (upd : (⟨2, ![S, B]⟩ : Shape).Idx → EReal) (n : Fin N) (b : Fin B) :
    Ideal.hostScatterAdd (rowsDims N B S wf) x idx upd (ix2 n b)
      = x (ix2 n b) + ∑ s ∈ Finset.univ.filter (fun s : Fin S => (idx (ix2 s (0 : Fin 1))).toInt = (n.val : Int)), upd (ix2 s b) := by
  unfold Ideal.hostScatterAdd
  congr 1
  rw [Finset.sum_filter, sum_idx2, Finset.sum_filter]
  refine Finset.sum_congr rfl fun s _ => ?_
  rw [Finset.sum_eq_single b]
  · by_cases hq : (idx (ix2 s (0 : Fin 1))).toInt = (n.val : Int)
    · rw [if_pos hq, if_pos ((rowsDims_resultIdx?_eq_some wf idx s b b n).2 ⟨rfl, hq⟩)]
    · rw [if_neg hq, if_neg fun h => hq ((rowsDims_resultIdx?_eq_some wf idx s b b n).1 h).2]
  · intro b' _ hne
    rw [if_neg fun h => hne ((rowsDims_resultIdx?_eq_some wf idx s b' b n).1 h).1]
  · intro h
    exact absurd (Finset.mem_univ b) h

/-! ## The two layouts are transposes of one another -/

/-- The two layouts are transposes of one another: if `x' (n, b) = x (b, n)` and `upd' (s, b) = upd (b, s)` then the
    column scatter at `(b, n)` is the row scatter at `(n, b)`. -/
theorem scatterAdd_cols_eq_rows {B N S w : Nat} (wfc) (wfr) (x : (⟨2, ![B, N]⟩ : Shape).Idx → EReal)
    (x' : (⟨2, ![N, B]⟩ : Shape).Idx → EReal) (idx : IVec ⟨2, ![S, 1]⟩ w) (upd : (⟨2, ![B, S]⟩ : Shape).Idx → EReal)
    (upd' : (⟨2, ![S, B]⟩ : Shape).Idx → EReal) (hx : ∀ b n, x (ix2 b n) = x' (ix2 n b))
    (hu : ∀ b s, upd (ix2 b s) = upd' (ix2 s b)) (b : Fin B) (n : Fin N) :
    Ideal.hostScatterAdd (colsDims B N S wfc) x idx upd (ix2 b n)
      = Ideal.hostScatterAdd (rowsDims N B S wfr) x' idx upd' (ix2 n b) := by
  rw [scatterAdd_cols_apply, scatterAdd_rows_apply, hx]
  congr 1
  exact Finset.sum_congr rfl fun s _ => hu b s

end Idealize.ShloMosaic.ScatterAxis

end
-- ==== Proof.RefRead.lean ====
/-
  The float stretch of the reference read at an index: over ANY edge list whose source and target words name nodes in
  range, entry `(i, k)` of the result is the layer by edge list (`Cert.Gat.outR`).
-/
import proofs.«104574_g83193516523656_cont_sun_m_929_5_alg».proof.Proof.RefFlow
import proofs.«104574_g83193516523656_cont_sun_m_929_5_alg».proof.Proof.Spec
import proofs.«104574_g83193516523656_cont_sun_m_929_5_alg».proof.Proof.LibScatterVec
import proofs.«104574_g83193516523656_cont_sun_m_929_5_alg».proof.Proof.LibScatterAxis
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout
import Idealize.ShloMosaic.Lib.StackMember

noncomputable section

open scoped BigOperators

namespace Cert.ReferenceIdeal.Read

open Idealize.ShloMosaic Idealize.ShloMosaic.ValueIdx Cert.ReferenceIdeal Cert.ReferenceIdeal.Flow Cert.ReferenceIdeal.Facts₀

variable [Facts]

/-! ## Words -/

/-- A word that names a node, read signed, is the node's number. -/
theorem toInt_node (n : Fin 1024) : (BitVec.ofNat 32 n.val).toInt = (n.val : Int) := by
  have h := n.isLt
  rw [BitVec.toInt_eq_toNat_cond, BitVec.toNat_ofNat]
  have h2 : n.val % 2 ^ 32 = n.val := Nat.mod_eq_of_lt (by omega)
  rw [h2]
  split
  · rfl
  · omega

/-- A word that names a node is not negative. -/
theorem slt_node (n : Fin 1024) : IntOp.cmpi .slt (BitVec.ofNat 32 n.val) 0#32 = 0#1 := by
  have h := toInt_node n
  show BitVec.ofBool ((BitVec.ofNat 32 n.val).slt 0#32) = 0#1
  rw [BitVec.slt_eq_decide, h]
  have h0 : (0#32 : BitVec 32).toInt = 0 := by decide
  rw [h0]
  have : ¬ ((n.val : Int) < 0) := by omega
  simp [this]

/-- Wrapping negative entries leaves a word that names a node as it is. -/
theorem wrapNeg_apply (x : IVec S1048576 32) (f : Fin 1048576 → Fin 1024)
    (hx : ∀ e : Fin 1048576, x (ix1 e) = BitVec.ofNat 32 (f e).val) (e : Fin 1048576) :
    wrapNeg 1024#32 x (ix1 e) = BitVec.ofNat 32 (f e).val := by
  show Scalar.select (IntOp.cmpi .slt (x (ix1 e)) 0#32) _ (x (ix1 e)) = _
  rw [hx e, slt_node, select_zero]

/-- An index vector as a column reads the vector. -/
theorem asColumn_apply (x : IVec S1048576 32) (e : Fin 1048576) : asColumn x (ix2 e (0 : Fin 1)) = x (ix1 e) := by
  unfold asColumn
  refine broadcastInDim_apply _ _ x _ (ix1 e) fun a => ?_
  match a with
  | ⟨0, _⟩ => rfl

/-! ## The projected features -/

/-- The projected features at an index. -/
theorem hV_apply (X : FVec Ideal S1024x128 .f32) (W : FVec Ideal S128x128 .f32) (j : Fin 1024) (k : Fin 128) :
    hV (F := Ideal) X W (ix2 j k) = Cert.Gat.h X W j k := by
  unfold hV Cert.Gat.h
  exact StackMember.dotGeneral_plain_apply (m := 1024) (n := 128) (k := 128) none X W j k

/-! ## Rows named by an index vector -/

/-- The dimension numbers of "row `e` of the result is the operand's row `idx e`": operand `[N, B]`, start indices
    `[S, 1]`, result `[S, B]`; the operand's axis 0 is collapsed and is the one the index names, its axis 1 is the
    result's offset axis 1. -/
abbrev rowsTake (N B S : Nat) (wf : GatherDims.WF ⟨2, ![N, B]⟩ ⟨2, ![S, 1]⟩ ⟨2, ![S, B]⟩ [1] [0] [] [0] [] 1 ![1, B]) :
    GatherDims ⟨2, ![N, B]⟩ ⟨2, ![S, 1]⟩ ⟨2, ![S, B]⟩ where
  offsetDims := [1]
  collapsedSliceDims := [0]
  operandBatchingDims := []
  startIndicesBatchingDims := []
  startIndexMap := [0]
  indexVectorDim := 1
  sliceSizes := ![1, B]
  wf := wf

/-- On the operand's axis 0 result index `(e, k)` reads the start index `idx (e, 0)`, read signed and clamped. -/
theorem rowsTake_coord0 {N B S w : Nat} (wf) (idx : IVec ⟨2, ![S, 1]⟩ w) (e : Fin S) (k : Fin B) :
    ((rowsTake N B S wf).operandIdx (ix2 e k) idx 0).val = min (idx (ix2 e (0 : Fin 1))).toInt.toNat (N - 1) := by
  show (rowsTake N B S wf).start (ix2 e k) idx 0 + (rowsTake N B S wf).batchCoord (ix2 e k) 0
    + (rowsTake N B S wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsTake N B S wf).startIndexMap from List.mem_singleton.mpr rfl)]
  have hsi : (rowsTake N B S wf).siIdx (ix2 e k) ⟨List.idxOf (0 : Fin 2) (rowsTake N B S wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 result index `(e, k)` reads column `k`. -/
theorem rowsTake_coord1 {N B S w : Nat} (wf) (idx : IVec ⟨2, ![S, 1]⟩ w) (e : Fin S) (k : Fin B) :
    ((rowsTake N B S wf).operandIdx (ix2 e k) idx 1).val = k.val := by
  show (rowsTake N B S wf).start (ix2 e k) idx 1 + (rowsTake N B S wf).batchCoord (ix2 e k) 1
    + (rowsTake N B S wf).offCoord (ix2 e k) 1 = _
  rw [GatherDims.batchCoord_eq_zero _ _ _ List.not_mem_nil]
  unfold GatherDims.start
  rw [dif_neg (by decide : (1 : Fin 2) ∉ [(0 : Fin 2)])]
  unfold GatherDims.offCoord
  rw [dif_pos ((GatherDims.mem_sKept _ _).mpr ⟨(by decide : (1 : Fin 2) ∉ [(0 : Fin 2)]), List.not_mem_nil⟩)]
  simp only [Nat.zero_add, Nat.add_zero]
  rfl

/-- THE GATHER OF ROWS READ AT `(e, k)`: the operand's row at the start index `idx (e, 0)`, read signed and clamped
    into the rows, at column `k`. -/
theorem gather_rowsTake_apply {α : Type} {N B S w : Nat} (hN : 0 < N) (wf) (x : (⟨2, ![N, B]⟩ : Shape).Idx → α)
    (idx : IVec ⟨2, ![S, 1]⟩ w) (e : Fin S) (k : Fin B) :
    Host.gather (rowsTake N B S wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rowsTake_coord0 wf idx e k
  | ⟨1, _⟩ => exact rowsTake_coord1 wf idx e k

/-- The rows an index vector names, where its words name nodes: row `e` is the row of the node. -/
theorem takeRows_apply (hm : FVec Ideal S1024x128 .f32) (x : IVec S1048576 32) (f : Fin 1048576 → Fin 1024)
    (hx : ∀ e : Fin 1048576, x (ix1 e) = BitVec.ofNat 32 (f e).val) (e : Fin 1048576) (k : Fin 128) :
    takeRows (F := Ideal) hm x (ix2 e k) = hm (ix2 (f e) k) := by
  unfold takeRows
  have hrec : gather_S1024x128_S1048576x1_S1048576x128_1_0_n_n_0_1_1128
      = rowsTake 1024 128 1048576 gather_S1024x128_S1048576x1_S1048576x128_1_0_n_n_0_1_1128_wf := rfl
  rw [hrec, gather_rowsTake_apply (by omega)]
  congr 1
  funext b
  refine Fin.ext ?_
  match b with
  | ⟨0, _⟩ =>
    show min (asColumn (wrapNeg 1024#32 x) (ix2 e (0 : Fin 1))).toInt.toNat (1024 - 1) = (f e).val
    rw [asColumn_apply, wrapNeg_apply x f hx, toInt_node]
    have := (f e).isLt
    omega
  | ⟨1, _⟩ => rfl

/-! ## The scores -/

/-- The transposed concatenation of two row blocks at `(c, e)`: the first block's `(e, c)` for `c` below its width, else
    the second block's `(e, c − 128)`. -/
theorem concatT_apply (P Q : FVec Ideal S1048576x128 .f32) (c : Fin 256) (e : Fin 1048576) :
    transpose S256x1048576 [1, 0]
        (concatenate S1048576x256 1 [⟨S1048576x128, P⟩, ⟨S1048576x128, Q⟩]
          concatenates_S1048576x128_S1048576x128_S1048576x256_d1)
        transposes_S1048576x256_S256x1048576_1_0 (ix2 c e)
      = if hk : c.val < 128 then P (ix2 e ⟨c.val, hk⟩) else Q (ix2 e ⟨c.val - 128, by omega⟩) := by
  rw [transpose_apply [1, 0] _ transposes_S1048576x256_S256x1048576_1_0 (ix2 c e) (ix2 e c)
    (fun b => by match b with | ⟨0, _⟩ => rfl | ⟨1, _⟩ => rfl)]
  by_cases hk : c.val < 128
  · rw [dif_pos hk]
    exact concatenate_pair_apply_left (1 : Fin 2) P Q concatenates_S1048576x128_S1048576x128_S1048576x256_d1 (ix2 e c) rfl
      (ix2 e ⟨c.val, hk⟩) (fun b => by match b with | ⟨0, _⟩ => rfl | ⟨1, _⟩ => rfl)
  · rw [dif_neg hk]
    exact concatenate_pair_apply_right (1 : Fin 2) P Q concatenates_S1048576x128_S1048576x128_S1048576x256_d1 (ix2 e c) rfl rfl
      (ix2 e ⟨c.val - 128, by omega⟩)
      (fun b hb => by match b with | ⟨0, _⟩ => rfl | ⟨1, _⟩ => exact absurd rfl hb)
      (by show (c.val - 128) + 128 = c.val; omega)

section Parts

variable (X : FVec Ideal S1024x128 .f32) (W : FVec Ideal S128x128 .f32) (a : FVec Ideal S1x256 .f32)
  (sv dv : IVec S1048576 32) (vv : IVec S1048576 1) (src dst : Fin 1048576 → Fin 1024)

/-- Each edge slot's score is the score of the edge between the nodes its words name. -/
theorem scoreV_apply (hs : ∀ e : Fin 1048576, sv (ix1 e) = BitVec.ofNat 32 (src e).val)
    (hd : ∀ e : Fin 1048576, dv (ix1 e) = BitVec.ofNat 32 (dst e).val) (e : Fin 1048576) :
    scoreV (F := Ideal) X W a sv dv (ix1 e) = Cert.Gat.sR X W a src dst e := by
  unfold scoreV Cert.Gat.sR
  rw [shapeCast_1a_a_apply]
  refine (StackMember.dotGeneral_plain_apply (m := 1) (n := 1048576) (k := 256) none a _ 0 e).trans ?_
  refine Finset.sum_congr rfl fun c _ => ?_
  rw [concatT_apply]
  congr 1
  by_cases hk : c.val < 128
  · rw [dif_pos hk, dif_pos hk, takeRows_apply _ sv src hs, hV_apply]
  · rw [dif_neg hk, dif_neg hk, takeRows_apply _ dv dst hd, hV_apply]

/-! ## The weights -/

/-- The weight's pointwise operations at an edge slot, over any score vector. -/
theorem weight_pointwise (s : FVec Ideal S1048576 .f32) (e : Fin 1048576) :
    select vv (Host.exp (Host.negf (leaky s (constant S_ .f32 0x3C23D70A#32))))
        (broadcastInDim S1048576 ![] bcast_S_S1048576 (constant S_ .f32 0x00000000#32)) (ix1 e)
      = Scalar.select (vv (ix1 e))
          (Ideal.exp (-(Scalar.select (Ideal.cmp .oge (s (ix1 e)) 0) (s (ix1 e)) (Cert.Gat.slope * s (ix1 e))))) 0 := by
  show Scalar.select (vv (ix1 e))
    (Ideal.exp (-(Scalar.select (Ideal.cmp .oge (s (ix1 e)) (Ideal.ofBits .f32 0x00000000#32)) (s (ix1 e))
      (Ideal.ofBits .f32 0x3C23D70A#32 * s (ix1 e))))) (Ideal.ofBits .f32 0x00000000#32) = _
  rw [Ideal.ofBits_zero_f32]
  rfl

/-- Each edge slot's weight is the weight of the edge between the nodes its words name, counted when its flag is set. -/
theorem weightV_apply (hs : ∀ e : Fin 1048576, sv (ix1 e) = BitVec.ofNat 32 (src e).val)
    (hd : ∀ e : Fin 1048576, dv (ix1 e) = BitVec.ofNat 32 (dst e).val) (e : Fin 1048576) :
    weightV (F := Ideal) X W a sv dv vv (ix1 e) = Cert.Gat.wR X W a src dst (fun e => vv (ix1 e)) e := by
  unfold weightV
  rw [weight_pointwise, scoreV_apply X W a sv dv src dst hs hd]
  rfl

/-! ## The two accumulating scatters -/

/-- The host's accumulating scatter at the ideal values is the exact sum. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The edge slots whose source word, read signed, is `i` are the edges leaving node `i`. -/
theorem filter_src (hs : ∀ e : Fin 1048576, sv (ix1 e) = BitVec.ofNat 32 (src e).val) (i : Fin 1024) :
    (Finset.univ.filter fun s : Fin 1048576 => (asColumn sv (ix2 s (0 : Fin 1))).toInt = (i.val : Int))
      = Finset.univ.filter fun e : Fin 1048576 => src e = i := by
  refine Finset.filter_congr fun s _ => ?_
  rw [asColumn_apply, hs s, toInt_node]
  constructor
  · intro h
    exact Fin.ext (by exact_mod_cast h)
  · intro h
    rw [h]

/-- A weight vector laid along the rows of the gathered block reads, at `(e, k)`, the weight of `e`. -/
theorem weightCol_apply (w : FVec Ideal S1048576 .f32) (e : Fin 1048576) (k : Fin 128) :
    broadcastInDim S1048576x128 ![0, 1] bcast_S1048576x1_S1048576x128_0_1
        (broadcastInDim S1048576x1 ![0] bcast_S1048576_S1048576x1_0 w) (ix2 e k) = w (ix1 e) := by
  rw [broadcastInDim_apply _ _ _ (ix2 e k) (ix2 e (0 : Fin 1)) (fun a => by match a with | ⟨0, _⟩ => rfl | ⟨1, _⟩ => rfl),
    broadcastInDim_apply _ _ _ (ix2 e (0 : Fin 1)) (ix1 e) (fun a => by match a with | ⟨0, _⟩ => rfl)]

/-- Each node's total weight is the sum of the weights of the edges leaving it. -/
theorem rowSumV_apply (hs : ∀ e : Fin 1048576, sv (ix1 e) = BitVec.ofNat 32 (src e).val)
    (hd : ∀ e : Fin 1048576, dv (ix1 e) = BitVec.ofNat 32 (dst e).val) (i : Fin 1024) :
    rowSumV (F := Ideal) X W a sv dv vv (ix2 i (0 : Fin 1)) = Cert.Gat.rowR X W a src dst (fun e => vv (ix1 e)) i := by
  unfold rowSumV Cert.Gat.rowR
  have hrec : scatter_S1024_S1048576x1_S1048576_n_0_0_1
      = ScatterVec.vecDims 1024 1048576 scatter_S1024_S1048576x1_S1048576_n_0_0_1_wf := rfl
  rw [broadcastInDim_apply _ _ _ (ix2 i (0 : Fin 1)) (ix1 i) (fun a => by match a with | ⟨0, _⟩ => rfl),
    hostScatterAdd_eq, hrec, ScatterVec.scatterAdd_vec_apply,
    show (broadcastInDim S1024 ![] bcast_S_S1024 (constant (F := Ideal) S_ .f32 0x00000000#32)) (ix1 i) = 0
      from Ideal.ofBits_zero_f32,
    zero_add, filter_src sv src hs i]
  exact Finset.sum_congr rfl fun e _ => weightV_apply X W a sv dv vv src dst hs hd e

/-- Each node's weighted sum of target rows is the sum over the edges leaving it. -/
theorem aggV_apply (hs : ∀ e : Fin 1048576, sv (ix1 e) = BitVec.ofNat 32 (src e).val)
    (hd : ∀ e : Fin 1048576, dv (ix1 e) = BitVec.ofNat 32 (dst e).val) (i : Fin 1024) (k : Fin 128) :
    aggV (F := Ideal) X W a sv dv vv (ix2 i k) = Cert.Gat.aggR X W a src dst (fun e => vv (ix1 e)) i k := by
  unfold aggV Cert.Gat.aggR
  have hrec : scatter_S1024x128_S1048576x1_S1048576x128_1_0_0_1
      = ScatterAxis.rowsDims 1024 128 1048576 scatter_S1024x128_S1048576x1_S1048576x128_1_0_0_1_wf := rfl
  rw [hostScatterAdd_eq, hrec, ScatterAxis.scatterAdd_rows_apply,
    show (broadcastInDim S1024x128 ![] bcast_S_S1024x128 (constant (F := Ideal) S_ .f32 0x00000000#32)) (ix2 i k) = 0
      from Ideal.ofBits_zero_f32,
    zero_add, filter_src sv src hs i]
  refine Finset.sum_congr rfl fun e _ => ?_
  rw [mulf_apply, weightCol_apply, takeRows_apply _ dv dst hd, hV_apply, weightV_apply X W a sv dv vv src dst hs hd]

/-! ## The result -/

/-- `elu` at an index, over any array. -/
theorem elu_pointwise (x : FVec Ideal S1024x128 .f32) (j : S1024x128.Idx) : eluV (F := Ideal) x j = Cert.Gat.eluR (x j) := by
  show Scalar.select (Ideal.cmp .ogt (x j) (Ideal.ofBits .f32 0x00000000#32)) (x j)
    (Ideal.ofBits .f32 0x3F800000#32
      * (Ideal.exp (Scalar.select (Ideal.cmp .ogt (x j) (Ideal.ofBits .f32 0x00000000#32)) (Ideal.ofBits .f32 0x00000000#32) (x j)) - 1))
    = _
  rw [Ideal.ofBits_zero_f32]
  rfl

end Parts

theorem refFloat_apply (X : FVec Ideal S1024x128 .f32) (W : FVec Ideal S128x128 .f32) (a : FVec Ideal S1x256 .f32)
    (sv dv : IVec S1048576 32) (vv : IVec S1048576 1) (src dst : Fin 1048576 → Fin 1024)
    (hs : ∀ e : Fin 1048576, sv (ix1 e) = BitVec.ofNat 32 (src e).val)
    (hd : ∀ e : Fin 1048576, dv (ix1 e) = BitVec.ofNat 32 (dst e).val)
    (i : Fin 1024) (k : Fin 128) :
    refFloat (F := Ideal) X W a sv dv vv (ix2 i k) = Cert.Gat.outR X W a src dst (fun e => vv (ix1 e)) i k := by
  unfold refFloat Cert.Gat.outR
  rw [elu_pointwise, hostDivf_apply, aggV_apply X W a sv dv vv src dst hs hd,
    broadcastInDim_apply _ _ _ (ix2 i k) (ix2 i (0 : Fin 1)) (fun a => by match a with | ⟨0, _⟩ => rfl | ⟨1, _⟩ => rfl),
    rowSumV_apply X W a sv dv vv src dst hs hd]

end Cert.ReferenceIdeal.Read

end
-- ==== Proof.RefValue.lean ====
/-
  The reference's result is the dense layer of its arguments, entry by entry: its integer stretch is an edge list of the
  adjacency matrix, its float stretch over any such list is the layer by edge list, and the layer by edge list over an
  enumeration of the matrix is the dense layer.
-/
import proofs.«104574_g83193516523656_cont_sun_m_929_5_alg».proof.Proof.RefFlow
import proofs.«104574_g83193516523656_cont_sun_m_929_5_alg».proof.Proof.Spec
import proofs.«104574_g83193516523656_cont_sun_m_929_5_alg».proof.Proof.Bridge
import proofs.«104574_g83193516523656_cont_sun_m_929_5_alg».proof.Proof.EdgeList
import proofs.«104574_g83193516523656_cont_sun_m_929_5_alg».proof.Proof.RefRead

noncomputable section

namespace Cert.ReferenceIdeal.RefValue

open Idealize.ShloMosaic Idealize.ShloMosaic.ValueIdx Cert.ReferenceIdeal

variable [Facts]

theorem refOut_eq (X : FVec Ideal S1024x128 .f32) (W : FVec Ideal S128x128 .f32) (a : FVec Ideal S1x256 .f32)
    (adj : IVec S1024x1024 32) :
    Flow.refOut (F := Ideal) X W a adj
      = fun idx : S1024x128.Idx => Cert.Gat.outK X W a adj (idx 0) (idx 1) := by
  funext idx
  obtain ⟨src, dst, hs, hd, hsum⟩ := EdgeList.edge_sum adj
  obtain ⟨i, k, rfl⟩ : ∃ (i : Fin 1024) (k : Fin 128), idx = ix2 i k := ⟨idx 0, idx 1, eq_ix2 idx⟩
  show Flow.refFloat (F := Ideal) X W a (Flow.srcV adj) (Flow.dstV adj) (Flow.validV adj) (ix2 i k)
    = Cert.Gat.outK X W a adj i k
  rw [Read.refFloat_apply X W a _ _ _ src dst hs hd]
  exact Cert.Gat.outR_eq_outK X W a adj src dst _ hsum i k

end Cert.ReferenceIdeal.RefValue

end
-- ==== Proof.lean ====
/-
  A graph-attention layer two ways: a dense masked attention over the adjacency matrix, computed block of rows by block of
  rows, against the same layer computed over the list of the matrix's non-zero entries.

  With `h = X · W`, `f i = ∑ₖ h i k · a k` and `g j = ∑ₖ a (128 + k) · h j k`, edge `i → j` (wherever `A i j ≠ 0`) weighs
  `exp (−leaky_relu (f i + g j))`, and node `i`'s output row is `elu` of the weighted mean of its neighbours' rows of `h`.

  * The dense program keeps `h`, `f`, `g` from its first block of rows on and, for each block, lays the weights of its rows
    over all columns, zero off the edges; what its result holds, entry by entry, is `Cert.Gat.outK` (Proof/KernelValue.lean).
  * The other program enumerates the non-zero entries by running counts (Proof/Enum.lean, Proof/IntFlow.lean,
    Proof/EdgeList.lean), gathers the two ends' rows of `h` per entry, and accumulates weights and weighted rows per
    source node (Proof/RefRun.lean, Proof/RefRead.lean); its result is the same function of the arguments
    (Proof/RefValue.lean), because a sum over the enumerated entries of a row is the sum over that row's non-zero
    columns and `−leaky_relu s = min (−s) (−c · s)` for the slope `0 < c < 1` (Proof/Bridge.lean).

  Addition and multiplication are only ever re-ordered and re-grouped, so the precondition (finite inputs) is not needed
  for the values; the three frames are the programs' runs with the results dropped.
-/
import proofs.«104574_g83193516523656_cont_sun_m_929_5_alg».proof.Defs
import proofs.«104574_g83193516523656_cont_sun_m_929_5_alg».proof.Proof.Gen.Kernel
import proofs.«104574_g83193516523656_cont_sun_m_929_5_alg».proof.Proof.Gen.Kernel.Frame
import proofs.«104574_g83193516523656_cont_sun_m_929_5_alg».proof.Proof.Gen.KernelIdeal
import proofs.«104574_g83193516523656_cont_sun_m_929_5_alg».proof.Proof.Gen.KernelIdeal.Frame
import proofs.«104574_g83193516523656_cont_sun_m_929_5_alg».proof.Proof.Gen.ReferenceIdeal
import proofs.«104574_g83193516523656_cont_sun_m_929_5_alg».proof.Proof.Gen.Pre_finite_inputs
import proofs.«104574_g83193516523656_cont_sun_m_929_5_alg».proof.Proof.KernelValue
import proofs.«104574_g83193516523656_cont_sun_m_929_5_alg».proof.Proof.RefRun
import proofs.«104574_g83193516523656_cont_sun_m_929_5_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs end with the dense layer of the (agreeing) arguments in their result buffers. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]
  exact Cert.ReferenceIdeal.RefValue.refOut_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
